-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1000000 : Shape := ⟨2, ![32, 1000000]⟩
abbrev S1000000 : Shape := ⟨1, ![1000000]⟩
abbrev S_ : Shape := ⟨0, ![]⟩

class Facts : Prop where
  bcast_S_S32x1000000 : S_.BroadcastsInDim S32x1000000 (![] : Fin 0 → Fin S32x1000000.rank)
  reducesTo_S32x1000000_S_d0_1 : S32x1000000.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S32x1000000 .f32) (main_arg1 : IVec S1000000 32) (main_arg2 : FVec F S1000000 .f32) : IVec S_ 1 :=
  let main_v0 : FVec F S32x1000000 .f32 := Host.absf main_arg0
  let main_cst : FVec F S_ .f32 := constant S_ .f32 0x7F800000#32
  let main_v1 : FVec F S32x1000000 .f32 := broadcastInDim S32x1000000 ![] bcast_S_S32x1000000 main_cst
  let main_v2 : IVec S32x1000000 1 := cmpf .olt main_v0 main_v1
  let main_c : IVec S_ 1 := constantI S_ 1 1#1
  let main_v3 : IVec S_ 1 := (fun x v => Host.reduce IntOp.andi x v reducesTo_S32x1000000_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg1 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  main_v12
-- ==== Kernel.lean ====
abbrev S32x1000000 : Shape := ⟨2, ![32, 1000000]⟩
abbrev S1000000 : Shape := ⟨1, ![1000000]⟩
abbrev S2x32x1024 : Shape := ⟨3, ![2, 32, 1024]⟩
abbrev S32x8192 : Shape := ⟨2, ![32, 8192]⟩
abbrev S8192 : Shape := ⟨1, ![8192]⟩
abbrev S1x32x1024 : Shape := ⟨3, ![1, 32, 1024]⟩
abbrev S32x1024 : Shape := ⟨2, ![32, 1024]⟩
abbrev S1024x2048 : Shape := ⟨2, ![1024, 2048]⟩
abbrev S32x2048 : Shape := ⟨2, ![32, 2048]⟩
abbrev S2048 : Shape := ⟨1, ![2048]⟩
abbrev S1x2048 : Shape := ⟨2, ![1, 2048]⟩
abbrev S32x576 : Shape := ⟨2, ![32, 576]⟩
abbrev S576 : Shape := ⟨1, ![576]⟩
abbrev S1024x576 : Shape := ⟨2, ![1024, 576]⟩
abbrev S1x576 : Shape := ⟨2, ![1, 576]⟩

abbrev nBuf : Space → Nat
  | .hbm => 14
  | .vmem => 12
  | .smem => 0
  | _ => 0

abbrev bufTy : (tb : Table) → Fin (tcTables nBuf tb) → BufTy
  | .hbm, ⟨0, _⟩ => ⟨S32x1000000, .f32⟩
  | .hbm, ⟨1, _⟩ => ⟨S1000000, .i32⟩
  | .hbm, ⟨2, _⟩ => ⟨S1000000, .f32⟩
  | .hbm, ⟨3, _⟩ => ⟨S2x32x1024, .f32⟩
  | .hbm, ⟨4, _⟩ => ⟨S1x32x1024, .f32⟩
  | .hbm, ⟨5, _⟩ => ⟨S32x1024, .f32⟩
  | .hbm, ⟨6, _⟩ => ⟨S1x32x1024, .f32⟩
  | .hbm, ⟨7, _⟩ => ⟨S32x1024, .f32⟩
  | .hbm, ⟨8, _⟩ => ⟨S32x1024, .f32⟩
  | .hbm, ⟨9, _⟩ => ⟨S32x576, .f32⟩
  | .hbm, ⟨10, _⟩ => ⟨S576, .i32⟩
  | .hbm, ⟨11, _⟩ => ⟨S576, .f32⟩
  | .hbm, ⟨12, _⟩ => ⟨S32x1024, .f32⟩
  | .hbm, ⟨13, _⟩ => ⟨S32x1024, .f32⟩
  | .local _ .vmem, ⟨0, _⟩ => ⟨S32x8192, .f32⟩
  | .local _ .vmem, ⟨1, _⟩ => ⟨S32x8192, .f32⟩
  | .local _ .vmem, ⟨2, _⟩ => ⟨S8192, .i32⟩
  | .local _ .vmem, ⟨3, _⟩ => ⟨S8192, .i32⟩
  | .local _ .vmem, ⟨4, _⟩ => ⟨S8192, .f32⟩
  | .local _ .vmem, ⟨5, _⟩ => ⟨S8192, .f32⟩
  | .local _ .vmem, ⟨6, _⟩ => ⟨S1x32x1024, .f32⟩
  | .local _ .vmem, ⟨7, _⟩ => ⟨S1x32x1024, .f32⟩
  | .local _ .vmem, ⟨8, _⟩ => ⟨S32x576, .f32⟩
  | .local _ .vmem, ⟨9, _⟩ => ⟨S576, .i32⟩
  | .local _ .vmem, ⟨10, _⟩ => ⟨S576, .f32⟩
  | .local _ .vmem, ⟨11, _⟩ => ⟨S32x1024, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨2, ![2, 61], ![false, false]⟩

def k0_mult1 : BitVec 32 :=
  let c0_i32_1 : BitVec 32 := 0#32
  let c2048_i32 : BitVec 32 := 2048#32
  let v4 : BitVec 32 := Scalar.muli c0_i32_1 c2048_i32
  v4
def k0_off1 (c0_i32_1 : BitVec 32) : Fin 2 → Nat :=
  let c0 : Index := 0#32
  let c2048_i32 : BitVec 32 := 2048#32
  let v4 : BitVec 32 := Scalar.muli c0_i32_1 c2048_i32
  let v5 : BitVec 32 := v4
  let v6 : Index := Scalar.indexCast v5
  ![0, v6.toNat]
def k0_off2 (c0_i32_1 : BitVec 32) : Fin 1 → Nat :=
  let c2048_i32 : BitVec 32 := 2048#32
  let v4 : BitVec 32 := Scalar.muli c0_i32_1 c2048_i32
  let v5 : BitVec 32 := v4
  let v8 : Index := Scalar.indexCast v5
  ![v8.toNat]
def k0_mult2 : BitVec 32 :=
  let c1_i32 : BitVec 32 := 1#32
  let c2048_i32_8 : BitVec 32 := 2048#32
  let v29 : BitVec 32 := Scalar.muli c1_i32 c2048_i32_8
  v29
def k0_mult3 : BitVec 32 :=
  let c2_i32 : BitVec 32 := 2#32
  let c2048_i32_17 : BitVec 32 := 2048#32
  let v54 : BitVec 32 := Scalar.muli c2_i32 c2048_i32_17
  v54
def k0_mult4 : BitVec 32 :=
  let c3_i32 : BitVec 32 := 3#32
  let c2048_i32_26 : BitVec 32 := 2048#32
  let v79 : BitVec 32 := Scalar.muli c3_i32 c2048_i32_26
  v79
def cc0_transform_0 (i : grid0.Coords) : Fin 2 → Nat :=
  let arg0 : BitVec 32 := BitVec.ofNat 32 (i 0).val
  let arg1 : BitVec 32 := BitVec.ofNat 32 (i 1).val
  let c61_i32 : BitVec 32 := 61#32
  let v0 : BitVec 32 := Scalar.muli arg0 c61_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 1 → Nat :=
  let arg0 : BitVec 32 := BitVec.ofNat 32 (i 0).val
  let arg1 : BitVec 32 := BitVec.ofNat 32 (i 1).val
  let c61_i32 : BitVec 32 := 61#32
  let v0 : BitVec 32 := Scalar.muli arg0 c61_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c61_i32 : BitVec 32 := 61#32
  let v0 : BitVec 32 := Scalar.muli arg0 c61_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x576 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S576 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S576 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  iota_S1024x2048_d0_w32 : S1024x2048.Iotas .tc 32 [0]
  h_S32x2048 : 0 < S32x2048.numel
  h_S2048 : 0 < S2048.numel
  shapeCasts_S2048_S1x2048 : S2048.ShapeCasts S1x2048
  broadcasts_S1x2048_S1024x2048 : S1x2048.Broadcasts S1024x2048
  natLt_1_32 : 1 < 32
  bitsLt_bf16_f32 : FTy.bits .bf16 < FTy.bits .f32
  broadcasts_S1x2048_S32x2048 : S1x2048.Broadcasts S32x2048
  slices_S2x32x1024_S1x32x1024_0_0_0 : S2x32x1024.Slices ![0, 0, 0] S1x32x1024
  slices_S2x32x1024_S1x32x1024_1_0_0 : S2x32x1024.Slices ![1, 0, 0] S1x32x1024
  slices_S32x1000000_S32x576_0_999424 : S32x1000000.Slices ![0, 999424] S32x576
  slices_S1000000_S576_999424 : S1000000.Slices ![999424] S576
  inb_S32x576_S32x576_0_0 : ∀ a, (![0, 0] : Fin 2 → Nat) a + S32x576.size a ≤ S32x576.size a
  h_S32x576 : 0 < S32x576.numel
  shapeCasts_S32x576_S32x576 : S32x576.ShapeCasts S32x576
  inb_S576_S576_0 : ∀ a, (![0] : Fin 1 → Nat) a + S576.size a ≤ S576.size a
  h_S576 : 0 < S576.numel
  shapeCasts_S576_S576 : S576.ShapeCasts S576
  iota_S1024x576_d0_w32 : S1024x576.Iotas .tc 32 [0]
  shapeCasts_S576_S1x576 : S576.ShapeCasts S1x576
  broadcasts_S1x576_S1024x576 : S1x576.Broadcasts S1024x576
  broadcasts_S1x576_S32x576 : S1x576.Broadcasts S32x576
  inb_S32x1024_S32x1024_0_0 : ∀ a, (![0, 0] : Fin 2 → Nat) a + S32x1024.size a ≤ S32x1024.size a
  h_S32x1024 : 0 < S32x1024.numel
  dot_S32x2048_S1024x2048_S32x1024_1_1_0_0_n_n_wf : DotDims.WF S32x2048 S1024x2048 S32x1024 [1] [1] [0] [0] [] []
  dot_S32x576_S1024x576_S32x1024_1_1_0_0_n_n_wf : DotDims.WF S32x576 S1024x576 S32x1024 [1] [1] [0] [0] [] []
  hrank0 : 0 < grid0.rank
  k0_mult1_dvd : 2048 ∣ k0_mult1.toNat
  k0_off1_inb : ∀ (r : Fin 4), ∀ a, (k0_off1 (BitVec.ofNat 32 r.val)) a + S32x2048.size a ≤ S32x8192.size a
  k0_off2_inb : ∀ (r : Fin 4), ∀ a, (k0_off2 (BitVec.ofNat 32 r.val)) a + S2048.size a ≤ S8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x8192.size a < S32x1000000.size a
  hwx0_0 : ∀ i : grid0.Coords, EltTy.bits .f32 = 32 ∨ (Rect.unit (s := S32x1000000) (fun a => cc0_transform_0 i a * S32x8192.size a) (fun a => (Pipeline.Clip.of (cc0_transform_0 i a) (S32x8192.size a) (S32x1000000.size a)).extent (S32x8192.size a)) fun a => Pipeline.Clip.inb (Pipeline.Clip.ok_of (hstart0_0 i a))).WholeWords (EltTy.packing .f32)
  hwxs0_0 : ∀ i : grid0.Coords, EltTy.bits .f32 = 32 ∨ (Rect.unit (s := S32x8192) (fun _ => 0) (fun a => (Pipeline.Clip.of (cc0_transform_0 i a) (S32x8192.size a) (S32x1000000.size a)).extent (S32x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192.size a < S1000000.size a
  hwx0_1 : ∀ i : grid0.Coords, EltTy.bits .i32 = 32 ∨ (Rect.unit (s := S1000000) (fun a => cc0_transform_1 i a * S8192.size a) (fun a => (Pipeline.Clip.of (cc0_transform_1 i a) (S8192.size a) (S1000000.size a)).extent (S8192.size a)) fun a => Pipeline.Clip.inb (Pipeline.Clip.ok_of (hstart0_1 i a))).WholeWords (EltTy.packing .i32)
  hwxs0_1 : ∀ i : grid0.Coords, EltTy.bits .i32 = 32 ∨ (Rect.unit (s := S8192) (fun _ => 0) (fun a => (Pipeline.Clip.of (cc0_transform_1 i a) (S8192.size a) (S1000000.size a)).extent (S8192.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192.size a < S1000000.size a
  hwx0_2 : ∀ i : grid0.Coords, EltTy.bits .f32 = 32 ∨ (Rect.unit (s := S1000000) (fun a => cc0_transform_2 i a * S8192.size a) (fun a => (Pipeline.Clip.of (cc0_transform_2 i a) (S8192.size a) (S1000000.size a)).extent (S8192.size a)) fun a => Pipeline.Clip.inb (Pipeline.Clip.ok_of (hstart0_2 i a))).WholeWords (EltTy.packing .f32)
  hwxs0_2 : ∀ i : grid0.Coords, EltTy.bits .f32 = 32 ∨ (Rect.unit (s := S8192) (fun _ => 0) (fun a => (Pipeline.Clip.of (cc0_transform_2 i a) (S8192.size a) (S1000000.size a)).extent (S8192.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1024.size a ≤ S2x32x1024.size a
  hwx0_3 : ∀ i : grid0.Coords, EltTy.bits .f32 = 32 ∨ (Rect.block (s := S2x32x1024) S1x32x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x576.size a ≤ S32x576.size a
  hwx1_0 : ∀ i : grid1.Coords, EltTy.bits .f32 = 32 ∨ (Rect.block (s := S32x576) S32x576.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576.size a ≤ S576.size a
  hwx1_1 : ∀ i : grid1.Coords, EltTy.bits .i32 = 32 ∨ (Rect.block (s := S576) S576.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S576.size a ≤ S576.size a
  hwx1_2 : ∀ i : grid1.Coords, EltTy.bits .f32 = 32 ∨ (Rect.block (s := S576) S576.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1024.size a ≤ S32x1024.size a
  hwx1_3 : ∀ i : grid1.Coords, EltTy.bits .f32 = 32 ∨ (Rect.block (s := S32x1024) S32x1024.size (cc1_transform_3 i) (hinb1_3 i)).WholeWords (EltTy.packing .f32)

variable [Facts₀]

def dot_S32x2048_S1024x2048_S32x1024_1_1_0_0_n_n : DotDims S32x2048 S1024x2048 S32x1024 where
  lhsContracting := [1]
  rhsContracting := [1]
  lhsNonContracting := [0]
  rhsNonContracting := [0]
  lhsBatch := []
  rhsBatch := []
  wf := dot_S32x2048_S1024x2048_S32x1024_1_1_0_0_n_n_wf
def dot_S32x576_S1024x576_S32x1024_1_1_0_0_n_n : DotDims S32x576 S1024x576 S32x1024 where
  lhsContracting := [1]
  rhsContracting := [1]
  lhsNonContracting := [0]
  rhsNonContracting := [0]
  lhsBatch := []
  rhsBatch := []
  wf := dot_S32x576_S1024x576_S32x1024_1_1_0_0_n_n_wf

abbrev win0_0 : Pipeline.Window sig grid0 :=
  Pipeline.Window.ofSpecClip (Memref.whole main_arg0) S32x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S8192.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S8192.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1x32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S32x576.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S576.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S576.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S32x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1000000 : Shape := ⟨2, ![32, 1000000]⟩
abbrev S1000000 : Shape := ⟨1, ![1000000]⟩
abbrev S1x1000000 : Shape := ⟨2, ![1, 1000000]⟩
abbrev S_ : Shape := ⟨0, ![]⟩
abbrev S32x1024 : Shape := ⟨2, ![32, 1024]⟩
abbrev S1000000x1 : Shape := ⟨2, ![1000000, 1]⟩

abbrev nBuf : Space → Nat
  | .hbm => 17
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S1000000, .i32⟩
  | .hbm, ⟨2, _⟩ => ⟨S1000000, .f32⟩
  | .hbm, ⟨3, _⟩ => ⟨S1x1000000, .f32⟩
  | .hbm, ⟨4, _⟩ => ⟨S32x1000000, .f32⟩
  | .hbm, ⟨5, _⟩ => ⟨S32x1000000, .f32⟩
  | .hbm, ⟨6, _⟩ => ⟨S_, .f32⟩
  | .hbm, ⟨7, _⟩ => ⟨S32x1024, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S32x1024, .f32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S1000000_S1x1000000_1 : S1000000.BroadcastsInDim S1x1000000 (![1] : Fin 1 → Fin S1x1000000.rank)
  bcast_S1x1000000_S32x1000000_0_1 : S1x1000000.BroadcastsInDim S32x1000000 (![0, 1] : Fin 2 → Fin S32x1000000.rank)
  bcast_S_S32x1024 : S_.BroadcastsInDim S32x1024 (![] : Fin 0 → Fin S32x1024.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  scatter_S32x1024_S1000000x1_S32x1000000_0_1_1_1_wf : ScatterDims.WF S32x1024 S1000000x1 S32x1000000 [0] [1] [1] 1

variable [Facts₀]

def scatter_S32x1024_S1000000x1_S32x1000000_0_1_1_1 : ScatterDims S32x1024 S1000000x1 S32x1000000 where
  updateWindowDims := [0]
  insertedWindowDims := [1]
  scatterDimsToOperandDims := [1]
  indexVectorDim := 1
  wf := scatter_S32x1024_S1000000x1_S32x1000000_0_1_1_1_wf

class Facts : Prop extends Facts₀ where

variable [Facts]
-- ==== Proof.BodyRunsK.lean ====
import proofs.«403119_j6691559047459_3_alg».proof.Proof.Gen.Kernel.Launch
import proofs.«403119_j6691559047459_3_alg».proof.Proof.Gen.Kernel.Skeleton
import proofs.«403119_j6691559047459_3_alg».proof.Proof.Gen.Kernel.Points
import Idealize.ShloMosaic.Lib.Pipeline.FrameBody
import Idealize.ShloMosaic.Lib.Ring
import Idealize.ShloMosaic.Lib.Tactic

/-!
The two kernel bodies run on whole staging buffers.

The main kernel's body at one grid point reads three input blocks (a [32, 8192] block of x, and the matching
[8192] blocks of sel and sign) and an accumulator buffer [1, 32, 1024]. At the first point of a core's row
(second grid coordinate zero) it first clears the accumulator; then, chunk by chunk (four chunks of 2048 columns),
it loads the accumulator, adds the chunk's product and stores it back. The tail kernel loads its three whole
blocks and stores one product. Each run leaves, in the output buffer, a list of stored pieces which the run itself
finds; later modules read those pieces as values.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The main kernel clears its accumulator exactly when the second grid coordinate is zero. -/
abbrev isFirst (i : grid0.Coords) : Prop :=
  (Scalar.cmpi .ne (Scalar.extui (Scalar.cmpi .eq (BitVec.ofNat 32 (i 1).val) 0#32)) 0#32) = 1#1

set_option maxHeartbeats 4000000 in
/-- The main kernel's body at a point that does not clear the accumulator: the input buffers keep their contents,
    and the accumulator buffer, entered at contents `y`, ends with the pieces the four chunk updates stored. -/
noncomputable def mainRunLater (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : ¬isFirst i) (x0 : Vec F S32x8192 .f32) (x1 : Vec F S8192 .i32) (x2 : Vec F S8192 .f32) (y : Vec F S1x32x1024 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__main_kernel i arg2 harg2 arg3 harg3 arg4 harg4 arg5 harg5) K } := by
  refine ⟨?_, fun E K => ?run⟩
  case run =>
    simp only [cc0__main_kernel_eq_skeleton]; unfold cc0__main_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 4000000 in
/-- The main kernel's body at a point that clears the accumulator first: whatever the accumulator buffer held, it
    ends with the clearing store followed by the four chunk updates. -/
noncomputable def mainRunFirst (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : isFirst i) (x0 : Vec F S32x8192 .f32) (x1 : Vec F S8192 .i32) (x2 : Vec F S8192 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__main_kernel i arg2 harg2 arg3 harg3 arg4 harg4 arg5 harg5) K } := by
  refine ⟨?_, fun E K => ?run⟩
  case run =>
    simp only [cc0__main_kernel_eq_skeleton]; unfold cc0__main_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 4000000 in
/-- The tail kernel's body: the three input buffers keep their contents and the output buffer, whatever it held,
    ends with the one stored product. -/
noncomputable def tailRun (c : Dev nD) (i : grid1.Coords)
    (arg1 : Memref sig .tc .vmem S32x576 .f32) (harg1 : arg1.IsWhole) (arg2 : Memref sig .tc .vmem S576 .i32) (harg2 : arg2.IsWhole)
    (arg3 : Memref sig .tc .vmem S576 .f32) (harg3 : arg3.IsWhole) (arg4 : Memref sig .tc .vmem S32x1024 .f32) (harg4 : arg4.IsWhole)
    (x0 : Vec F S32x576 .f32) (x1 : Vec F S576 .i32) (x2 : Vec F S576 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc1__tail_kernel i arg1 harg1 arg2 harg2 arg3 harg3 arg4 harg4) K } := by
  refine ⟨?_, fun E K => ?run⟩
  case run =>
    simp only [cc1__tail_kernel_eq_skeleton]; unfold cc1__tail_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- One staging buffer of each output window, through which the stored pieces are read back (any view of the
    shape reads a covering list of pieces alike). -/
abbrev viewMain : View sig .tc .vmem S1x32x1024 .f32 := (Memref.whole cc0_stg3_0 : Memref sig .tc .vmem S1x32x1024 .f32).view
abbrev viewTail : View sig .tc .vmem S32x1024 .f32 := (Memref.whole cc1_stg3_0 : Memref sig .tc .vmem S32x1024 .f32).view

/-- What a later point leaves in the accumulator: its pieces read back. -/
def outLater (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : ¬isFirst i) (x0 : Vec F S32x8192 .f32) (x1 : Vec F S8192 .i32) (x2 : Vec F S8192 .f32) (y : Vec F S1x32x1024 .f32) :
    Vec F S1x32x1024 .f32 :=
  viewMain.read (Elt F) (viewMain.writes (Elt F) viewMain.junk (mainRunLater c i arg2 harg2 arg3 harg3 arg4 harg4 arg5 harg5 hc x0 x1 x2 y).1)

/-- What a clearing point leaves in the accumulator: its pieces read back. -/
def outFirst (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : isFirst i) (x0 : Vec F S32x8192 .f32) (x1 : Vec F S8192 .i32) (x2 : Vec F S8192 .f32) :
    Vec F S1x32x1024 .f32 :=
  viewMain.read (Elt F) (viewMain.writes (Elt F) viewMain.junk (mainRunFirst c i arg2 harg2 arg3 harg3 arg4 harg4 arg5 harg5 hc x0 x1 x2).1)

/-- What the tail kernel leaves in its output buffer: its pieces read back. -/
def outTail (c : Dev nD) (i : grid1.Coords)
    (arg1 : Memref sig .tc .vmem S32x576 .f32) (harg1 : arg1.IsWhole) (arg2 : Memref sig .tc .vmem S576 .i32) (harg2 : arg2.IsWhole)
    (arg3 : Memref sig .tc .vmem S576 .f32) (harg3 : arg3.IsWhole) (arg4 : Memref sig .tc .vmem S32x1024 .f32) (harg4 : arg4.IsWhole)
    (x0 : Vec F S32x576 .f32) (x1 : Vec F S576 .i32) (x2 : Vec F S576 .f32) : Vec F S32x1024 .f32 :=
  viewTail.read (Elt F) (viewTail.writes (Elt F) viewTail.junk (tailRun c i arg1 harg1 arg2 harg2 arg3 harg3 arg4 harg4 x0 x1 x2).1)

/-- Each run's pieces cover the buffer (the last store of each is the whole buffer). -/
theorem coverLater (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : ¬isFirst i) (x0 : Vec F S32x8192 .f32) (x1 : Vec F S8192 .i32) (x2 : Vec F S8192 .f32) (y : Vec F S1x32x1024 .f32) (j : S1x32x1024.Idx) :
    ∃ pc ∈ (mainRunLater c i arg2 harg2 arg3 harg3 arg4 harg4 arg5 harg5 hc x0 x1 x2 y).1, j ∈ pc.1.set :=
  View.cover_of_tiledL (mainRunLater c i arg2 harg2 arg3 harg3 arg4 harg4 arg5 harg5 hc x0 x1 x2 y).1 S1x32x1024.size (by sl_kernel_rfl) j

theorem coverFirst (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : isFirst i) (x0 : Vec F S32x8192 .f32) (x1 : Vec F S8192 .i32) (x2 : Vec F S8192 .f32) (j : S1x32x1024.Idx) :
    ∃ pc ∈ (mainRunFirst c i arg2 harg2 arg3 harg3 arg4 harg4 arg5 harg5 hc x0 x1 x2).1, j ∈ pc.1.set :=
  View.cover_of_tiledL (mainRunFirst c i arg2 harg2 arg3 harg3 arg4 harg4 arg5 harg5 hc x0 x1 x2).1 S1x32x1024.size (by sl_kernel_rfl) j

theorem coverTail (c : Dev nD) (i : grid1.Coords)
    (arg1 : Memref sig .tc .vmem S32x576 .f32) (harg1 : arg1.IsWhole) (arg2 : Memref sig .tc .vmem S576 .i32) (harg2 : arg2.IsWhole)
    (arg3 : Memref sig .tc .vmem S576 .f32) (harg3 : arg3.IsWhole) (arg4 : Memref sig .tc .vmem S32x1024 .f32) (harg4 : arg4.IsWhole)
    (x0 : Vec F S32x576 .f32) (x1 : Vec F S576 .i32) (x2 : Vec F S576 .f32) (j : S32x1024.Idx) :
    ∃ pc ∈ (tailRun c i arg1 harg1 arg2 harg2 arg3 harg3 arg4 harg4 x0 x1 x2).1, j ∈ pc.1.set :=
  View.cover_of_tiledL (tailRun c i arg1 harg1 arg2 harg2 arg3 harg3 arg4 harg4 x0 x1 x2).1 S32x1024.size (by sl_kernel_rfl) j

end Cert.Kernel.Hand

end
-- ==== Proof.BlockDefsK.lean ====
import proofs.«403119_j6691559047459_3_alg».proof.Proof.Gen.Kernel.Launch
import proofs.«403119_j6691559047459_3_alg».proof.Proof.Gen.Kernel.Points
import Idealize.ShloMosaic.Lib.Pipeline.Kit

/-!
The main kernel's three input blocks at a grid point, each filled out to the whole staging block.

At point `t` the pipeline fetches, into a staging buffer holding `d`, the part of block `t` that lies inside the
array; the buffer then holds that part where the transfer moved it and `d` elsewhere. (Every block the grid visits
lies wholly inside its array, so nothing of `d` is in fact left: a later module proves it.)
-/

noncomputable section

namespace Cert.Kernel.Hand

open Cert.Kernel Cert.Kernel.Gen Idealize.ShloMosaic Idealize.ShloMosaic.TcCoe

variable {F : FTy → Type} [FloatOps F]

/-- The block of x at point `t` in a staging buffer that held `d`. -/
def xfull (A0 : S32x1000000.Idx → Elt F .f32) (t : Fin cfg0.N) (d : S32x8192.Idx → Elt F .f32) : S32x8192.Idx → Elt F .f32 :=
  win0_0.fill (grid0.coords t) d ((win0_0.blk t).view.read (Elt F) A0)

/-- The block of sel at point `t` in a staging buffer that held `d`. -/
def sfull (A1 : S1000000.Idx → Elt F .i32) (t : Fin cfg0.N) (d : S8192.Idx → Elt F .i32) : S8192.Idx → Elt F .i32 :=
  win0_1.fill (grid0.coords t) d ((win0_1.blk t).view.read (Elt F) A1)

/-- The block of sign at point `t` in a staging buffer that held `d`. -/
def gfull (A2 : S1000000.Idx → Elt F .f32) (t : Fin cfg0.N) (d : S8192.Idx → Elt F .f32) : S8192.Idx → Elt F .f32 :=
  win0_2.fill (grid0.coords t) d ((win0_2.blk t).view.read (Elt F) A2)

/-- No block the grid visits is cut at its array's end: blocks 0 … 121 of 8192 columns end at column 999424. -/
theorem clip0_none : ∀ (t : Fin cfg0.N) a, win0_0.clip (grid0.coords t) a = none :=
  (by decide +kernel : ∀ (t : Fin grid0.N) a, win0_0.clip (grid0.coords t) a = none)
theorem clip1_none : ∀ (t : Fin cfg0.N) a, win0_1.clip (grid0.coords t) a = none :=
  (by decide +kernel : ∀ (t : Fin grid0.N) a, win0_1.clip (grid0.coords t) a = none)
theorem clip2_none : ∀ (t : Fin cfg0.N) a, win0_2.clip (grid0.coords t) a = none :=
  (by decide +kernel : ∀ (t : Fin grid0.N) a, win0_2.clip (grid0.coords t) a = none)

/-- An uncut fetch moves every index of the block. -/
theorem moved0 (t : Fin cfg0.N) (j : S32x8192.Idx) : win0_0.moved (grid0.coords t) j = true :=
  (win0_0.moved_iff _ j).mpr fun a => by have := (j a).isLt; unfold Pipeline.Window.xsize; rw [clip0_none t a]; exact this
theorem moved1 (t : Fin cfg0.N) (j : S8192.Idx) : win0_1.moved (grid0.coords t) j = true :=
  (win0_1.moved_iff _ j).mpr fun a => by have := (j a).isLt; unfold Pipeline.Window.xsize; rw [clip1_none t a]; exact this
theorem moved2 (t : Fin cfg0.N) (j : S8192.Idx) : win0_2.moved (grid0.coords t) j = true :=
  (win0_2.moved_iff _ j).mpr fun a => by have := (j a).isLt; unfold Pipeline.Window.xsize; rw [clip2_none t a]; exact this

/-- So the filled block does not depend on what the buffer held. -/
theorem xfull_indep (A0 : S32x1000000.Idx → Elt F .f32) (t : Fin cfg0.N) (d d' : S32x8192.Idx → Elt F .f32) :
    xfull A0 t d = xfull A0 t d' := by
  funext j; unfold xfull Pipeline.Window.fill; rw [dif_pos (moved0 t j), dif_pos (moved0 t j)]
theorem sfull_indep (A1 : S1000000.Idx → Elt F .i32) (t : Fin cfg0.N) (d d' : S8192.Idx → Elt F .i32) :
    sfull A1 t d = sfull A1 t d' := by
  funext j; unfold sfull Pipeline.Window.fill; rw [dif_pos (moved1 t j), dif_pos (moved1 t j)]
theorem gfull_indep (A2 : S1000000.Idx → Elt F .f32) (t : Fin cfg0.N) (d d' : S8192.Idx → Elt F .f32) :
    gfull A2 t d = gfull A2 t d' := by
  funext j; unfold gfull Pipeline.Window.fill; rw [dif_pos (moved2 t j), dif_pos (moved2 t j)]

end Cert.Kernel.Hand

end
-- ==== Proof.Pipe0K.lean ====
import proofs.«403119_j6691559047459_3_alg».proof.Proof.BodyRunsK
import proofs.«403119_j6691559047459_3_alg».proof.Proof.BlockDefsK
import Idealize.ShloMosaic.Lib.Pipeline.Frame
import Idealize.ShloMosaic.Lib.Pipeline.FrameBody

/-!
The main kernel's pipeline, point by point.

The grid has 2 × 61 points in row-major order; the accumulator window's block index is the row, so its staging
buffer is written back at the last point of each row (points ≡ 60 mod 61) and the body clears it at the first
(points ≡ 0 mod 61). `accAt n` is what the accumulator buffer holds after the body at point `n`: at a row's first
point the clearing run's result on that point's three input blocks, at a later point the updating run's result
on the point's blocks over what the point before left. The three input windows hand the body their blocks,
freshly fetched at every point, and get them back unchanged.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- The body clears the accumulator exactly at the first point of each row of the grid. -/
theorem hfirst : ∀ t : Fin cfg0.N, isFirst (grid0.coords t) ↔ t.val % 61 = 0 :=
  (by decide +kernel : ∀ t : Fin grid0.N, isFirst (grid0.coords t) ↔ t.val % 61 = 0)

/-- The three input blocks at point `t`, in buffers that held zeros. -/
abbrev xb (c : Dev nD) (t : Fin cfg0.N) : Vec F S32x8192 .f32 := xfull (V c main_arg0) t (fun _ => Scalar.ofBits .f32 0#32)
abbrev sb (c : Dev nD) (t : Fin cfg0.N) : Vec F S8192 .i32 := sfull (V c main_arg1) t (fun _ => 0#32)
abbrev gb (c : Dev nD) (t : Fin cfg0.N) : Vec F S8192 .f32 := gfull (V c main_arg2) t (fun _ => Scalar.ofBits .f32 0#32)

/-- Each window's current staging memref at point `t`, as the pipeline passes it, and its wholeness. -/
abbrev ms0 (t : Fin cfg0.N) : Memref sig .tc .vmem S32x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x1024 .f32 := win0_3.stage (cfg0.slots t 3)
abbrev hs3 (t : Fin cfg0.N) : (ms3 t).IsWhole := hstage0_3 ((cfg0.slots t 3).cast nbuf0_3)

/-- THE ACCUMULATION: what the accumulator buffer holds after the body at point `n`. -/
def accAt (c : Dev nD) : (n : ℕ) → n < cfg0.N → Vec F S1x32x1024 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hfirst ⟨0, hn⟩).mpr (Nat.zero_mod _)) (xb V c ⟨0, hn⟩) (sb V c ⟨0, hn⟩) (gb V c ⟨0, hn⟩)
  | n + 1, hn =>
    if h0 : (n + 1) % 61 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hfirst ⟨n + 1, hn⟩).mpr h0) (xb V c ⟨n + 1, hn⟩) (sb V c ⟨n + 1, hn⟩) (gb V c ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hfirst ⟨n + 1, hn⟩).mp h)) (xb V c ⟨n + 1, hn⟩) (sb V c ⟨n + 1, hn⟩) (gb V c ⟨n + 1, hn⟩) (accAt c n (Nat.lt_of_succ_lt hn))

/-- At a row's first point: the clearing run's result. -/
theorem accAt_first (c : Dev nD) (t : Fin cfg0.N) (h0 : t.val % 61 = 0) :
    accAt V c t.val t.isLt = outFirst c (grid0.coords t) (ms0 t) (hs0 t) (ms1 t) (hs1 t) (ms2 t) (hs2 t) (ms3 t) (hs3 t)
      ((hfirst t).mpr h0) (xb V c t) (sb V c t) (gb V c t) := by
  obtain ⟨n, hn⟩ := t
  cases n with
  | zero => exact rfl
  | succ n => exact (dif_pos h0).trans rfl

/-- At a later point: the updating run's result over what the point before left. -/
theorem accAt_later (c : Dev nD) (t : Fin cfg0.N) (h0 : ¬t.val % 61 = 0) :
    accAt V c t.val t.isLt = outLater c (grid0.coords t) (ms0 t) (hs0 t) (ms1 t) (hs1 t) (ms2 t) (hs2 t) (ms3 t) (hs3 t)
      (fun h => h0 ((hfirst t).mp h)) (xb V c t) (sb V c t) (gb V c t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the three input buffers at their blocks
    and the accumulator's at `accAt`; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => xb V c t
    | ⟨1, _⟩ => sb V c t
    | ⟨2, _⟩ => gb V c t
    | ⟨3, _⟩ => accAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xb V c t := by dsimp only [dat0]
theorem after0_1 (c : Dev nD) (t : Fin cfg0.N) : (dat0 V c).after 1 t = sb V c t := by dsimp only [dat0]
theorem after0_2 (c : Dev nD) (t : Fin cfg0.N) : (dat0 V c).after 2 t = gb V c t := by dsimp only [dat0]
theorem after0_3 (c : Dev nD) (t : Fin cfg0.N) : (dat0 V c).after 3 t = accAt V c t.val t.isLt := by dsimp only [dat0]

/-- Each input buffer, fetched at every point, holds its block; nothing of what it held before is left. -/
theorem before0_0 (c : Dev nD) (t : Fin cfg0.N) (d) : (dat0 V c).before 0 t d = xb V c t := by
  unfold Dat.before; rw [if_pos (fetch0_0 t)]
  exact xfull_indep (V c main_arg0) t d _
theorem before0_1 (c : Dev nD) (t : Fin cfg0.N) (d) : (dat0 V c).before 1 t d = sb V c t := by
  unfold Dat.before; rw [if_pos (fetch0_1 t)]
  exact sfull_indep (V c main_arg1) t d _
theorem before0_2 (c : Dev nD) (t : Fin cfg0.N) (d) : (dat0 V c).before 2 t d = gb V c t := by
  unfold Dat.before; rw [if_pos (fetch0_2 t)]
  exact gfull_indep (V c main_arg2) t d _

theorem point_lt' (t : Fin cfg0.N) : t.val < 122 := lt_of_lt_of_eq t.isLt (show cfg0.N = 122 from N_0)

/-- At a later point of a row the accumulator buffer holds what the point before left: it was not written back. -/
theorem before0_3_later (c : Dev nD) (t : Fin cfg0.N) (h0 : ¬t.val % 61 = 0) (d) :
    (dat0 V c).before 3 t d = accAt V c (t.val - 1) (Nat.lt_of_le_of_lt (Nat.sub_le _ _) t.isLt) := by
  have hN := point_lt' t
  rw [Dat.before_out_kept _ 3 rfl t (by omega) (Bool.eq_false_iff.mpr fun h => by have := (flush0_3 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

def bodyPost0 (c : Dev nD) (t : Fin cfg0.N) : sProp 𝕄 :=
  iprop((dat0 V c).Φ t.succ ∗ (dat0 V c).owesAt () t.succ
    ∗ (∃ d, owns (c : Thread nD τ) (ms0 t) fullShare (win0_0.fill (grid0.coords t) d (win0_0.cut (grid0.coords t) ((dat0 V c).after 0 t))))
    ∗ (∃ d, owns (c : Thread nD τ) (ms1 t) fullShare (win0_1.fill (grid0.coords t) d (win0_1.cut (grid0.coords t) ((dat0 V c).after 1 t))))
    ∗ (∃ d, owns (c : Thread nD τ) (ms2 t) fullShare (win0_2.fill (grid0.coords t) d (win0_2.cut (grid0.coords t) ((dat0 V c).after 2 t))))
    ∗ owns (c : Thread nD τ) (ms3 t) fullShare ((dat0 V c).after 3 t))

set_option maxHeartbeats 1600000 in
/-- The body at any point: the inputs' buffers hold their blocks; the row's first point clears the accumulator,
    a later one finds what the point before left; either run applies, and the buffers go back as the proof data
    says. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 61 = 0
  · rw [accAt_first V c t h0]
    unfold outFirst
    iintro ⟨HΦ, Ho, ⟨%d0, H0⟩, ⟨%d1, H1⟩, ⟨%d2, H2⟩, ⟨%d3, H3⟩⟩
    iapply ((mainRunFirst c (grid0.coords t) _ _ _ _ _ _ _ _ ((hfirst t).mpr h0) (xb V c t) (sb V c t) (gb V c t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexists (xb V c t); rw [Window.fill_cut]; iexact H0
    isplitl [H1]; · iexists (sb V c t); rw [Window.fill_cut]; iexact H1
    isplitl [H2]; · iexists (gb V c t); rw [Window.fill_cut]; iexact H2
    unfold owns; iexists _; isplitr
    swap; · iexact H3
    ipureintro; exact View.read_writes_of_cover _ _ _ _ _ (coverFirst c _ _ _ _ _ _ _ _ _ _ _ _ _)
  · rw [accAt_later V c t h0]
    simp only [before0_3_later V c t h0]
    unfold outLater
    iintro ⟨HΦ, Ho, ⟨%d0, H0⟩, ⟨%d1, H1⟩, ⟨%d2, H2⟩, ⟨%d3, H3⟩⟩
    iapply ((mainRunLater c (grid0.coords t) _ _ _ _ _ _ _ _ (fun h => h0 ((hfirst t).mp h)) (xb V c t) (sb V c t) (gb V c t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexists (xb V c t); rw [Window.fill_cut]; iexact H0
    isplitl [H1]; · iexists (sb V c t); rw [Window.fill_cut]; iexact H1
    isplitl [H2]; · iexists (gb V c t); rw [Window.fill_cut]; iexact H2
    unfold owns; iexists _; isplitr
    swap; · iexact H3
    ipureintro; exact View.read_writes_of_cover _ _ _ _ _ (coverLater c _ _ _ _ _ _ _ _ _ _ _ _ _ _)

/-- The library's body obligation (the three input windows stated on the part their transfers move). -/
theorem body_obligation0 (c : Dev nD) : BodyObligationLoose (dat0 (F := F) V c) (defs₀ (F := F)) Variants.none () Set.univ := fun t => by
  rw [bigSep_W0, bigSep_W0]
  exact sound_body0 V c t

end Cert.Kernel.Hand

end
-- ==== Proof.Pipe1K.lean ====
import proofs.«403119_j6691559047459_3_alg».proof.Proof.BodyRunsK
import Idealize.ShloMosaic.Lib.Pipeline.Frame
import Idealize.ShloMosaic.Lib.Pipeline.FrameBody

/-!
The tail kernel's pipeline: one grid point, each window's block its whole array. The three input buffers hold
their arrays, the body stores its one product into the output buffer, and the write-back copies it out.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev mt0 (t : Fin cfg1.N) : Memref sig .tc .vmem S32x576 .f32 := win1_0.stage (cfg1.slots t 0)
abbrev ht0 (t : Fin cfg1.N) : (mt0 t).IsWhole := hstage1_0 ((cfg1.slots t 0).cast nbuf1_0)
abbrev mt1 (t : Fin cfg1.N) : Memref sig .tc .vmem S576 .i32 := win1_1.stage (cfg1.slots t 1)
abbrev ht1 (t : Fin cfg1.N) : (mt1 t).IsWhole := hstage1_1 ((cfg1.slots t 1).cast nbuf1_1)
abbrev mt2 (t : Fin cfg1.N) : Memref sig .tc .vmem S576 .f32 := win1_2.stage (cfg1.slots t 2)
abbrev ht2 (t : Fin cfg1.N) : (mt2 t).IsWhole := hstage1_2 ((cfg1.slots t 2).cast nbuf1_2)
abbrev mt3 (t : Fin cfg1.N) : Memref sig .tc .vmem S32x1024 .f32 := win1_3.stage (cfg1.slots t 3)
abbrev ht3 (t : Fin cfg1.N) : (mt3 t).IsWhole := hstage1_3 ((cfg1.slots t 3).cast nbuf1_3)

/-- What the output buffer holds after the body at point `t`: the run's result on the three input blocks. -/
def tailAt (c : Dev nD) (t : Fin cfg1.N) : Vec F S32x1024 .f32 :=
  outTail c (grid1.coords t) (mt0 t) (ht0 t) (mt1 t) (ht1 t) (mt2 t) (ht2 t) (mt3 t) (ht3 t) (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tailAt V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = tailAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (mt0 t) fullShare ((dat1 V c).before 0 t d))
    ∗ (∃ d, owns (c : Thread nD τ) (mt1 t) fullShare ((dat1 V c).before 1 t d))
    ∗ (∃ d, owns (c : Thread nD τ) (mt2 t) fullShare ((dat1 V c).before 2 t d))
    ∗ (∃ d, owns (c : Thread nD τ) (mt3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (mt0 t) fullShare ((dat1 V c).after 0 t)
    ∗ owns (c : Thread nD τ) (mt1 t) fullShare ((dat1 V c).after 1 t)
    ∗ owns (c : Thread nD τ) (mt2 t) fullShare ((dat1 V c).after 2 t)
    ∗ owns (c : Thread nD τ) (mt3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold tailAt outTail
  iintro ⟨HΦ, Ho, ⟨%d0, H0⟩, ⟨%d1, H1⟩, ⟨%d2, H2⟩, ⟨%d3, H3⟩⟩
  iapply ((tailRun c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverTail c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunK.lean ====
import proofs.«403119_j6691559047459_3_alg».proof.Proof.Pipe0K
import proofs.«403119_j6691559047459_3_alg».proof.Proof.Pipe1K
import Idealize.ShloMosaic.Lib.Pipeline.RegionsLoop
import Idealize.ShloMosaic.Lib.Pipeline.FrameSuffix

/-!
The whole program's run: the main kernel's region, eight host operations (the two halves of its result sliced out
and added; the last 576 columns of the three arguments sliced out), the tail kernel's region, and the final sum.

The buffers' contents at each boundary are a fold from the launch memory: a region leaves its arrays at what its
write-backs leave and every other buffer as it found it; a stretch of host operations leaves what the operations
compute. Every execution terminates, and the final memory holds the last fold at every buffer. The arguments are
written by nobody, so they come back as launched; the result is read off the same fold by a later module.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (the main kernel's region is entered at once). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the main kernel's region: its arrays at what the write-backs leave. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the eight host operations (the tail kernel's region is entered). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the tail kernel's region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the final sum. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The main kernel's region: entered from every unscoped buffer at the launch contents, left with its arrays at
    what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m ρ) c
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tail kernel's region: entered from every unscoped buffer at the contents the host operations left, left
    with its arrays at what the write-back leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds the last fold `W4` at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.HostFoldK.lean ====
import proofs.«403119_j6691559047459_3_alg».proof.Proof.RunK
import Idealize.ShloMosaic.Lib.StableHlo.Run
import Idealize.ShloMosaic.Lib.Pipeline.Value
import Idealize.ShloMosaic.Lib.ValueIdx

/-!
The host operations between and after the two kernels, read off the fold of buffer contents.

The final result is (half 0 of the main kernel's result + half 1) + the tail kernel's result; the tail kernel's
three operands are the last 576 columns of the three arguments, which the main kernel's region leaves as it found
them.
-/

set_option maxRecDepth 16384

noncomputable section

namespace Cert.Kernel.Hand

open Cert.Kernel Cert.Kernel.Gen
open Idealize.ShloMosaic Idealize.ShloMosaic.TcCoe Idealize.ShloMosaic.ValueIdx Idealize.ShloMosaic.StableHlo
open Idealize.SL.Sem
open Idealize.ShloMosaic.Pipeline (Dat)

variable {F : FTy → Type} [FloatOps F]

variable (m : (ℓ : Loc nD τ sig) → Buf (Elt F) ℓ) (ρ : Dev nD → PrngReg)

/-- The three arguments as launched, and the buffers this module reads at the boundaries, at their literal types. -/
abbrev argX (c : Dev nD) : FVec F S32x1000000 .f32 := m ((c : Thread nD τ).loc main_arg0)
abbrev argSel (c : Dev nD) : IVec S1000000 32 := m ((c : Thread nD τ).loc main_arg1)
abbrev argSign (c : Dev nD) : FVec F S1000000 .f32 := m ((c : Thread nD τ).loc main_arg2)
/-- The main kernel's result array after its region. -/
abbrev mainOut (c : Dev nD) : FVec F S2x32x1024 .f32 := (dat0 (V0 m ρ) c).arrAt 3 cfg0.N
/-- The tail kernel's result array after its region. -/
abbrev tailOut (c : Dev nD) : FVec F S32x1024 .f32 := (dat1 (V2 m ρ) c).arrAt 3 cfg1.N
/-- The program's result. -/
abbrev result (c : Dev nD) : FVec F S32x1024 .f32 := W4 m ρ c (Proc.devRef .tc main_v10)

/-- The main kernel's region leaves the three arguments as launched: they are inputs of its pipeline. -/
theorem W1_arg0 (c : Dev nD) : (W1 m ρ c (Proc.devRef .tc main_arg0) : FVec F S32x1000000 .f32) = argX m c :=
  (W1_arr m ρ c 0).trans (((dat0 (V0 m ρ) c).arrAt_in 0 rfl _).trans (A_eq0 (V0 m ρ) c 0))
theorem W1_arg1 (c : Dev nD) : (W1 m ρ c (Proc.devRef .tc main_arg1) : IVec S1000000 32) = argSel m c :=
  (W1_arr m ρ c 1).trans (((dat0 (V0 m ρ) c).arrAt_in 1 rfl _).trans (A_eq0 (V0 m ρ) c 1))
theorem W1_arg2 (c : Dev nD) : (W1 m ρ c (Proc.devRef .tc main_arg2) : FVec F S1000000 .f32) = argSign m c :=
  (W1_arr m ρ c 2).trans (((dat0 (V0 m ρ) c).arrAt_in 2 rfl _).trans (A_eq0 (V0 m ρ) c 2))
theorem W1_v0 (c : Dev nD) : (W1 m ρ c (Proc.devRef .tc main_v0) : FVec F S2x32x1024 .f32) = mainOut m ρ c :=
  W1_arr m ρ c 3

/-- The tail kernel's operands: the last 576 columns of the arguments. -/
theorem V2_v6 (c : Dev nD) : (V2 m ρ c main_v6 : FVec F S32x576 .f32)
    = extractStridedSlice S32x576 ![0, 999424] (argX m c) slices_S32x1000000_S32x576_0_999424 := by
  rw [← W1_arg0 m ρ c]
  show StableHlo.after hostOps1 (W1 m ρ c) (Proc.devRef .tc main_v6) = _
  after_results
theorem V2_v7 (c : Dev nD) : (V2 m ρ c main_v7 : IVec S576 32)
    = extractStridedSlice S576 ![999424] (argSel m c) slices_S1000000_S576_999424 := by
  rw [← W1_arg1 m ρ c]
  show StableHlo.after hostOps1 (W1 m ρ c) (Proc.devRef .tc main_v7) = _
  after_results
theorem V2_v8 (c : Dev nD) : (V2 m ρ c main_v8 : FVec F S576 .f32)
    = extractStridedSlice S576 ![999424] (argSign m c) slices_S1000000_S576_999424 := by
  rw [← W1_arg2 m ρ c]
  show StableHlo.after hostOps1 (W1 m ρ c) (Proc.devRef .tc main_v8) = _
  after_results

/-- The sum of the main kernel's two halves. -/
theorem W2_v5 (c : Dev nD) : (W2 m ρ c (Proc.devRef .tc main_v5) : FVec F S32x1024 .f32)
    = addf (shapeCast S32x1024 (extractStridedSlice S1x32x1024 ![0, 0, 0] (mainOut m ρ c) slices_S2x32x1024_S1x32x1024_0_0_0) shapeCasts_S1x32x1024_S32x1024)
        (shapeCast S32x1024 (extractStridedSlice S1x32x1024 ![1, 0, 0] (mainOut m ρ c) slices_S2x32x1024_S1x32x1024_1_0_0) shapeCasts_S1x32x1024_S32x1024) := by
  rw [← W1_v0 m ρ c]
  show StableHlo.after hostOps1 (W1 m ρ c) (Proc.devRef .tc main_v5) = _
  after_results
  rfl

/-- The tail kernel's region changes neither that sum … -/
theorem W3_v5 (c : Dev nD) : (W3 m ρ c (Proc.devRef .tc main_v5) : FVec F S32x1024 .f32) = W2 m ρ c (Proc.devRef .tc main_v5) :=
  W3_of_ne m ρ c main_v5 (by decide)
/-- … and leaves its own result. -/
theorem W3_v9 (c : Dev nD) : (W3 m ρ c (Proc.devRef .tc main_v9) : FVec F S32x1024 .f32) = tailOut m ρ c :=
  W3_arr m ρ c 3

/-- The program's result: the two halves' sum plus the tail's. -/
theorem result_eq_sum (c : Dev nD) : result m ρ c
    = addf (addf (shapeCast S32x1024 (extractStridedSlice S1x32x1024 ![0, 0, 0] (mainOut m ρ c) slices_S2x32x1024_S1x32x1024_0_0_0) shapeCasts_S1x32x1024_S32x1024)
        (shapeCast S32x1024 (extractStridedSlice S1x32x1024 ![1, 0, 0] (mainOut m ρ c) slices_S2x32x1024_S1x32x1024_1_0_0) shapeCasts_S1x32x1024_S32x1024))
      (tailOut m ρ c) := by
  rw [← W2_v5 m ρ c, ← W3_v5 m ρ c, ← W3_v9 m ρ c]
  show StableHlo.after hostOps2 (W3 m ρ c) (Proc.devRef .tc main_v10) = _
  after_results

/-- No region and no host operation writes an argument: the last fold holds each as launched. -/
theorem W4_arg0 (c : Dev nD) : (W4 m ρ c (Proc.devRef .tc main_arg0) : FVec F S32x1000000 .f32) = argX m c := by
  have h3 : W3 m ρ c (Proc.devRef .tc main_arg0) = W2 m ρ c (Proc.devRef .tc main_arg0) := W3_of_ne m ρ c main_arg0 (by decide)
  rw [← W1_arg0 m ρ c]
  show StableHlo.after hostOps2 (W3 m ρ c) (Proc.devRef .tc main_arg0) = _
  after_results
  rw [h3]
  show StableHlo.after hostOps1 (W1 m ρ c) (Proc.devRef .tc main_arg0) = _
  after_results
theorem W4_arg1 (c : Dev nD) : (W4 m ρ c (Proc.devRef .tc main_arg1) : IVec S1000000 32) = argSel m c := by
  have h3 : W3 m ρ c (Proc.devRef .tc main_arg1) = W2 m ρ c (Proc.devRef .tc main_arg1) := W3_of_ne m ρ c main_arg1 (by decide)
  rw [← W1_arg1 m ρ c]
  show StableHlo.after hostOps2 (W3 m ρ c) (Proc.devRef .tc main_arg1) = _
  after_results
  rw [h3]
  show StableHlo.after hostOps1 (W1 m ρ c) (Proc.devRef .tc main_arg1) = _
  after_results
theorem W4_arg2 (c : Dev nD) : (W4 m ρ c (Proc.devRef .tc main_arg2) : FVec F S1000000 .f32) = argSign m c := by
  have h3 : W3 m ρ c (Proc.devRef .tc main_arg2) = W2 m ρ c (Proc.devRef .tc main_arg2) := W3_of_ne m ρ c main_arg2 (by decide)
  rw [← W1_arg2 m ρ c]
  show StableHlo.after hostOps2 (W3 m ρ c) (Proc.devRef .tc main_arg2) = _
  after_results
  rw [h3]
  show StableHlo.after hostOps1 (W1 m ρ c) (Proc.devRef .tc main_arg2) = _
  after_results

/-- THE FRAME: every execution terminates and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_arg0 m ρ c),
     (h c _ (mem_uc main_arg1 (by decide))).trans (W4_arg1 m ρ c),
     (h c _ (mem_uc main_arg2 (by decide))).trans (W4_arg2 m ρ c)⟩) (run_all m ρ)

end Cert.Kernel.Hand

end
-- ==== Proof.BodyRuns.lean ====
import proofs.«403119_j6691559047459_3_alg».proof.Proof.Gen.KernelIdeal.Launch
import proofs.«403119_j6691559047459_3_alg».proof.Proof.Gen.KernelIdeal.Skeleton
import proofs.«403119_j6691559047459_3_alg».proof.Proof.Gen.KernelIdeal.Points
import Idealize.ShloMosaic.Lib.Pipeline.FrameBody
import Idealize.ShloMosaic.Lib.Ring
import Idealize.ShloMosaic.Lib.Tactic

/-!
The two kernel bodies run on whole staging buffers.

The main kernel's body at one grid point reads three input blocks (a [32, 8192] block of x, and the matching
[8192] blocks of sel and sign) and an accumulator buffer [1, 32, 1024]. At the first point of a core's row
(second grid coordinate zero) it first clears the accumulator; then, chunk by chunk (four chunks of 2048 columns),
it loads the accumulator, adds the chunk's product and stores it back. The tail kernel loads its three whole
blocks and stores one product. Each run leaves, in the output buffer, a list of stored pieces which the run itself
finds; later modules read those pieces as values.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The main kernel clears its accumulator exactly when the second grid coordinate is zero. -/
abbrev isFirst (i : grid0.Coords) : Prop :=
  (Scalar.cmpi .ne (Scalar.extui (Scalar.cmpi .eq (BitVec.ofNat 32 (i 1).val) 0#32)) 0#32) = 1#1

set_option maxHeartbeats 4000000 in
/-- The main kernel's body at a point that does not clear the accumulator: the input buffers keep their contents,
    and the accumulator buffer, entered at contents `y`, ends with the pieces the four chunk updates stored. -/
noncomputable def mainRunLater (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : ¬isFirst i) (x0 : Vec F S32x8192 .f32) (x1 : Vec F S8192 .i32) (x2 : Vec F S8192 .f32) (y : Vec F S1x32x1024 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__main_kernel i arg2 harg2 arg3 harg3 arg4 harg4 arg5 harg5) K } := by
  refine ⟨?_, fun E K => ?run⟩
  case run =>
    simp only [cc0__main_kernel_eq_skeleton]; unfold cc0__main_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 4000000 in
/-- The main kernel's body at a point that clears the accumulator first: whatever the accumulator buffer held, it
    ends with the clearing store followed by the four chunk updates. -/
noncomputable def mainRunFirst (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : isFirst i) (x0 : Vec F S32x8192 .f32) (x1 : Vec F S8192 .i32) (x2 : Vec F S8192 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__main_kernel i arg2 harg2 arg3 harg3 arg4 harg4 arg5 harg5) K } := by
  refine ⟨?_, fun E K => ?run⟩
  case run =>
    simp only [cc0__main_kernel_eq_skeleton]; unfold cc0__main_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 4000000 in
/-- The tail kernel's body: the three input buffers keep their contents and the output buffer, whatever it held,
    ends with the one stored product. -/
noncomputable def tailRun (c : Dev nD) (i : grid1.Coords)
    (arg1 : Memref sig .tc .vmem S32x576 .f32) (harg1 : arg1.IsWhole) (arg2 : Memref sig .tc .vmem S576 .i32) (harg2 : arg2.IsWhole)
    (arg3 : Memref sig .tc .vmem S576 .f32) (harg3 : arg3.IsWhole) (arg4 : Memref sig .tc .vmem S32x1024 .f32) (harg4 : arg4.IsWhole)
    (x0 : Vec F S32x576 .f32) (x1 : Vec F S576 .i32) (x2 : Vec F S576 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc1__tail_kernel i arg1 harg1 arg2 harg2 arg3 harg3 arg4 harg4) K } := by
  refine ⟨?_, fun E K => ?run⟩
  case run =>
    simp only [cc1__tail_kernel_eq_skeleton]; unfold cc1__tail_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- One staging buffer of each output window, through which the stored pieces are read back (any view of the
    shape reads a covering list of pieces alike). -/
abbrev viewMain : View sig .tc .vmem S1x32x1024 .f32 := (Memref.whole cc0_stg3_0 : Memref sig .tc .vmem S1x32x1024 .f32).view
abbrev viewTail : View sig .tc .vmem S32x1024 .f32 := (Memref.whole cc1_stg3_0 : Memref sig .tc .vmem S32x1024 .f32).view

/-- What a later point leaves in the accumulator: its pieces read back. -/
def outLater (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : ¬isFirst i) (x0 : Vec F S32x8192 .f32) (x1 : Vec F S8192 .i32) (x2 : Vec F S8192 .f32) (y : Vec F S1x32x1024 .f32) :
    Vec F S1x32x1024 .f32 :=
  viewMain.read (Elt F) (viewMain.writes (Elt F) viewMain.junk (mainRunLater c i arg2 harg2 arg3 harg3 arg4 harg4 arg5 harg5 hc x0 x1 x2 y).1)

/-- What a clearing point leaves in the accumulator: its pieces read back. -/
def outFirst (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : isFirst i) (x0 : Vec F S32x8192 .f32) (x1 : Vec F S8192 .i32) (x2 : Vec F S8192 .f32) :
    Vec F S1x32x1024 .f32 :=
  viewMain.read (Elt F) (viewMain.writes (Elt F) viewMain.junk (mainRunFirst c i arg2 harg2 arg3 harg3 arg4 harg4 arg5 harg5 hc x0 x1 x2).1)

/-- What the tail kernel leaves in its output buffer: its pieces read back. -/
def outTail (c : Dev nD) (i : grid1.Coords)
    (arg1 : Memref sig .tc .vmem S32x576 .f32) (harg1 : arg1.IsWhole) (arg2 : Memref sig .tc .vmem S576 .i32) (harg2 : arg2.IsWhole)
    (arg3 : Memref sig .tc .vmem S576 .f32) (harg3 : arg3.IsWhole) (arg4 : Memref sig .tc .vmem S32x1024 .f32) (harg4 : arg4.IsWhole)
    (x0 : Vec F S32x576 .f32) (x1 : Vec F S576 .i32) (x2 : Vec F S576 .f32) : Vec F S32x1024 .f32 :=
  viewTail.read (Elt F) (viewTail.writes (Elt F) viewTail.junk (tailRun c i arg1 harg1 arg2 harg2 arg3 harg3 arg4 harg4 x0 x1 x2).1)

/-- Each run's pieces cover the buffer (the last store of each is the whole buffer). -/
theorem coverLater (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : ¬isFirst i) (x0 : Vec F S32x8192 .f32) (x1 : Vec F S8192 .i32) (x2 : Vec F S8192 .f32) (y : Vec F S1x32x1024 .f32) (j : S1x32x1024.Idx) :
    ∃ pc ∈ (mainRunLater c i arg2 harg2 arg3 harg3 arg4 harg4 arg5 harg5 hc x0 x1 x2 y).1, j ∈ pc.1.set :=
  View.cover_of_tiledL (mainRunLater c i arg2 harg2 arg3 harg3 arg4 harg4 arg5 harg5 hc x0 x1 x2 y).1 S1x32x1024.size (by sl_kernel_rfl) j

theorem coverFirst (c : Dev nD) (i : grid0.Coords)
    (arg2 : Memref sig .tc .vmem S32x8192 .f32) (harg2 : arg2.IsWhole) (arg3 : Memref sig .tc .vmem S8192 .i32) (harg3 : arg3.IsWhole)
    (arg4 : Memref sig .tc .vmem S8192 .f32) (harg4 : arg4.IsWhole) (arg5 : Memref sig .tc .vmem S1x32x1024 .f32) (harg5 : arg5.IsWhole)
    (hc : isFirst i) (x0 : Vec F S32x8192 .f32) (x1 : Vec F S8192 .i32) (x2 : Vec F S8192 .f32) (j : S1x32x1024.Idx) :
    ∃ pc ∈ (mainRunFirst c i arg2 harg2 arg3 harg3 arg4 harg4 arg5 harg5 hc x0 x1 x2).1, j ∈ pc.1.set :=
  View.cover_of_tiledL (mainRunFirst c i arg2 harg2 arg3 harg3 arg4 harg4 arg5 harg5 hc x0 x1 x2).1 S1x32x1024.size (by sl_kernel_rfl) j

theorem coverTail (c : Dev nD) (i : grid1.Coords)
    (arg1 : Memref sig .tc .vmem S32x576 .f32) (harg1 : arg1.IsWhole) (arg2 : Memref sig .tc .vmem S576 .i32) (harg2 : arg2.IsWhole)
    (arg3 : Memref sig .tc .vmem S576 .f32) (harg3 : arg3.IsWhole) (arg4 : Memref sig .tc .vmem S32x1024 .f32) (harg4 : arg4.IsWhole)
    (x0 : Vec F S32x576 .f32) (x1 : Vec F S576 .i32) (x2 : Vec F S576 .f32) (j : S32x1024.Idx) :
    ∃ pc ∈ (tailRun c i arg1 harg1 arg2 harg2 arg3 harg3 arg4 harg4 x0 x1 x2).1, j ∈ pc.1.set :=
  View.cover_of_tiledL (tailRun c i arg1 harg1 arg2 harg2 arg3 harg3 arg4 harg4 x0 x1 x2).1 S32x1024.size (by sl_kernel_rfl) j

end Cert.KernelIdeal.Hand

end
-- ==== Proof.BlockDefs.lean ====
import proofs.«403119_j6691559047459_3_alg».proof.Proof.Gen.KernelIdeal.Launch
import proofs.«403119_j6691559047459_3_alg».proof.Proof.Gen.KernelIdeal.Points
import Idealize.ShloMosaic.Lib.Pipeline.Kit

/-!
The main kernel's three input blocks at a grid point, each filled out to the whole staging block.

At point `t` the pipeline fetches, into a staging buffer holding `d`, the part of block `t` that lies inside the
array; the buffer then holds that part where the transfer moved it and `d` elsewhere. (Every block the grid visits
lies wholly inside its array, so nothing of `d` is in fact left: a later module proves it.)
-/

noncomputable section

namespace Cert.KernelIdeal.Hand

open Cert.KernelIdeal Cert.KernelIdeal.Gen Idealize.ShloMosaic Idealize.ShloMosaic.TcCoe

variable {F : FTy → Type} [FloatOps F]

/-- The block of x at point `t` in a staging buffer that held `d`. -/
def xfull (A0 : S32x1000000.Idx → Elt F .f32) (t : Fin cfg0.N) (d : S32x8192.Idx → Elt F .f32) : S32x8192.Idx → Elt F .f32 :=
  win0_0.fill (grid0.coords t) d ((win0_0.blk t).view.read (Elt F) A0)

/-- The block of sel at point `t` in a staging buffer that held `d`. -/
def sfull (A1 : S1000000.Idx → Elt F .i32) (t : Fin cfg0.N) (d : S8192.Idx → Elt F .i32) : S8192.Idx → Elt F .i32 :=
  win0_1.fill (grid0.coords t) d ((win0_1.blk t).view.read (Elt F) A1)

/-- The block of sign at point `t` in a staging buffer that held `d`. -/
def gfull (A2 : S1000000.Idx → Elt F .f32) (t : Fin cfg0.N) (d : S8192.Idx → Elt F .f32) : S8192.Idx → Elt F .f32 :=
  win0_2.fill (grid0.coords t) d ((win0_2.blk t).view.read (Elt F) A2)

/-- No block the grid visits is cut at its array's end: blocks 0 … 121 of 8192 columns end at column 999424. -/
theorem clip0_none : ∀ (t : Fin cfg0.N) a, win0_0.clip (grid0.coords t) a = none :=
  (by decide +kernel : ∀ (t : Fin grid0.N) a, win0_0.clip (grid0.coords t) a = none)
theorem clip1_none : ∀ (t : Fin cfg0.N) a, win0_1.clip (grid0.coords t) a = none :=
  (by decide +kernel : ∀ (t : Fin grid0.N) a, win0_1.clip (grid0.coords t) a = none)
theorem clip2_none : ∀ (t : Fin cfg0.N) a, win0_2.clip (grid0.coords t) a = none :=
  (by decide +kernel : ∀ (t : Fin grid0.N) a, win0_2.clip (grid0.coords t) a = none)

/-- An uncut fetch moves every index of the block. -/
theorem moved0 (t : Fin cfg0.N) (j : S32x8192.Idx) : win0_0.moved (grid0.coords t) j = true :=
  (win0_0.moved_iff _ j).mpr fun a => by have := (j a).isLt; unfold Pipeline.Window.xsize; rw [clip0_none t a]; exact this
theorem moved1 (t : Fin cfg0.N) (j : S8192.Idx) : win0_1.moved (grid0.coords t) j = true :=
  (win0_1.moved_iff _ j).mpr fun a => by have := (j a).isLt; unfold Pipeline.Window.xsize; rw [clip1_none t a]; exact this
theorem moved2 (t : Fin cfg0.N) (j : S8192.Idx) : win0_2.moved (grid0.coords t) j = true :=
  (win0_2.moved_iff _ j).mpr fun a => by have := (j a).isLt; unfold Pipeline.Window.xsize; rw [clip2_none t a]; exact this

/-- So the filled block does not depend on what the buffer held. -/
theorem xfull_indep (A0 : S32x1000000.Idx → Elt F .f32) (t : Fin cfg0.N) (d d' : S32x8192.Idx → Elt F .f32) :
    xfull A0 t d = xfull A0 t d' := by
  funext j; unfold xfull Pipeline.Window.fill; rw [dif_pos (moved0 t j), dif_pos (moved0 t j)]
theorem sfull_indep (A1 : S1000000.Idx → Elt F .i32) (t : Fin cfg0.N) (d d' : S8192.Idx → Elt F .i32) :
    sfull A1 t d = sfull A1 t d' := by
  funext j; unfold sfull Pipeline.Window.fill; rw [dif_pos (moved1 t j), dif_pos (moved1 t j)]
theorem gfull_indep (A2 : S1000000.Idx → Elt F .f32) (t : Fin cfg0.N) (d d' : S8192.Idx → Elt F .f32) :
    gfull A2 t d = gfull A2 t d' := by
  funext j; unfold gfull Pipeline.Window.fill; rw [dif_pos (moved2 t j), dif_pos (moved2 t j)]

end Cert.KernelIdeal.Hand

end
-- ==== Proof.Pipe0.lean ====
import proofs.«403119_j6691559047459_3_alg».proof.Proof.BodyRuns
import proofs.«403119_j6691559047459_3_alg».proof.Proof.BlockDefs
import Idealize.ShloMosaic.Lib.Pipeline.Frame
import Idealize.ShloMosaic.Lib.Pipeline.FrameBody

/-!
The main kernel's pipeline, point by point.

The grid has 2 × 61 points in row-major order; the accumulator window's block index is the row, so its staging
buffer is written back at the last point of each row (points ≡ 60 mod 61) and the body clears it at the first
(points ≡ 0 mod 61). `accAt n` is what the accumulator buffer holds after the body at point `n`: at a row's first
point the clearing run's result on that point's three input blocks, at a later point the updating run's result
on the point's blocks over what the point before left. The three input windows hand the body their blocks,
freshly fetched at every point, and get them back unchanged.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- The body clears the accumulator exactly at the first point of each row of the grid. -/
theorem hfirst : ∀ t : Fin cfg0.N, isFirst (grid0.coords t) ↔ t.val % 61 = 0 :=
  (by decide +kernel : ∀ t : Fin grid0.N, isFirst (grid0.coords t) ↔ t.val % 61 = 0)

/-- The three input blocks at point `t`, in buffers that held zeros. -/
abbrev xb (c : Dev nD) (t : Fin cfg0.N) : Vec F S32x8192 .f32 := xfull (V c main_arg0) t (fun _ => Scalar.ofBits .f32 0#32)
abbrev sb (c : Dev nD) (t : Fin cfg0.N) : Vec F S8192 .i32 := sfull (V c main_arg1) t (fun _ => 0#32)
abbrev gb (c : Dev nD) (t : Fin cfg0.N) : Vec F S8192 .f32 := gfull (V c main_arg2) t (fun _ => Scalar.ofBits .f32 0#32)

/-- Each window's current staging memref at point `t`, as the pipeline passes it, and its wholeness. -/
abbrev ms0 (t : Fin cfg0.N) : Memref sig .tc .vmem S32x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x1024 .f32 := win0_3.stage (cfg0.slots t 3)
abbrev hs3 (t : Fin cfg0.N) : (ms3 t).IsWhole := hstage0_3 ((cfg0.slots t 3).cast nbuf0_3)

/-- THE ACCUMULATION: what the accumulator buffer holds after the body at point `n`. -/
def accAt (c : Dev nD) : (n : ℕ) → n < cfg0.N → Vec F S1x32x1024 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hfirst ⟨0, hn⟩).mpr (Nat.zero_mod _)) (xb V c ⟨0, hn⟩) (sb V c ⟨0, hn⟩) (gb V c ⟨0, hn⟩)
  | n + 1, hn =>
    if h0 : (n + 1) % 61 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hfirst ⟨n + 1, hn⟩).mpr h0) (xb V c ⟨n + 1, hn⟩) (sb V c ⟨n + 1, hn⟩) (gb V c ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hfirst ⟨n + 1, hn⟩).mp h)) (xb V c ⟨n + 1, hn⟩) (sb V c ⟨n + 1, hn⟩) (gb V c ⟨n + 1, hn⟩) (accAt c n (Nat.lt_of_succ_lt hn))

/-- At a row's first point: the clearing run's result. -/
theorem accAt_first (c : Dev nD) (t : Fin cfg0.N) (h0 : t.val % 61 = 0) :
    accAt V c t.val t.isLt = outFirst c (grid0.coords t) (ms0 t) (hs0 t) (ms1 t) (hs1 t) (ms2 t) (hs2 t) (ms3 t) (hs3 t)
      ((hfirst t).mpr h0) (xb V c t) (sb V c t) (gb V c t) := by
  obtain ⟨n, hn⟩ := t
  cases n with
  | zero => exact rfl
  | succ n => exact (dif_pos h0).trans rfl

/-- At a later point: the updating run's result over what the point before left. -/
theorem accAt_later (c : Dev nD) (t : Fin cfg0.N) (h0 : ¬t.val % 61 = 0) :
    accAt V c t.val t.isLt = outLater c (grid0.coords t) (ms0 t) (hs0 t) (ms1 t) (hs1 t) (ms2 t) (hs2 t) (ms3 t) (hs3 t)
      (fun h => h0 ((hfirst t).mp h)) (xb V c t) (sb V c t) (gb V c t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the three input buffers at their blocks
    and the accumulator's at `accAt`; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => xb V c t
    | ⟨1, _⟩ => sb V c t
    | ⟨2, _⟩ => gb V c t
    | ⟨3, _⟩ => accAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xb V c t := by dsimp only [dat0]
theorem after0_1 (c : Dev nD) (t : Fin cfg0.N) : (dat0 V c).after 1 t = sb V c t := by dsimp only [dat0]
theorem after0_2 (c : Dev nD) (t : Fin cfg0.N) : (dat0 V c).after 2 t = gb V c t := by dsimp only [dat0]
theorem after0_3 (c : Dev nD) (t : Fin cfg0.N) : (dat0 V c).after 3 t = accAt V c t.val t.isLt := by dsimp only [dat0]

/-- Each input buffer, fetched at every point, holds its block; nothing of what it held before is left. -/
theorem before0_0 (c : Dev nD) (t : Fin cfg0.N) (d) : (dat0 V c).before 0 t d = xb V c t := by
  unfold Dat.before; rw [if_pos (fetch0_0 t)]
  exact xfull_indep (V c main_arg0) t d _
theorem before0_1 (c : Dev nD) (t : Fin cfg0.N) (d) : (dat0 V c).before 1 t d = sb V c t := by
  unfold Dat.before; rw [if_pos (fetch0_1 t)]
  exact sfull_indep (V c main_arg1) t d _
theorem before0_2 (c : Dev nD) (t : Fin cfg0.N) (d) : (dat0 V c).before 2 t d = gb V c t := by
  unfold Dat.before; rw [if_pos (fetch0_2 t)]
  exact gfull_indep (V c main_arg2) t d _

theorem point_lt' (t : Fin cfg0.N) : t.val < 122 := lt_of_lt_of_eq t.isLt (show cfg0.N = 122 from N_0)

/-- At a later point of a row the accumulator buffer holds what the point before left: it was not written back. -/
theorem before0_3_later (c : Dev nD) (t : Fin cfg0.N) (h0 : ¬t.val % 61 = 0) (d) :
    (dat0 V c).before 3 t d = accAt V c (t.val - 1) (Nat.lt_of_le_of_lt (Nat.sub_le _ _) t.isLt) := by
  have hN := point_lt' t
  rw [Dat.before_out_kept _ 3 rfl t (by omega) (Bool.eq_false_iff.mpr fun h => by have := (flush0_3 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

def bodyPost0 (c : Dev nD) (t : Fin cfg0.N) : sProp 𝕄 :=
  iprop((dat0 V c).Φ t.succ ∗ (dat0 V c).owesAt () t.succ
    ∗ (∃ d, owns (c : Thread nD τ) (ms0 t) fullShare (win0_0.fill (grid0.coords t) d (win0_0.cut (grid0.coords t) ((dat0 V c).after 0 t))))
    ∗ (∃ d, owns (c : Thread nD τ) (ms1 t) fullShare (win0_1.fill (grid0.coords t) d (win0_1.cut (grid0.coords t) ((dat0 V c).after 1 t))))
    ∗ (∃ d, owns (c : Thread nD τ) (ms2 t) fullShare (win0_2.fill (grid0.coords t) d (win0_2.cut (grid0.coords t) ((dat0 V c).after 2 t))))
    ∗ owns (c : Thread nD τ) (ms3 t) fullShare ((dat0 V c).after 3 t))

set_option maxHeartbeats 1600000 in
/-- The body at any point: the inputs' buffers hold their blocks; the row's first point clears the accumulator,
    a later one finds what the point before left; either run applies, and the buffers go back as the proof data
    says. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 61 = 0
  · rw [accAt_first V c t h0]
    unfold outFirst
    iintro ⟨HΦ, Ho, ⟨%d0, H0⟩, ⟨%d1, H1⟩, ⟨%d2, H2⟩, ⟨%d3, H3⟩⟩
    iapply ((mainRunFirst c (grid0.coords t) _ _ _ _ _ _ _ _ ((hfirst t).mpr h0) (xb V c t) (sb V c t) (gb V c t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexists (xb V c t); rw [Window.fill_cut]; iexact H0
    isplitl [H1]; · iexists (sb V c t); rw [Window.fill_cut]; iexact H1
    isplitl [H2]; · iexists (gb V c t); rw [Window.fill_cut]; iexact H2
    unfold owns; iexists _; isplitr
    swap; · iexact H3
    ipureintro; exact View.read_writes_of_cover _ _ _ _ _ (coverFirst c _ _ _ _ _ _ _ _ _ _ _ _ _)
  · rw [accAt_later V c t h0]
    simp only [before0_3_later V c t h0]
    unfold outLater
    iintro ⟨HΦ, Ho, ⟨%d0, H0⟩, ⟨%d1, H1⟩, ⟨%d2, H2⟩, ⟨%d3, H3⟩⟩
    iapply ((mainRunLater c (grid0.coords t) _ _ _ _ _ _ _ _ (fun h => h0 ((hfirst t).mp h)) (xb V c t) (sb V c t) (gb V c t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexists (xb V c t); rw [Window.fill_cut]; iexact H0
    isplitl [H1]; · iexists (sb V c t); rw [Window.fill_cut]; iexact H1
    isplitl [H2]; · iexists (gb V c t); rw [Window.fill_cut]; iexact H2
    unfold owns; iexists _; isplitr
    swap; · iexact H3
    ipureintro; exact View.read_writes_of_cover _ _ _ _ _ (coverLater c _ _ _ _ _ _ _ _ _ _ _ _ _ _)

/-- The library's body obligation (the three input windows stated on the part their transfers move). -/
theorem body_obligation0 (c : Dev nD) : BodyObligationLoose (dat0 (F := F) V c) (defs₀ (F := F)) Variants.none () Set.univ := fun t => by
  rw [bigSep_W0, bigSep_W0]
  exact sound_body0 V c t

end Cert.KernelIdeal.Hand

end
-- ==== Proof.Pipe1.lean ====
import proofs.«403119_j6691559047459_3_alg».proof.Proof.BodyRuns
import Idealize.ShloMosaic.Lib.Pipeline.Frame
import Idealize.ShloMosaic.Lib.Pipeline.FrameBody

/-!
The tail kernel's pipeline: one grid point, each window's block its whole array. The three input buffers hold
their arrays, the body stores its one product into the output buffer, and the write-back copies it out.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev mt0 (t : Fin cfg1.N) : Memref sig .tc .vmem S32x576 .f32 := win1_0.stage (cfg1.slots t 0)
abbrev ht0 (t : Fin cfg1.N) : (mt0 t).IsWhole := hstage1_0 ((cfg1.slots t 0).cast nbuf1_0)
abbrev mt1 (t : Fin cfg1.N) : Memref sig .tc .vmem S576 .i32 := win1_1.stage (cfg1.slots t 1)
abbrev ht1 (t : Fin cfg1.N) : (mt1 t).IsWhole := hstage1_1 ((cfg1.slots t 1).cast nbuf1_1)
abbrev mt2 (t : Fin cfg1.N) : Memref sig .tc .vmem S576 .f32 := win1_2.stage (cfg1.slots t 2)
abbrev ht2 (t : Fin cfg1.N) : (mt2 t).IsWhole := hstage1_2 ((cfg1.slots t 2).cast nbuf1_2)
abbrev mt3 (t : Fin cfg1.N) : Memref sig .tc .vmem S32x1024 .f32 := win1_3.stage (cfg1.slots t 3)
abbrev ht3 (t : Fin cfg1.N) : (mt3 t).IsWhole := hstage1_3 ((cfg1.slots t 3).cast nbuf1_3)

/-- What the output buffer holds after the body at point `t`: the run's result on the three input blocks. -/
def tailAt (c : Dev nD) (t : Fin cfg1.N) : Vec F S32x1024 .f32 :=
  outTail c (grid1.coords t) (mt0 t) (ht0 t) (mt1 t) (ht1 t) (mt2 t) (ht2 t) (mt3 t) (ht3 t) (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tailAt V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = tailAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (mt0 t) fullShare ((dat1 V c).before 0 t d))
    ∗ (∃ d, owns (c : Thread nD τ) (mt1 t) fullShare ((dat1 V c).before 1 t d))
    ∗ (∃ d, owns (c : Thread nD τ) (mt2 t) fullShare ((dat1 V c).before 2 t d))
    ∗ (∃ d, owns (c : Thread nD τ) (mt3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (mt0 t) fullShare ((dat1 V c).after 0 t)
    ∗ owns (c : Thread nD τ) (mt1 t) fullShare ((dat1 V c).after 1 t)
    ∗ owns (c : Thread nD τ) (mt2 t) fullShare ((dat1 V c).after 2 t)
    ∗ owns (c : Thread nD τ) (mt3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold tailAt outTail
  iintro ⟨HΦ, Ho, ⟨%d0, H0⟩, ⟨%d1, H1⟩, ⟨%d2, H2⟩, ⟨%d3, H3⟩⟩
  iapply ((tailRun c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverTail c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
import proofs.«403119_j6691559047459_3_alg».proof.Proof.Pipe0
import proofs.«403119_j6691559047459_3_alg».proof.Proof.Pipe1
import Idealize.ShloMosaic.Lib.Pipeline.RegionsLoop
import Idealize.ShloMosaic.Lib.Pipeline.FrameSuffix

/-!
The whole program's run: the main kernel's region, eight host operations (the two halves of its result sliced out
and added; the last 576 columns of the three arguments sliced out), the tail kernel's region, and the final sum.

The buffers' contents at each boundary are a fold from the launch memory: a region leaves its arrays at what its
write-backs leave and every other buffer as it found it; a stretch of host operations leaves what the operations
compute. Every execution terminates, and the final memory holds the last fold at every buffer. The arguments are
written by nobody, so they come back as launched; the result is read off the same fold by a later module.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (the main kernel's region is entered at once). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the main kernel's region: its arrays at what the write-backs leave. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the eight host operations (the tail kernel's region is entered). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the tail kernel's region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the final sum. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The main kernel's region: entered from every unscoped buffer at the launch contents, left with its arrays at
    what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m ρ) c
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tail kernel's region: entered from every unscoped buffer at the contents the host operations left, left
    with its arrays at what the write-back leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds the last fold `W4` at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.HostFold.lean ====
import proofs.«403119_j6691559047459_3_alg».proof.Proof.Run
import Idealize.ShloMosaic.Lib.StableHlo.Run
import Idealize.ShloMosaic.Lib.Pipeline.Value
import Idealize.ShloMosaic.Lib.ValueIdx

/-!
The host operations between and after the two kernels, read off the fold of buffer contents.

The final result is (half 0 of the main kernel's result + half 1) + the tail kernel's result; the tail kernel's
three operands are the last 576 columns of the three arguments, which the main kernel's region leaves as it found
them.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

variable {F : FTy → Type} [FloatOps F]

variable (m : (ℓ : Loc nD τ sig) → Buf (Elt F) ℓ) (ρ : Dev nD → PrngReg)

/-- The three arguments as launched, and the buffers this module reads at the boundaries, at their literal types. -/
abbrev argX (c : Dev nD) : FVec F S32x1000000 .f32 := m ((c : Thread nD τ).loc main_arg0)
abbrev argSel (c : Dev nD) : IVec S1000000 32 := m ((c : Thread nD τ).loc main_arg1)
abbrev argSign (c : Dev nD) : FVec F S1000000 .f32 := m ((c : Thread nD τ).loc main_arg2)
/-- The main kernel's result array after its region. -/
abbrev mainOut (c : Dev nD) : FVec F S2x32x1024 .f32 := (dat0 (V0 m ρ) c).arrAt 3 cfg0.N
/-- The tail kernel's result array after its region. -/
abbrev tailOut (c : Dev nD) : FVec F S32x1024 .f32 := (dat1 (V2 m ρ) c).arrAt 3 cfg1.N
/-- The program's result. -/
abbrev result (c : Dev nD) : FVec F S32x1024 .f32 := W4 m ρ c (Proc.devRef .tc main_v10)

/-- The main kernel's region leaves the three arguments as launched: they are inputs of its pipeline. -/
theorem W1_arg0 (c : Dev nD) : (W1 m ρ c (Proc.devRef .tc main_arg0) : FVec F S32x1000000 .f32) = argX m c :=
  (W1_arr m ρ c 0).trans (((dat0 (V0 m ρ) c).arrAt_in 0 rfl _).trans (A_eq0 (V0 m ρ) c 0))
theorem W1_arg1 (c : Dev nD) : (W1 m ρ c (Proc.devRef .tc main_arg1) : IVec S1000000 32) = argSel m c :=
  (W1_arr m ρ c 1).trans (((dat0 (V0 m ρ) c).arrAt_in 1 rfl _).trans (A_eq0 (V0 m ρ) c 1))
theorem W1_arg2 (c : Dev nD) : (W1 m ρ c (Proc.devRef .tc main_arg2) : FVec F S1000000 .f32) = argSign m c :=
  (W1_arr m ρ c 2).trans (((dat0 (V0 m ρ) c).arrAt_in 2 rfl _).trans (A_eq0 (V0 m ρ) c 2))
theorem W1_v0 (c : Dev nD) : (W1 m ρ c (Proc.devRef .tc main_v0) : FVec F S2x32x1024 .f32) = mainOut m ρ c :=
  W1_arr m ρ c 3

/-- The tail kernel's operands: the last 576 columns of the arguments. -/
theorem V2_v6 (c : Dev nD) : (V2 m ρ c main_v6 : FVec F S32x576 .f32)
    = extractStridedSlice S32x576 ![0, 999424] (argX m c) slices_S32x1000000_S32x576_0_999424 := by
  rw [← W1_arg0 m ρ c]
  show StableHlo.after hostOps1 (W1 m ρ c) (Proc.devRef .tc main_v6) = _
  after_results
theorem V2_v7 (c : Dev nD) : (V2 m ρ c main_v7 : IVec S576 32)
    = extractStridedSlice S576 ![999424] (argSel m c) slices_S1000000_S576_999424 := by
  rw [← W1_arg1 m ρ c]
  show StableHlo.after hostOps1 (W1 m ρ c) (Proc.devRef .tc main_v7) = _
  after_results
theorem V2_v8 (c : Dev nD) : (V2 m ρ c main_v8 : FVec F S576 .f32)
    = extractStridedSlice S576 ![999424] (argSign m c) slices_S1000000_S576_999424 := by
  rw [← W1_arg2 m ρ c]
  show StableHlo.after hostOps1 (W1 m ρ c) (Proc.devRef .tc main_v8) = _
  after_results

/-- The sum of the main kernel's two halves. -/
theorem W2_v5 (c : Dev nD) : (W2 m ρ c (Proc.devRef .tc main_v5) : FVec F S32x1024 .f32)
    = addf (shapeCast S32x1024 (extractStridedSlice S1x32x1024 ![0, 0, 0] (mainOut m ρ c) slices_S2x32x1024_S1x32x1024_0_0_0) shapeCasts_S1x32x1024_S32x1024)
        (shapeCast S32x1024 (extractStridedSlice S1x32x1024 ![1, 0, 0] (mainOut m ρ c) slices_S2x32x1024_S1x32x1024_1_0_0) shapeCasts_S1x32x1024_S32x1024) := by
  rw [← W1_v0 m ρ c]
  show StableHlo.after hostOps1 (W1 m ρ c) (Proc.devRef .tc main_v5) = _
  after_results
  rfl

/-- The tail kernel's region changes neither that sum … -/
theorem W3_v5 (c : Dev nD) : (W3 m ρ c (Proc.devRef .tc main_v5) : FVec F S32x1024 .f32) = W2 m ρ c (Proc.devRef .tc main_v5) :=
  W3_of_ne m ρ c main_v5 (by decide)
/-- … and leaves its own result. -/
theorem W3_v9 (c : Dev nD) : (W3 m ρ c (Proc.devRef .tc main_v9) : FVec F S32x1024 .f32) = tailOut m ρ c :=
  W3_arr m ρ c 3

/-- The program's result: the two halves' sum plus the tail's. -/
theorem result_eq_sum (c : Dev nD) : result m ρ c
    = addf (addf (shapeCast S32x1024 (extractStridedSlice S1x32x1024 ![0, 0, 0] (mainOut m ρ c) slices_S2x32x1024_S1x32x1024_0_0_0) shapeCasts_S1x32x1024_S32x1024)
        (shapeCast S32x1024 (extractStridedSlice S1x32x1024 ![1, 0, 0] (mainOut m ρ c) slices_S2x32x1024_S1x32x1024_1_0_0) shapeCasts_S1x32x1024_S32x1024))
      (tailOut m ρ c) := by
  rw [← W2_v5 m ρ c, ← W3_v5 m ρ c, ← W3_v9 m ρ c]
  show StableHlo.after hostOps2 (W3 m ρ c) (Proc.devRef .tc main_v10) = _
  after_results

/-- No region and no host operation writes an argument: the last fold holds each as launched. -/
theorem W4_arg0 (c : Dev nD) : (W4 m ρ c (Proc.devRef .tc main_arg0) : FVec F S32x1000000 .f32) = argX m c := by
  have h3 : W3 m ρ c (Proc.devRef .tc main_arg0) = W2 m ρ c (Proc.devRef .tc main_arg0) := W3_of_ne m ρ c main_arg0 (by decide)
  rw [← W1_arg0 m ρ c]
  show StableHlo.after hostOps2 (W3 m ρ c) (Proc.devRef .tc main_arg0) = _
  after_results
  rw [h3]
  show StableHlo.after hostOps1 (W1 m ρ c) (Proc.devRef .tc main_arg0) = _
  after_results
theorem W4_arg1 (c : Dev nD) : (W4 m ρ c (Proc.devRef .tc main_arg1) : IVec S1000000 32) = argSel m c := by
  have h3 : W3 m ρ c (Proc.devRef .tc main_arg1) = W2 m ρ c (Proc.devRef .tc main_arg1) := W3_of_ne m ρ c main_arg1 (by decide)
  rw [← W1_arg1 m ρ c]
  show StableHlo.after hostOps2 (W3 m ρ c) (Proc.devRef .tc main_arg1) = _
  after_results
  rw [h3]
  show StableHlo.after hostOps1 (W1 m ρ c) (Proc.devRef .tc main_arg1) = _
  after_results
theorem W4_arg2 (c : Dev nD) : (W4 m ρ c (Proc.devRef .tc main_arg2) : FVec F S1000000 .f32) = argSign m c := by
  have h3 : W3 m ρ c (Proc.devRef .tc main_arg2) = W2 m ρ c (Proc.devRef .tc main_arg2) := W3_of_ne m ρ c main_arg2 (by decide)
  rw [← W1_arg2 m ρ c]
  show StableHlo.after hostOps2 (W3 m ρ c) (Proc.devRef .tc main_arg2) = _
  after_results
  rw [h3]
  show StableHlo.after hostOps1 (W1 m ρ c) (Proc.devRef .tc main_arg2) = _
  after_results

/-- THE FRAME: every execution terminates and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_arg0 m ρ c),
     (h c _ (mem_uc main_arg1 (by decide))).trans (W4_arg1 m ρ c),
     (h c _ (mem_uc main_arg2 (by decide))).trans (W4_arg2 m ρ c)⟩) (run_all m ρ)

end Cert.KernelIdeal.Hand

end
-- ==== Proof.Blocks.lean ====
import proofs.«403119_j6691559047459_3_alg».proof.Proof.BlockDefs
import Idealize.ShloMosaic.Lib.Pipeline.Kit
import Idealize.ShloMosaic.Lib.ValueIdx
import Idealize.ShloMosaic.Lib.Pipeline.Value

/-!
The main kernel's three input blocks, read at an index.

The grid has 2 · 61 = 122 points; at point `t` (counted row by row) each of the three index maps returns the block
number `t` itself, so the block of 8192 columns fetched there starts at column `t · 8192`. A coordinate of the
array under a coordinate `k` of the block is always (block number) · (block size) + 1 · k; with the block number
decided once over the 122 points this gives: entry (b, k) of the staged x block is x (b, t · 8192 + k), and entry k
of the staged sel and sign blocks is sel (t · 8192 + k) and sign (t · 8192 + k). The last column so reached is
121 · 8192 + 8191 = 999423, inside the array.
-/

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

/-- The grid has 122 points. -/
theorem point_lt (t : Fin cfg0.N) : t.val < 122 := by
  have h := t.isLt
  have hN : cfg0.N = 122 := N_0
  omega

/-- The x window's block number at point `t`: row block 0, column block `t`. -/
theorem index0 : ∀ t : Fin cfg0.N, win0_0.index t (1 : Fin 2) = t.val ∧ win0_0.index t (0 : Fin 2) = 0 :=
  (by decide +kernel : ∀ t : Fin grid0.N, win0_0.index t (1 : Fin 2) = t.val ∧ win0_0.index t (0 : Fin 2) = 0)

/-- The sel window's block number at point `t` is `t`. -/
theorem index1 : ∀ t : Fin cfg0.N, win0_1.index t (0 : Fin 1) = t.val :=
  (by decide +kernel : ∀ t : Fin grid0.N, win0_1.index t (0 : Fin 1) = t.val)

/-- The sign window's block number at point `t` is `t`. -/
theorem index2 : ∀ t : Fin cfg0.N, win0_2.index t (0 : Fin 1) = t.val :=
  (by decide +kernel : ∀ t : Fin grid0.N, win0_2.index t (0 : Fin 1) = t.val)

/-- Entry (b, k) of the x block at point `t` is x (b, t · 8192 + k). -/
theorem xfull_apply (A0 : S32x1000000.Idx → Elt F .f32) (t : Fin cfg0.N) (d : S32x8192.Idx → Elt F .f32) (b : Fin 32) (k : Fin 8192) :
    xfull A0 t d (ix2 b k) = A0 (ix2 b ⟨t.val * 8192 + k.val, by have := point_lt t; have := k.isLt; omega⟩) := by
  obtain ⟨h1, h0⟩ := index0 t
  unfold xfull Pipeline.Window.fill
  rw [dif_pos (moved0 t _), View.read_apply]
  show _root_.cast _ (A0 ((win0_0.rect t).emb _)) = _
  rw [cast_eq]
  congr 1
  funext a
  apply Fin.ext
  rw [Rect.emb_apply]
  match a with
  | ⟨0, _⟩ =>
    show win0_0.index t (0 : Fin 2) * 32 + 1 * b.val = b.val
    rw [h0]; omega
  | ⟨1, _⟩ =>
    show win0_0.index t (1 : Fin 2) * 8192 + 1 * k.val = t.val * 8192 + k.val
    rw [h1]; omega

/-- Entry k of the sel block at point `t` is sel (t · 8192 + k). -/
theorem sfull_apply (A1 : S1000000.Idx → Elt F .i32) (t : Fin cfg0.N) (d : S8192.Idx → Elt F .i32) (k : Fin 8192) :
    sfull A1 t d (ix1 k) = A1 (ix1 ⟨t.val * 8192 + k.val, by have := point_lt t; have := k.isLt; omega⟩) := by
  have h0 := index1 t
  unfold sfull Pipeline.Window.fill
  rw [dif_pos (moved1 t _), View.read_apply]
  show _root_.cast _ (A1 ((win0_1.rect t).emb _)) = _
  rw [cast_eq]
  congr 1
  funext a
  apply Fin.ext
  rw [Rect.emb_apply]
  match a with
  | ⟨0, _⟩ =>
    show win0_1.index t (0 : Fin 1) * 8192 + 1 * k.val = t.val * 8192 + k.val
    rw [h0]; omega

/-- Entry k of the sign block at point `t` is sign (t · 8192 + k). -/
theorem gfull_apply (A2 : S1000000.Idx → Elt F .f32) (t : Fin cfg0.N) (d : S8192.Idx → Elt F .f32) (k : Fin 8192) :
    gfull A2 t d (ix1 k) = A2 (ix1 ⟨t.val * 8192 + k.val, by have := point_lt t; have := k.isLt; omega⟩) := by
  have h0 := index2 t
  unfold gfull Pipeline.Window.fill
  rw [dif_pos (moved2 t _), View.read_apply]
  show _root_.cast _ (A2 ((win0_2.rect t).emb _)) = _
  rw [cast_eq]
  congr 1
  funext a
  apply Fin.ext
  rw [Rect.emb_apply]
  match a with
  | ⟨0, _⟩ =>
    show win0_2.index t (0 : Fin 1) * 8192 + 1 * k.val = t.val * 8192 + k.val
    rw [h0]; omega

end Cert.KernelIdeal.Hand

end
-- ==== Proof.PayloadSpec.lean ====
import proofs.«403119_j6691559047459_3_alg».proof.Proof.BodyRuns
import Idealize.ShloMosaic.PureOps.Ideal
import Idealize.ShloMosaic.Lib.ValueIdx

/-!
What the kernel bodies' results are, entry by entry, over the extended reals — as three propositions, so that the
modules that sum these results over the grid and the module that proves them from the stored pieces do not depend
on each other.

A grid point of the main kernel adds to accumulator entry (b, o) the products x (b, k) · sign k of the columns `k`
of its block whose bucket word reads `o` unsigned; the first point of a row starts from zero; the tail kernel
leaves the same sum over its 576 columns.
-/

noncomputable section

open scoped BigOperators

namespace Cert.KernelIdeal.Hand

open Cert.KernelIdeal Cert.KernelIdeal.Gen Idealize.ShloMosaic Idealize.ShloMosaic.TcCoe Idealize.ShloMosaic.ValueIdx

/-- A later point's result at (b, o): what the accumulator held there plus the point's columns. -/
def OutLaterSpec : Prop :=
  ∀ (c : Dev nD) (i : grid0.Coords) (arg2 : Memref sig .tc .vmem S32x8192 .f32) (harg2 : arg2.IsWhole)
    (arg3 : Memref sig .tc .vmem S8192 .i32) (harg3 : arg3.IsWhole) (arg4 : Memref sig .tc .vmem S8192 .f32) (harg4 : arg4.IsWhole)
    (arg5 : Memref sig .tc .vmem S1x32x1024 .f32) (harg5 : arg5.IsWhole) (hc : ¬isFirst i)
    (x0 : Vec Ideal S32x8192 .f32) (x1 : Vec Ideal S8192 .i32) (x2 : Vec Ideal S8192 .f32) (y : Vec Ideal S1x32x1024 .f32)
    (b : Fin 32) (o : Fin 1024),
    outLater (F := Ideal) c i arg2 harg2 arg3 harg3 arg4 harg4 arg5 harg5 hc x0 x1 x2 y (ix3 (0 : Fin 1) b o)
      = y (ix3 (0 : Fin 1) b o) + ∑ k : Fin 8192, (if (x1 (ix1 k)).toNat = o.val then x0 (ix2 b k) * x2 (ix1 k) else 0)

/-- A row's first point's result at (b, o): the point's columns alone. -/
def OutFirstSpec : Prop :=
  ∀ (c : Dev nD) (i : grid0.Coords) (arg2 : Memref sig .tc .vmem S32x8192 .f32) (harg2 : arg2.IsWhole)
    (arg3 : Memref sig .tc .vmem S8192 .i32) (harg3 : arg3.IsWhole) (arg4 : Memref sig .tc .vmem S8192 .f32) (harg4 : arg4.IsWhole)
    (arg5 : Memref sig .tc .vmem S1x32x1024 .f32) (harg5 : arg5.IsWhole) (hc : isFirst i)
    (x0 : Vec Ideal S32x8192 .f32) (x1 : Vec Ideal S8192 .i32) (x2 : Vec Ideal S8192 .f32)
    (b : Fin 32) (o : Fin 1024),
    outFirst (F := Ideal) c i arg2 harg2 arg3 harg3 arg4 harg4 arg5 harg5 hc x0 x1 x2 (ix3 (0 : Fin 1) b o)
      = ∑ k : Fin 8192, (if (x1 (ix1 k)).toNat = o.val then x0 (ix2 b k) * x2 (ix1 k) else 0)

/-- The tail kernel's result at (b, o): its 576 columns. -/
def OutTailSpec : Prop :=
  ∀ (c : Dev nD) (i : grid1.Coords) (arg1 : Memref sig .tc .vmem S32x576 .f32) (harg1 : arg1.IsWhole)
    (arg2 : Memref sig .tc .vmem S576 .i32) (harg2 : arg2.IsWhole) (arg3 : Memref sig .tc .vmem S576 .f32) (harg3 : arg3.IsWhole)
    (arg4 : Memref sig .tc .vmem S32x1024 .f32) (harg4 : arg4.IsWhole)
    (x0 : Vec Ideal S32x576 .f32) (x1 : Vec Ideal S576 .i32) (x2 : Vec Ideal S576 .f32) (b : Fin 32) (o : Fin 1024),
    outTail (F := Ideal) c i arg1 harg1 arg2 harg2 arg3 harg3 arg4 harg4 x0 x1 x2 (ix2 b o)
      = ∑ k : Fin 576, (if (x1 (ix1 k)).toNat = o.val then x0 (ix2 b k) * x2 (ix1 k) else 0)

end Cert.KernelIdeal.Hand

end
-- ==== Proof.Spec.lean ====
import Idealize.ShloMosaic.PureOps.Ideal
import Idealize.ShloMosaic.Lib.ValueIdx
import Mathlib.Algebra.BigOperators.Intervals

/-!
The signed feature hash as one function of its three arguments, over the extended reals.

Input column i (of 1,000,000) carries a bucket word sel i and a sign; output entry (b, o) is the sum, over the
columns whose bucket word reads o as an unsigned number, of x (b, i) · sign i. `part lo len` is that sum restricted
to the columns lo ≤ i < lo + len; two adjacent ranges add up to their union (`part_add`), which is the only law of
sums the comparison of the two programs needs: the kernel adds ranges of 2048, 8192, 499712 and 576 columns, the
reference all of them at once.
-/

noncomputable section

open scoped BigOperators

namespace Cert.Spec

open Idealize.ShloMosaic Idealize.ShloMosaic.ValueIdx

/-- The number of input columns. -/
abbrev nCols : Nat := 1000000

/-- What input column `i` contributes to output entry (b, o): x (b, i) · sign i when the column's bucket word reads
    `o` unsigned, nothing otherwise. -/
def term (x : FVec Ideal ⟨2, ![32, 1000000]⟩ .f32) (sel : IVec ⟨1, ![1000000]⟩ 32) (sign : FVec Ideal ⟨1, ![1000000]⟩ .f32)
    (b : Fin 32) (o : Fin 1024) (i : Fin 1000000) : EReal :=
  if (sel (ix1 i)).toNat = o.val then x (ix2 b i) * sign (ix1 i) else 0

/-- The same over every natural number: nothing past the last column. -/
def termN (x : FVec Ideal ⟨2, ![32, 1000000]⟩ .f32) (sel : IVec ⟨1, ![1000000]⟩ 32) (sign : FVec Ideal ⟨1, ![1000000]⟩ .f32)
    (b : Fin 32) (o : Fin 1024) (i : Nat) : EReal :=
  if h : i < 1000000 then term x sel sign b o ⟨i, h⟩ else 0

/-- The contributions of the columns lo ≤ i < lo + len to output entry (b, o). -/
def part (x : FVec Ideal ⟨2, ![32, 1000000]⟩ .f32) (sel : IVec ⟨1, ![1000000]⟩ 32) (sign : FVec Ideal ⟨1, ![1000000]⟩ .f32)
    (lo len : Nat) (b : Fin 32) (o : Fin 1024) : EReal :=
  ∑ k ∈ Finset.range len, termN x sel sign b o (lo + k)

/-- The whole result: every column's contribution. -/
def G (x : FVec Ideal ⟨2, ![32, 1000000]⟩ .f32) (sel : IVec ⟨1, ![1000000]⟩ 32) (sign : FVec Ideal ⟨1, ![1000000]⟩ .f32) :
    FVec Ideal ⟨2, ![32, 1024]⟩ .f32 :=
  fun j => ∑ i : Fin 1000000, term x sel sign (j 0) (j 1) i

variable (x : FVec Ideal ⟨2, ![32, 1000000]⟩ .f32) (sel : IVec ⟨1, ![1000000]⟩ 32) (sign : FVec Ideal ⟨1, ![1000000]⟩ .f32)

/-- An empty range contributes nothing. -/
theorem part_zero (lo : Nat) (b : Fin 32) (o : Fin 1024) : part x sel sign lo 0 b o = 0 := by
  unfold part; rw [Finset.range_zero, Finset.sum_empty]

/-- Two adjacent ranges of columns add up to their union. -/
theorem part_add (lo a c : Nat) (b : Fin 32) (o : Fin 1024) :
    part x sel sign lo a b o + part x sel sign (lo + a) c b o = part x sel sign lo (a + c) b o := by
  unfold part
  rw [Finset.sum_range_add]
  congr 1
  exact Finset.sum_congr rfl fun k _ => by rw [Nat.add_assoc]

/-- All the columns, as one range from zero. -/
theorem G_eq_part (b : Fin 32) (o : Fin 1024) : G x sel sign (ix2 b o) = part x sel sign 0 1000000 b o := by
  unfold G part
  rw [Finset.sum_range fun k => termN x sel sign b o (0 + k)]
  refine Finset.sum_congr rfl fun i _ => ?_
  unfold termN
  rw [dif_pos (by have := i.isLt; omega)]
  congr 1
  exact Fin.ext (by simp)

/-- A range of `len` columns wholly inside the array, as a sum over `Fin len`. -/
theorem part_eq_sum_fin (lo len : Nat) (h : lo + len ≤ 1000000) (b : Fin 32) (o : Fin 1024) :
    part x sel sign lo len b o = ∑ k : Fin len, term x sel sign b o ⟨lo + k.val, by have := k.isLt; omega⟩ := by
  unfold part
  rw [Finset.sum_range fun k => termN x sel sign b o (lo + k)]
  refine Finset.sum_congr rfl fun k _ => ?_
  unfold termN
  rw [dif_pos (by have := k.isLt; omega)]

end Cert.Spec

end
-- ==== Proof.AccValue.lean ====
import proofs.«403119_j6691559047459_3_alg».proof.Proof.Pipe0
import proofs.«403119_j6691559047459_3_alg».proof.Proof.Pipe1
import proofs.«403119_j6691559047459_3_alg».proof.Proof.Blocks
import proofs.«403119_j6691559047459_3_alg».proof.Proof.PayloadSpec
import proofs.«403119_j6691559047459_3_alg».proof.Proof.Spec
import Idealize.ShloMosaic.Lib.Pipeline.Value
import Idealize.ShloMosaic.Lib.ValueIdx

/-!
The accumulated values of the two pipelines, as sums of columns.

A grid point of the main kernel adds its 8192 columns to the accumulator of its row; the columns of point `t` are
the columns t · 8192 ≤ i < (t + 1) · 8192 of the arrays (the three index maps return the point's number). A row of
61 points therefore ends holding the 61 · 8192 = 499712 columns from (row) · 499712 on, which is what the row's last
point writes back into row (row) of the [2, 32, 1024] array. The tail kernel's one point leaves the sum over its
576 columns.
-/

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The 8192 columns of point `t`'s blocks are the columns t · 8192 ≤ i < (t + 1) · 8192 of the arrays. -/
theorem point_sum (c : Dev nD) (t : Fin cfg0.N) (b : Fin 32) (o : Fin 1024) :
    (∑ k : Fin 8192, (if (sb (F := Ideal) V c t (ix1 k)).toNat = o.val then xb (F := Ideal) V c t (ix2 b k) * gb (F := Ideal) V c t (ix1 k) else 0))
      = Cert.Spec.part (V c main_arg0) (V c main_arg1) (V c main_arg2) (t.val * 8192) 8192 b o := by
  have ht := point_lt t
  rw [Cert.Spec.part_eq_sum_fin _ _ _ (t.val * 8192) 8192 (by omega)]
  refine Finset.sum_congr rfl fun k _ => ?_
  unfold Cert.Spec.term xb sb gb
  rw [xfull_apply, sfull_apply, gfull_apply]

/-- A row's first point leaves its own columns. -/
theorem acc_first_val (hF : OutFirstSpec) (c : Dev nD) (t : Fin cfg0.N) (h0 : t.val % 61 = 0) (b : Fin 32) (o : Fin 1024) :
    accAt (F := Ideal) V c t.val t.isLt (ix3 (0 : Fin 1) b o)
      = Cert.Spec.part (V c main_arg0) (V c main_arg1) (V c main_arg2) (t.val * 8192) 8192 b o := by
  rw [accAt_first V c t h0, hF, point_sum]

/-- A later point adds its columns to what the point before left. -/
theorem acc_later_val (hL : OutLaterSpec) (c : Dev nD) (t : Fin cfg0.N) (h0 : ¬t.val % 61 = 0) (b : Fin 32) (o : Fin 1024) :
    accAt (F := Ideal) V c t.val t.isLt (ix3 (0 : Fin 1) b o)
      = accAt (F := Ideal) V c (t.val - 1) (Nat.lt_of_le_of_lt (Nat.sub_le _ _) t.isLt) (ix3 (0 : Fin 1) b o)
        + Cert.Spec.part (V c main_arg0) (V c main_arg1) (V c main_arg2) (t.val * 8192) 8192 b o := by
  rw [accAt_later V c t h0, hL, point_sum]

/-- Row arithmetic at a row's first point: the point's first column is the row's. -/
theorem row_first (n : ℕ) (h0 : n % 61 = 0) : n * 8192 = n / 61 * 499712 ∧ (n % 61 + 1) * 8192 = 8192 := by
  omega

/-- Row arithmetic at a later point: the point before is in the same row, one place earlier, and the point's first
    column follows the columns the row has added so far. -/
theorem row_later (n : ℕ) (h0 : ¬n % 61 = 0) :
    n - 1 < n ∧ (n - 1) / 61 = n / 61 ∧ ((n - 1) % 61 + 1) * 8192 = (n % 61) * 8192
      ∧ n * 8192 = n / 61 * 499712 + (n % 61) * 8192 ∧ (n % 61 + 1) * 8192 = (n % 61) * 8192 + 8192 := by
  omega

/-- After the body at point `n` the accumulator holds, at (b, o), the columns of the row so far: the row n / 61
    starts at column (n / 61) · 499712 and point `n` is the row's point number n % 61, so (n % 61 + 1) · 8192
    columns have been added. -/
theorem acc_value (hF : OutFirstSpec) (hL : OutLaterSpec) (c : Dev nD) (n : ℕ) (hn : n < cfg0.N) (b : Fin 32) (o : Fin 1024) :
    accAt (F := Ideal) V c n hn (ix3 (0 : Fin 1) b o)
      = Cert.Spec.part (V c main_arg0) (V c main_arg1) (V c main_arg2) ((n / 61) * 499712) ((n % 61 + 1) * 8192) b o := by
  induction n using Nat.strong_induction_on with
  | _ n ih =>
    by_cases h0 : n % 61 = 0
    · obtain ⟨e1, e2⟩ := row_first n h0
      refine (acc_first_val V hF c ⟨n, hn⟩ h0 b o).trans ?_
      show Cert.Spec.part _ _ _ (n * 8192) 8192 b o = _
      rw [e1, e2]
    · obtain ⟨e0, e1, e2, e3, e4⟩ := row_later n h0
      refine (acc_later_val V hL c ⟨n, hn⟩ h0 b o).trans ?_
      show accAt (F := Ideal) V c (n - 1) _ (ix3 (0 : Fin 1) b o) + Cert.Spec.part _ _ _ (n * 8192) 8192 b o = _
      rw [ih (n - 1) e0, e1, e2, e3, e4]
      exact Cert.Spec.part_add _ _ _ _ _ _ b o

/-- The accumulator window's block number at point `t`: the row on the first axis, 0 on the other two. -/
theorem index3 : ∀ t : Fin cfg0.N, win0_3.index t (0 : Fin 3) = t.val / 61 ∧ win0_3.index t (1 : Fin 3) = 0 ∧ win0_3.index t (2 : Fin 3) = 0 :=
  (by decide +kernel : ∀ t : Fin grid0.N, win0_3.index t (0 : Fin 3) = t.val / 61 ∧ win0_3.index t (1 : Fin 3) = 0 ∧ win0_3.index t (2 : Fin 3) = 0)

/-- What the [2, 32, 1024] array ends holding: row r at (b, o) is the 499712 columns from r · 499712 on. -/
def G3 (c : Dev nD) : S2x32x1024.Idx → EReal :=
  fun j => Cert.Spec.part (V c main_arg0) (V c main_arg1) (V c main_arg2) ((j 0).val * 499712) 499712 (j 1) (j 2)

/-- Row q of `G3` at (b, o). -/
theorem G3_row (c : Dev nD) (q : Fin 2) (b : Fin 32) (o : Fin 1024) :
    G3 V c (ix3 q b o) = Cert.Spec.part (V c main_arg0) (V c main_arg1) (V c main_arg2) (q.val * 499712) 499712 b o := rfl

/-- At a row's last point the accumulator holds the row's 61 · 8192 = 499712 columns. -/
theorem acc_row (hF : OutFirstSpec) (hL : OutLaterSpec) (c : Dev nD) (t : Fin cfg0.N) (h60 : t.val % 61 = 60) (b : Fin 32) (o : Fin 1024) :
    accAt (F := Ideal) V c t.val t.isLt (ix3 (0 : Fin 1) b o)
      = Cert.Spec.part (V c main_arg0) (V c main_arg1) (V c main_arg2) (t.val / 61 * 499712) 499712 b o := by
  have e : (60 + 1) * 8192 = 499712 := by norm_num
  rw [acc_value V hF hL c t.val t.isLt b o, h60, e]

/-- Entry (0, b, o) of the accumulator's block at point `t` is entry (row, b, o) of the array. -/
theorem blk3_emb (t : Fin cfg0.N) (b : Fin 32) (o : Fin 1024) :
    (win0_3.rect t).emb (ix3 (0 : Fin 1) b o) = ix3 (⟨t.val / 61, by have := point_lt t; omega⟩ : Fin 2) b o := by
  obtain ⟨e0, e1, e2⟩ := index3 t
  funext a; apply Fin.ext
  rw [Rect.emb_apply]
  match a with
  | ⟨0, _⟩ => show win0_3.index t (0 : Fin 3) * 1 + 1 * 0 = t.val / 61; rw [e0]; omega
  | ⟨1, _⟩ => show win0_3.index t (1 : Fin 3) * 32 + 1 * b.val = b.val; rw [e1]; omega
  | ⟨2, _⟩ => show win0_3.index t (2 : Fin 3) * 1024 + 1 * o.val = o.val; rw [e2]; omega

/-- Any contents of the array, read through the accumulator's block at point `t`. -/
theorem read_blk3 (G : S2x32x1024.Idx → EReal) (t : Fin cfg0.N) (b : Fin 32) (o : Fin 1024) :
    ((cfg0.win 3).blk t).view.read (Elt Ideal) G (ix3 (0 : Fin 1) b o)
      = G (ix3 (⟨t.val / 61, by have := point_lt t; omega⟩ : Fin 2) b o) := by
  rw [View.read_apply]
  show _root_.cast _ (G ((win0_3.rect t).emb _)) = _
  rw [cast_eq, blk3_emb]

/-- A row's last point writes back that row of `G3`. -/
theorem flushed3_eq (hF : OutFirstSpec) (hL : OutLaterSpec) (c : Dev nD) (t : Fin cfg0.N) (hf : (cfg0.win 3).flush t = true) :
    (dat0 (F := Ideal) V c).flushed 3 t = ((cfg0.win 3).blk t).view.read (Elt Ideal) (G3 V c) := by
  have h60 : t.val % 61 = 60 := (flush0_3 t).mp hf
  show (cfg0.win 3).cut (grid0.coords t) ((dat0 (F := Ideal) V c).after 3 t) = _
  rw [after0_3]
  refine funext fun (y : S1x32x1024.Idx) => ?_
  obtain ⟨b, o, rfl⟩ : ∃ (b : Fin 32) (o : Fin 1024), y = ix3 (0 : Fin 1) b o :=
    ⟨y 1, y 2, funext fun a => by
      match a with
      | ⟨0, _⟩ => exact Subsingleton.elim (α := Fin 1) _ _
      | ⟨1, _⟩ => rfl
      | ⟨2, _⟩ => rfl⟩
  have hq : t.val / 61 < 2 := by have := point_lt t; omega
  exact (acc_row V hF hL c t h60 b o).trans ((G3_row V c ⟨t.val / 61, hq⟩ b o).symm.trans (read_blk3 (G3 V c) t b o).symm)

/-- An index of the array is in point `t`'s block iff each coordinate is in the block's range on its axis. -/
theorem mem_blk3 (t : Fin cfg0.N) (i : S2x32x1024.Idx) :
    i ∈ ((cfg0.win 3).blk t).view.set ↔ ∀ a : Fin 3, win0_3.index t a * S1x32x1024.size a ≤ (i a).val ∧ (i a).val < win0_3.index t a * S1x32x1024.size a + S1x32x1024.size a := by
  show i ∈ ((View.whole main_v0).slice (win0_3.rect t)).set ↔ _
  rw [View.set_slice_whole, Rect.mem_set_unit]
  exact Iff.rfl

/-- Every index of the array lies in the block of its row's last point, which writes back. -/
theorem cover3 (i : S2x32x1024.Idx) : ∃ t : Fin cfg0.N, (cfg0.win 3).flush t = true ∧ i ∈ ((cfg0.win 3).blk t).view.set := by
  have hi0 : (i 0).val < 2 := (i 0).isLt
  have hi1 : (i 1).val < 32 := (i 1).isLt
  have hi2 : (i 2).val < 1024 := (i 2).isLt
  have hN : cfg0.N = 122 := N_0
  obtain ⟨t, ht⟩ : ∃ t : Fin cfg0.N, t.val = (i 0).val * 61 + 60 := ⟨⟨(i 0).val * 61 + 60, by omega⟩, rfl⟩
  obtain ⟨e0, e1, e2⟩ := index3 t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 32 ≤ (i 1).val ∧ (i 1).val < win0_3.index t (1 : Fin 3) * 32 + 32; rw [e1]; omega
  | ⟨2, _⟩ => show win0_3.index t (2 : Fin 3) * 1024 ≤ (i 2).val ∧ (i 2).val < win0_3.index t (2 : Fin 3) * 1024 + 1024; rw [e2]; omega

/-- THE MAIN KERNEL'S ARRAY after the run: row r at (b, o) is the 499712 columns from r · 499712 on. -/
theorem arr0_final (hF : OutFirstSpec) (hL : OutLaterSpec) (c : Dev nD) :
    (dat0 (F := Ideal) V c).arrAt 3 cfg0.N = fun j : S2x32x1024.Idx => Cert.Spec.part (V c main_arg0) (V c main_arg1) (V c main_arg2) ((j 0).val * 499712) 499712 (j 1) (j 2) :=
  (dat0 (F := Ideal) V c).arrAt_eq_of_cover 3 (G3 V c) (fun t hf => flushed3_eq V hF hL c t hf) (fun i => cover3 i)

/-! ## The tail kernel -/

/-- The tail kernel's block numbers are all 0: each block is its whole array. -/
theorem index_tail : ∀ t : Fin cfg1.N, win1_0.index t (0 : Fin 2) = 0 ∧ win1_0.index t (1 : Fin 2) = 0 ∧ win1_1.index t (0 : Fin 1) = 0
    ∧ win1_2.index t (0 : Fin 1) = 0 ∧ win1_3.index t (0 : Fin 2) = 0 ∧ win1_3.index t (1 : Fin 2) = 0 :=
  (by decide +kernel : ∀ t : Fin grid1.N, win1_0.index t (0 : Fin 2) = 0 ∧ win1_0.index t (1 : Fin 2) = 0 ∧ win1_1.index t (0 : Fin 1) = 0
    ∧ win1_2.index t (0 : Fin 1) = 0 ∧ win1_3.index t (0 : Fin 2) = 0 ∧ win1_3.index t (1 : Fin 2) = 0)

/-- The tail's x block is its array. -/
theorem iblk1_0_apply (c : Dev nD) (t : Fin cfg1.N) (b : Fin 32) (k : Fin 576) :
    iblk1 (F := Ideal) V c 0 t (ix2 b k) = (V c main_v6 : S32x576.Idx → EReal) (ix2 b k) := by
  obtain ⟨e0, e1, -⟩ := index_tail t
  unfold iblk1
  rw [View.read_apply]
  show _root_.cast _ ((V c main_v6 : S32x576.Idx → EReal) ((win1_0.rect t).emb _)) = _
  rw [cast_eq]
  congr 1
  funext a; apply Fin.ext
  rw [Rect.emb_apply]
  match a with
  | ⟨0, _⟩ => show win1_0.index t (0 : Fin 2) * 32 + 1 * b.val = b.val; rw [e0]; omega
  | ⟨1, _⟩ => show win1_0.index t (1 : Fin 2) * 576 + 1 * k.val = k.val; rw [e1]; omega

/-- The tail's sel block is its array. -/
theorem iblk1_1_apply (c : Dev nD) (t : Fin cfg1.N) (k : Fin 576) :
    iblk1 (F := Ideal) V c 1 t (ix1 k) = (V c main_v7 : S576.Idx → BitVec 32) (ix1 k) := by
  obtain ⟨-, -, e0, -⟩ := index_tail t
  unfold iblk1
  rw [View.read_apply]
  show _root_.cast _ ((V c main_v7 : S576.Idx → BitVec 32) ((win1_1.rect t).emb _)) = _
  rw [cast_eq]
  congr 1
  funext a; apply Fin.ext
  rw [Rect.emb_apply]
  match a with
  | ⟨0, _⟩ => show win1_1.index t (0 : Fin 1) * 576 + 1 * k.val = k.val; rw [e0]; omega

/-- The tail's sign block is its array. -/
theorem iblk1_2_apply (c : Dev nD) (t : Fin cfg1.N) (k : Fin 576) :
    iblk1 (F := Ideal) V c 2 t (ix1 k) = (V c main_v8 : S576.Idx → EReal) (ix1 k) := by
  obtain ⟨-, -, -, e0, -⟩ := index_tail t
  unfold iblk1
  rw [View.read_apply]
  show _root_.cast _ ((V c main_v8 : S576.Idx → EReal) ((win1_2.rect t).emb _)) = _
  rw [cast_eq]
  congr 1
  funext a; apply Fin.ext
  rw [Rect.emb_apply]
  match a with
  | ⟨0, _⟩ => show win1_2.index t (0 : Fin 1) * 576 + 1 * k.val = k.val; rw [e0]; omega

/-- The tail's sum with the three arrays as plain functions: at (b, o) the products x (b, k) · sign k of the
    columns k whose bucket word reads o unsigned. -/
def tailSum (x6 : S32x576.Idx → EReal) (x7 : S576.Idx → BitVec 32) (x8 : S576.Idx → EReal) : S32x1024.Idx → EReal :=
  fun j => ∑ k : Fin 576, (if (x7 (ix1 k)).toNat = (j 1).val then x6 (ix2 (j 0) k) * x8 (ix1 k) else 0)

/-- `tailSum` at (b, o). -/
theorem tailSum_apply (x6 : S32x576.Idx → EReal) (x7 : S576.Idx → BitVec 32) (x8 : S576.Idx → EReal) (b : Fin 32) (o : Fin 1024) :
    tailSum x6 x7 x8 (ix2 b o) = ∑ k : Fin 576, (if (x7 (ix1 k)).toNat = o.val then x6 (ix2 b k) * x8 (ix1 k) else 0) := rfl

/-- What the tail kernel's array ends holding. -/
abbrev G1 (c : Dev nD) : S32x1024.Idx → EReal := tailSum (V c main_v6) (V c main_v7) (V c main_v8)

/-- The tail's body leaves, at (b, o), the sum over the 576 columns of the three arrays. -/
theorem tailAt_apply (hT : OutTailSpec) (c : Dev nD) (t : Fin cfg1.N) (b : Fin 32) (o : Fin 1024) :
    tailAt (F := Ideal) V c t (ix2 b o) = G1 V c (ix2 b o) := by
  unfold tailAt G1
  rw [hT, tailSum_apply]
  refine Finset.sum_congr rfl fun k _ => ?_
  rw [iblk1_0_apply, iblk1_1_apply, iblk1_2_apply]

/-- Entry (b, o) of the tail's output block is entry (b, o) of the array. -/
theorem blk1_3_emb (t : Fin cfg1.N) (b : Fin 32) (o : Fin 1024) : (win1_3.rect t).emb (ix2 b o) = ix2 b o := by
  obtain ⟨-, -, -, -, e0, e1⟩ := index_tail t
  funext a; apply Fin.ext
  rw [Rect.emb_apply]
  match a with
  | ⟨0, _⟩ => show win1_3.index t (0 : Fin 2) * 32 + 1 * b.val = b.val; rw [e0]; omega
  | ⟨1, _⟩ => show win1_3.index t (1 : Fin 2) * 1024 + 1 * o.val = o.val; rw [e1]; omega

/-- Any contents of the array, read through the tail's output block. -/
theorem read_blk1_3 (G : S32x1024.Idx → EReal) (t : Fin cfg1.N) (b : Fin 32) (o : Fin 1024) :
    ((cfg1.win 3).blk t).view.read (Elt Ideal) G (ix2 b o) = G (ix2 b o) := by
  rw [View.read_apply]
  show _root_.cast _ (G ((win1_3.rect t).emb _)) = _
  rw [cast_eq, blk1_3_emb]

/-- The tail's one point writes back `G1`. -/
theorem flushed1_eq (hT : OutTailSpec) (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  refine funext fun (y : S32x1024.Idx) => ?_
  obtain ⟨b, o, rfl⟩ : ∃ (b : Fin 32) (o : Fin 1024), y = ix2 b o := ⟨y 0, y 1, eq_ix2 y⟩
  exact (tailAt_apply V hT c t b o).trans (read_blk1_3 (G1 V c) t b o).symm

/-- An index of the array is in the block iff each coordinate is in the block's range on its axis. -/
theorem mem_blk1_3 (t : Fin cfg1.N) (i : S32x1024.Idx) :
    i ∈ ((cfg1.win 3).blk t).view.set ↔ ∀ a : Fin 2, win1_3.index t a * S32x1024.size a ≤ (i a).val ∧ (i a).val < win1_3.index t a * S32x1024.size a + S32x1024.size a := by
  show i ∈ ((View.whole main_v9).slice (win1_3.rect t)).set ↔ _
  rw [View.set_slice_whole, Rect.mem_set_unit]
  exact Iff.rfl

/-- The one block is the whole array. -/
theorem cover1_3 (i : S32x1024.Idx) : ∃ t : Fin cfg1.N, (cfg1.win 3).flush t = true ∧ i ∈ ((cfg1.win 3).blk t).view.set := by
  have hi0 : (i 0).val < 32 := (i 0).isLt
  have hi1 : (i 1).val < 1024 := (i 1).isLt
  obtain ⟨-, -, -, -, e0, e1⟩ := index_tail t1_0
  refine ⟨t1_0, flush1_3 t1_0, ?_⟩
  rw [mem_blk1_3]
  intro a
  match a with
  | ⟨0, _⟩ => show win1_3.index t1_0 (0 : Fin 2) * 32 ≤ (i 0).val ∧ (i 0).val < win1_3.index t1_0 (0 : Fin 2) * 32 + 32; rw [e0]; omega
  | ⟨1, _⟩ => show win1_3.index t1_0 (1 : Fin 2) * 1024 ≤ (i 1).val ∧ (i 1).val < win1_3.index t1_0 (1 : Fin 2) * 1024 + 1024; rw [e1]; omega

/-- THE TAIL KERNEL'S ARRAY after the run: at (b, o) the sum over the 576 tail columns. -/
theorem tail_final (hT : OutTailSpec) (c : Dev nD) :
    (dat1 (F := Ideal) V c).arrAt 3 cfg1.N = tailSum (V c main_v6) (V c main_v7) (V c main_v8) :=
  (dat1 (F := Ideal) V c).arrAt_eq_of_cover 3 (G1 V c) (fun t _ => flushed1_eq V hT c t) (fun i => cover1_3 i)

end Cert.KernelIdeal.Hand

end
-- ==== Proof.KernelValue.lean ====
import proofs.«403119_j6691559047459_3_alg».proof.Proof.HostFold
import proofs.«403119_j6691559047459_3_alg».proof.Proof.AccValue
import proofs.«403119_j6691559047459_3_alg».proof.Proof.Spec

/-!
The kernel program's result is the specification's.

Each half of the main kernel's result is the sum over one core's 499712 columns; the tail kernel's result is the
sum over the last 576; adjacent ranges add up, so (half 0 + half 1) + tail is the sum over all 1,000,000 columns.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- A half of the main kernel's result: one core's columns. -/
theorem mainOut_apply (hF : OutFirstSpec) (hL : OutLaterSpec) (c : Dev nD) (q : Fin 2) (b : Fin 32) (o : Fin 1024) :
    mainOut m ρ c (ix3 q b o) = Cert.Spec.part (argX m c) (argSel m c) (argSign m c) (q.val * 499712) 499712 b o :=
  congrFun (arr0_final (V0 m ρ) hF hL c) (ix3 q b o)

/-- The sum over the last 576 columns, written over the three sliced operands, is the specification's partial sum. -/
theorem tailSum_part (X : FVec Ideal S32x1000000 .f32) (S : IVec S1000000 32) (G : FVec Ideal S1000000 .f32) (b : Fin 32) (o : Fin 1024) :
    tailSum (extractStridedSlice S32x576 ![0, 999424] X slices_S32x1000000_S32x576_0_999424)
        (extractStridedSlice S576 ![999424] S slices_S1000000_S576_999424)
        (extractStridedSlice S576 ![999424] G slices_S1000000_S576_999424) (ix2 b o)
      = Cert.Spec.part X S G 999424 576 b o := by
  rw [tailSum_apply, Cert.Spec.part_eq_sum_fin _ _ _ 999424 576 (by norm_num)]
  refine Finset.sum_congr rfl fun k _ => ?_
  have hk := k.isLt
  have e6 : extractStridedSlice S32x576 ![0, 999424] X slices_S32x1000000_S32x576_0_999424 (ix2 b k)
      = X (ix2 b ⟨999424 + k.val, by omega⟩) :=
    extractStridedSlice_apply _ _ _ _ _ fun a => match a with
      | ⟨0, _⟩ => by show b.val = 0 + b.val; omega
      | ⟨1, _⟩ => rfl
  have e7 : extractStridedSlice S576 ![999424] S slices_S1000000_S576_999424 (ix1 k)
      = S (ix1 ⟨999424 + k.val, by omega⟩) :=
    extractStridedSlice_apply _ _ _ _ _ fun a => match a with
      | ⟨0, _⟩ => rfl
  have e8 : extractStridedSlice S576 ![999424] G slices_S1000000_S576_999424 (ix1 k)
      = G (ix1 ⟨999424 + k.val, by omega⟩) :=
    extractStridedSlice_apply _ _ _ _ _ fun a => match a with
      | ⟨0, _⟩ => rfl
  rw [e6, e7, e8]
  rfl

/-- The tail kernel's result: the last 576 columns. -/
theorem tailOut_apply (hT : OutTailSpec) (c : Dev nD) (b : Fin 32) (o : Fin 1024) :
    tailOut m ρ c (ix2 b o) = Cert.Spec.part (argX m c) (argSel m c) (argSign m c) 999424 576 b o := by
  refine (congrFun (tail_final (V2 m ρ) hT c) (ix2 b o)).trans ?_
  rw [V2_v6 m ρ c, V2_v7 m ρ c, V2_v8 m ρ c]
  exact tailSum_part (argX m c) (argSel m c) (argSign m c) b o

/-- THE RESULT: the kernel program ends with the specification's function of its three arguments. -/
theorem result_value (hF : OutFirstSpec) (hL : OutLaterSpec) (hT : OutTailSpec) (c : Dev nD) :
    result m ρ c = Cert.Spec.G (argX m c) (argSel m c) (argSign m c) := by
  rw [result_eq_sum]
  funext j
  obtain ⟨b, o, rfl⟩ : ∃ (b : Fin 32) (o : Fin 1024), j = ix2 b o := ⟨j 0, j 1, eq_ix2 j⟩
  rw [addf_apply, addf_apply, shapeCast_dropUnit_apply ![32, 1024], shapeCast_dropUnit_apply ![32, 1024]]
  have h0 : extractStridedSlice S1x32x1024 ![0, 0, 0] (mainOut m ρ c) slices_S2x32x1024_S1x32x1024_0_0_0 (Fin.cons ⟨0, Nat.one_pos⟩ (ix2 b o))
      = mainOut m ρ c (ix3 (0 : Fin 2) b o) :=
    extractStridedSlice_apply _ _ _ _ _ fun a => match a with
      | ⟨0, _⟩ => rfl
      | ⟨1, _⟩ => by show b.val = 0 + b.val; omega
      | ⟨2, _⟩ => by show o.val = 0 + o.val; omega
  have h1 : extractStridedSlice S1x32x1024 ![1, 0, 0] (mainOut m ρ c) slices_S2x32x1024_S1x32x1024_1_0_0 (Fin.cons ⟨0, Nat.one_pos⟩ (ix2 b o))
      = mainOut m ρ c (ix3 (1 : Fin 2) b o) :=
    extractStridedSlice_apply _ _ _ _ _ fun a => match a with
      | ⟨0, _⟩ => rfl
      | ⟨1, _⟩ => by show b.val = 0 + b.val; omega
      | ⟨2, _⟩ => by show o.val = 0 + o.val; omega
  rw [h0, h1, mainOut_apply m ρ hF hL c 0 b o, mainOut_apply m ρ hF hL c 1 b o, tailOut_apply m ρ hT c b o,
    Cert.Spec.G_eq_part]
  have a1 := Cert.Spec.part_add (argX m c) (argSel m c) (argSign m c) 0 499712 499712 b o
  have a2 := Cert.Spec.part_add (argX m c) (argSel m c) (argSign m c) 0 999424 576 b o
  simp only [Nat.zero_add, Nat.zero_mul, Nat.one_mul, Fin.val_zero, Fin.val_one] at a1 a2 ⊢
  rw [a1, a2]

end Cert.KernelIdeal.Hand

end
-- ==== Proof.PayloadValue.lean ====
import proofs.«403119_j6691559047459_3_alg».proof.Proof.BodyRuns
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.WholeRead
import Idealize.ShloMosaic.Lib.StableHlo.Predicate
import Mathlib.Algebra.BigOperators.Fin

/-!
The values the two kernel bodies leave, read at an index, over the extended reals.

One chunk of w columns contributes to output entry (b, o) the sum, over the chunk's columns k whose bucket word reads o
unsigned, of x (b, k) · sign k: the product of the row (x · sign) with the 0/1 indicator column of bucket o. The main
kernel's body adds four such chunks of 2048 columns to what the accumulator held (or to zero, at a clearing point); the
tail kernel's body is one chunk of 576 columns.
-/

set_option maxRecDepth 16384

noncomputable section

namespace Cert.KernelIdeal.Hand

open Cert.KernelIdeal Cert.KernelIdeal.Gen Idealize.ShloMosaic Idealize.ShloMosaic.ValueIdx
open scoped BigOperators

namespace PayloadValue

/-! ## Words -/

/-- A one-bit word widened to 32 bits and read as a signed integer is 1 when the bit is set and 0 otherwise. -/
theorem bit_toEReal (c : BitVec 1) : (((c.setWidth 32).toInt : ℝ) : EReal) = if c = 1#1 then 1 else 0 := by
  rcases BitVec.eq_zero_or_eq_one c with h | h
  · subst h; simp
  · subst h; simp

/-- A 32-bit word is the word of a number below 2^32 exactly when it reads that number unsigned. -/
theorem eq_ofNat_iff (x : BitVec 32) (o : Nat) (ho : o < 2 ^ 32) : x = BitVec.ofNat 32 o ↔ x.toNat = o := by
  constructor
  · rintro rfl
    rw [BitVec.toNat_ofNat, Nat.mod_eq_of_lt ho]
  · intro h
    apply BitVec.eq_of_toNat_eq
    rw [BitVec.toNat_ofNat, Nat.mod_eq_of_lt ho]
    exact h

/-- The indicator entry: the comparison of a word with the word of o, widened and converted, is 1 or 0 as an extended
    real according to whether the word reads o unsigned. -/
theorem indicator_entry (x : BitVec 32) (o : Nat) (ho : o < 2 ^ 32) :
    (FloatOps.sitofp (F := Ideal) .f32 ((IntOp.cmpi .eq x (BitVec.ofNat 32 o)).setWidth 32) : EReal)
      = if x.toNat = o then 1 else 0 := by
  show (((((IntOp.cmpi .eq x (BitVec.ofNat 32 o)).setWidth 32).toInt : ℝ)) : EReal) = _
  rw [bit_toEReal]
  by_cases h : x.toNat = o
  · rw [if_pos h, if_pos (StableHlo.Predicate.cmpi_eq_iff.mpr ((eq_ofNat_iff x o ho).mpr h))]
  · rw [if_neg h, if_neg (fun hc => h ((eq_ofNat_iff x o ho).mp (StableHlo.Predicate.cmpi_eq_iff.mp hc)))]

/-! ## Layout: a vector of n entries viewed [1, n] and repeated along rows; a leading unit axis dropped and added -/

section Layout
variable {α : Type}

/-- A vector of n entries viewed [1, n] and broadcast to [m, n] reads, at (r, k), the vector's entry k. -/
theorem row_broadcast_apply {m n : Nat} (v : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (r : Fin m) (k : Fin n) :
    broadcastTo (⟨2, ![m, n]⟩ : Shape) (shapeCast (⟨2, ![1, n]⟩ : Shape) v h1) h2 (ix2 r k) = v (ix1 k) := by
  refine (broadcastTo_apply _ h2 (ix2 r k) (ix2 (0 : Fin 1) k) ?_).trans ?_
  · intro a
    match a with
    | ⟨0, _⟩ => rfl
    | ⟨1, _⟩ =>
      show k.val = if n = 1 then 0 else k.val
      split
      · have := k.isLt; omega
      · rfl
  · refine (shapeCast_addUnit_apply ![n] v h1 (ix2 (0 : Fin 1) k)).trans ?_
    congr 1
    funext a
    match a with
    | ⟨0, _⟩ => rfl

/-- A [1, p, q] block viewed [p, q] reads (0, b, o) at (b, o). -/
theorem dropUnit_apply {p q : Nat} (v : (⟨3, ![1, p, q]⟩ : Shape).Idx → α)
    (h : (⟨3, ![1, p, q]⟩ : Shape).ShapeCasts ⟨2, ![p, q]⟩) (b : Fin p) (o : Fin q) :
    shapeCast (⟨2, ![p, q]⟩ : Shape) v h (ix2 b o) = v (ix3 (0 : Fin 1) b o) := by
  refine (shapeCast_dropUnit_apply ![p, q] v h (ix2 b o)).trans ?_
  congr 1
  funext a
  match a with
  | ⟨0, _⟩ => rfl
  | ⟨1, _⟩ => rfl
  | ⟨2, _⟩ => rfl

/-- A [p, q] value stored as a [1, p, q] block reads (b, o) at (0, b, o). -/
theorem addUnit_apply {p q : Nat} (v : (⟨2, ![p, q]⟩ : Shape).Idx → α)
    (h : (⟨2, ![p, q]⟩ : Shape).ShapeCasts ⟨3, ![1, p, q]⟩) (b : Fin p) (o : Fin q) :
    shapeCast (⟨3, ![1, p, q]⟩ : Shape) v h (ix3 (0 : Fin 1) b o) = v (ix2 b o) := by
  refine (shapeCast_addUnit_apply ![p, q] v h (ix3 (0 : Fin 1) b o)).trans ?_
  congr 1
  funext a
  match a with
  | ⟨0, _⟩ => rfl
  | ⟨1, _⟩ => rfl

end Layout

/-! ## The product of a row block with an indicator block, both contracted on their second axis -/

/-- A product of an [m, k] block with an [n, k] block, contracting the second axis of each, into the zero accumulator:
    entry (a, b) is the sum over the contracted coordinate of the products of the entries. -/
theorem matmulNT_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

/-- One chunk of w columns at output entry (b, o): the row x (b, ·) · sign against the indicator column of bucket o
    sums the signed entries of the columns whose bucket word reads o unsigned. -/
theorem chunk_core {w : Nat}
    (wf : DotDims.WF ⟨2, ![32, w]⟩ ⟨2, ![1024, w]⟩ ⟨2, ![32, 1024]⟩ [1] [1] [0] [0] [] [])
    (hs : (⟨1, ![w]⟩ : Shape).ShapeCasts ⟨2, ![1, w]⟩)
    (hb1 : (⟨2, ![1, w]⟩ : Shape).Broadcasts ⟨2, ![1024, w]⟩) (hb2 : (⟨2, ![1, w]⟩ : Shape).Broadcasts ⟨2, ![32, w]⟩)
    (h1 : 1 < 32) (hbits : FTy.bits .bf16 < FTy.bits .f32)
    (v3 : IVec ⟨2, ![1024, w]⟩ 32) (hv3 : ∀ (o : Fin 1024) (k : Fin w), v3 (ix2 o k) = BitVec.ofNat 32 o.val)
    (xc : FVec Ideal ⟨2, ![32, w]⟩ .f32) (s : IVec ⟨1, ![w]⟩ 32) (g : FVec Ideal ⟨1, ![w]⟩ .f32) (b : Fin 32) (o : Fin 1024) :
    FloatOps.matmul (⟨[1], [1], [0], [0], [], [], wf⟩ : DotDims _ _ _) none
        (truncf (F := Ideal) .bf16 (mulf xc (broadcastTo ⟨2, ![32, w]⟩ (shapeCast ⟨2, ![1, w]⟩ g hs) hb2)) hbits)
        (truncf (F := Ideal) .bf16 (sitofp .f32 (extui 32 (cmpi .eq (broadcastTo ⟨2, ![1024, w]⟩ (shapeCast ⟨2, ![1, w]⟩ s hs) hb1) v3) h1)) hbits)
        (constant (F := Ideal) ⟨2, ![32, 1024]⟩ .f32 0x00000000#32) (ix2 b o)
      = ∑ k : Fin w, (if (s (ix1 k)).toNat = o.val then xc (ix2 b k) * g (ix1 k) else 0) := by
  rw [matmulNT_apply]
  refine Finset.sum_congr rfl fun k _ => ?_
  rw [truncf_apply, truncf_apply, mulf_apply, row_broadcast_apply, sitofp_apply, extui_apply]
  show xc (ix2 b k) * g (ix1 k) * FloatOps.sitofp (F := Ideal) .f32
      ((IntOp.cmpi .eq (broadcastTo ⟨2, ![1024, w]⟩ (shapeCast ⟨2, ![1, w]⟩ s hs) hb1 (ix2 o k)) (v3 (ix2 o k))).setWidth 32) = _
  rw [row_broadcast_apply, hv3, indicator_entry _ _ (by have := o.isLt; omega)]
  split
  · rw [mul_one]
  · rw [mul_zero]

/-! ## The chunk payloads at an index -/

/-- The row-index vector reads its row's number. -/
theorem iota_rows_apply {w : Nat} (h : (⟨2, ![1024, w]⟩ : Shape).Iotas .tc 32 [0]) (o : Fin 1024) (k : Fin w) :
    iota .tc (⟨2, ![1024, w]⟩ : Shape) 32 [0] h (ix2 o k) = BitVec.ofNat 32 o.val :=
  iota_single_apply .tc (⟨2, ![1024, w]⟩ : Shape) 32 0 h (ix2 o k)

/-- A chunk update of the main kernel at (0, b, o): what the accumulator held there plus the chunk's sum. -/
theorem pay1_apply (v3 : IVec S1024x2048 32) (hv3 : ∀ (o : Fin 1024) (k : Fin 2048), v3 (ix2 o k) = BitVec.ofNat 32 o.val)
    (xc : Vec Ideal S32x2048 .f32) (s : Vec Ideal S2048 .i32) (g : Vec Ideal S2048 .f32) (prev : Vec Ideal S1x32x1024 .f32)
    (b : Fin 32) (o : Fin 1024) :
    k0_pay1 (F := Ideal) v3 xc s g prev (ix3 (0 : Fin 1) b o)
      = prev (ix3 (0 : Fin 1) b o) + ∑ k : Fin 2048, (if (s (ix1 k)).toNat = o.val then xc (ix2 b k) * g (ix1 k) else 0) := by
  unfold k0_pay1
  refine (addUnit_apply _ _ b o).trans ?_
  rw [addf_apply, dropUnit_apply]
  congr 1
  exact chunk_core _ _ _ _ _ _ v3 hv3 xc s g b o

/-- The four chunk updates are one function of the chunk's loads. -/
theorem pay6_eq {F : FTy → Type} [FloatOps F] : k0_pay6 (F := F) = k0_pay1 := rfl
theorem pay3_eq {F : FTy → Type} [FloatOps F] (v7 : Vec F S32x2048 .f32) (v9 : Vec F S2048 .i32) (v11 : Vec F S2048 .f32) (v23 : Vec F S1x32x1024 .f32) :
    k0_pay3 v7 v9 v11 v23 = k0_pay1 (iota .tc S1024x2048 32 [0] iota_S1024x2048_d0_w32) v7 v9 v11 v23 := rfl
theorem pay5_eq {F : FTy → Type} [FloatOps F] (v32 : Vec F S32x2048 .f32) (v36 : Vec F S2048 .f32) (v34 : Vec F S2048 .i32) (v48 : Vec F S1x32x1024 .f32) :
    k0_pay5 v32 v36 (k0_pay4 v34) v48 = k0_pay1 (iota .tc S1024x2048 32 [0] iota_S1024x2048_d0_w32) v32 v34 v36 v48 := rfl

/-- The clearing store's block is zero everywhere. -/
theorem pay2_apply (j : S1x32x1024.Idx) : k0_pay2 (F := Ideal) j = 0 := by
  obtain ⟨a, b, o, rfl⟩ : ∃ (a : Fin 1) (b : Fin 32) (o : Fin 1024), j = ix3 a b o := ⟨j 0, j 1, j 2, eq_ix3 j⟩
  obtain rfl : a = 0 := Subsingleton.elim _ _
  unfold k0_pay2
  refine (addUnit_apply _ _ b o).trans ?_
  show Ideal.ofBits .f32 0x00000000#32 = 0
  exact Ideal.ofBits_zero_f32

/-- The tail kernel's one product at (b, o). -/
theorem tail_pay_apply (xc : Vec Ideal S32x576 .f32) (s : Vec Ideal S576 .i32) (g : Vec Ideal S576 .f32) (b : Fin 32) (o : Fin 1024) :
    k1_pay1 (F := Ideal) xc s g (ix2 b o)
      = ∑ k : Fin 576, (if (s (ix1 k)).toNat = o.val then xc (ix2 b k) * g (ix1 k) else 0) := by
  unfold k1_pay1
  rw [shapeCast_self xc, shapeCast_self s, shapeCast_self g]
  exact chunk_core _ _ _ _ _ _ _ (iota_rows_apply _) xc s g b o

/-! ## Loads through a whole buffer held at known contents, and the accumulator read back -/

section Reads
variable {sg : RefSig} {κ : Kind} {sp : Space} {Val : EltTy → Type} {e : EltTy}

/-- A load of w columns from column c0 of a whole [R, C] buffer that reads X reads X at (b, c0 + k). -/
theorem read2_apply {R C : Nat} (m : Memref sg κ sp ⟨2, ![R, C]⟩ e) (h : m.IsWhole) (X : (⟨2, ![R, C]⟩ : Shape).Idx → Val e)
    (c0 w : Nat) (hC : c0 + w ≤ C)
    (pf : ∀ a, (![0, c0] : Fin 2 → Nat) a + (![R, w] : Fin 2 → Nat) a ≤ (⟨2, ![R, C]⟩ : Shape).size a) (b : Fin R) (k : Fin w) :
    View.readAt Val m.view (Rect.unit (s := ⟨2, ![R, C]⟩) ![0, c0] ![R, w] pf).toLoadRect (h.unread X) (ix2 b k)
      = X (ix2 b ⟨c0 + k.val, by have := k.isLt; omega⟩) := by
  refine (h.readAt_unread X _ _).trans ?_
  congr 1
  funext a
  match a with
  | ⟨0, _⟩ => exact Fin.ext (by show 0 + 1 * b.val = b.val; omega)
  | ⟨1, _⟩ => exact Fin.ext (by show c0 + 1 * k.val = c0 + k.val; omega)

/-- A load of w entries from entry c0 of a whole [C] buffer that reads X reads X at c0 + k. -/
theorem read1_apply {C : Nat} (m : Memref sg κ sp ⟨1, ![C]⟩ e) (h : m.IsWhole) (X : (⟨1, ![C]⟩ : Shape).Idx → Val e)
    (c0 w : Nat) (hC : c0 + w ≤ C)
    (pf : ∀ a, (![c0] : Fin 1 → Nat) a + (![w] : Fin 1 → Nat) a ≤ (⟨1, ![C]⟩ : Shape).size a) (k : Fin w) :
    View.readAt Val m.view (Rect.unit (s := ⟨1, ![C]⟩) ![c0] ![w] pf).toLoadRect (h.unread X) (ix1 k)
      = X (ix1 ⟨c0 + k.val, by have := k.isLt; omega⟩) := by
  refine (h.readAt_unread X _ _).trans ?_
  congr 1
  funext a
  match a with
  | ⟨0, _⟩ => exact Fin.ext (by show c0 + 1 * k.val = c0 + k.val; omega)

/-- A load of the whole of a whole buffer that reads X reads X. -/
theorem read_whole {S : Shape} (m : Memref sg κ sp S e) (h : m.IsWhole) (X : S.Idx → Val e)
    {off : Fin S.rank → Nat} (hz : off = fun _ => 0) (inb : ∀ a, off a + S.size a ≤ S.size a) :
    View.readAt Val m.view (Rect.unit off S.size inb).toLoadRect (h.unread X) = X := by
  rw [View.readAt_eq_ld, h.read_unread, View.ld_unit_zero hz]

/-- A load of the whole buffer after a list of stores whose last covers the whole buffer reads that store's block. -/
theorem readCov_cons_whole [∀ e, Nonempty (Val e)] {S : Shape} (v : View sg κ sp S e)
    {off : Fin S.rank → Nat} (hz : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero hz inb y⟩),
    View.canon_cons_unit_zero hz, View.ld_unit_zero hz]

end Reads

/-! ## A sum over 8192 columns as four sums over 2048 -/

/-- A sum over a + c indices is the sum over the first a and the sum over the last c. -/
theorem sum_fin_split {M : Type*} [AddCommMonoid M] {N : Nat} (a c : Nat) (hN : a + c = N) (f : Fin N → M) :
    ∑ i, f i = ∑ k : Fin a, f ⟨k.val, by have := k.isLt; omega⟩ + ∑ k : Fin c, f ⟨a + k.val, by have := k.isLt; omega⟩ := by
  subst hN
  rw [Fin.sum_univ_add]
  rfl

theorem sum_fin_8192 {M : Type*} [AddCommMonoid M] (f : Fin 8192 → M) :
    ∑ i, f i = ∑ k : Fin 2048, f ⟨0 + k.val, by have := k.isLt; omega⟩
      + (∑ k : Fin 2048, f ⟨2048 + k.val, by have := k.isLt; omega⟩
        + (∑ k : Fin 2048, f ⟨4096 + k.val, by have := k.isLt; omega⟩
          + ∑ k : Fin 2048, f ⟨6144 + k.val, by have := k.isLt; omega⟩)) := by
  have e0 : ∑ k : Fin 2048, f ⟨k.val, by have := k.isLt; omega⟩ = ∑ k : Fin 2048, f ⟨0 + k.val, by have := k.isLt; omega⟩ :=
    Finset.sum_congr rfl fun k _ => congrArg f (Fin.ext (Nat.zero_add _).symm)
  have e2 : ∑ k : Fin 2048, f ⟨2048 + (2048 + k.val), by have := k.isLt; omega⟩ = ∑ k : Fin 2048, f ⟨4096 + k.val, by have := k.isLt; omega⟩ :=
    Finset.sum_congr rfl fun k _ => congrArg f (Fin.ext (by show 2048 + (2048 + k.val) = 4096 + k.val; omega))
  have e3 : ∑ k : Fin 2048, f ⟨2048 + (2048 + (2048 + k.val)), by have := k.isLt; omega⟩ = ∑ k : Fin 2048, f ⟨6144 + k.val, by have := k.isLt; omega⟩ :=
    Finset.sum_congr rfl fun k _ => congrArg f (Fin.ext (by show 2048 + (2048 + (2048 + k.val)) = 6144 + k.val; omega))
  rw [← e0, ← e2, ← e3]
  refine (sum_fin_split 2048 6144 rfl f).trans ?_
  refine congrArg (_ + ·) ?_
  refine (sum_fin_split 2048 4096 rfl _).trans ?_
  refine congrArg (_ + ·) ?_
  exact sum_fin_split 2048 2048 rfl _

/-! ## The three bodies' values -/

/-- The offsets of a whole-buffer access of the accumulator are zero. -/
theorem hz3 : (![0, 0, 0] : Fin 3 → Nat) = fun _ => 0 := by
  funext a; fin_cases a <;> rfl
theorem hz2 : (![0, 0] : Fin 2 → Nat) = fun _ => 0 := by
  funext a; fin_cases a <;> rfl
theorem hz1 : (![0] : Fin 1 → Nat) = fun _ => 0 := by
  funext a; fin_cases a; rfl

/-- One chunk update of the main kernel whose three loads start at column c0 of the staged blocks. -/
theorem chunk_step {arg2 : Memref sig .tc .vmem S32x8192 .f32} {harg2 : arg2.IsWhole}
    {arg3 : Memref sig .tc .vmem S8192 .i32} {harg3 : arg3.IsWhole} {arg4 : Memref sig .tc .vmem S8192 .f32} {harg4 : arg4.IsWhole}
    {x0 : Vec Ideal S32x8192 .f32} {x1 : Vec Ideal S8192 .i32} {x2 : Vec Ideal S8192 .f32}
    (c0 : Nat) (hC : c0 + 2048 ≤ 8192)
    {pf1 : ∀ a, (![0, c0] : Fin 2 → Nat) a + S32x2048.size a ≤ S32x8192.size a}
    {pf2 pf3 : ∀ a, (![c0] : Fin 1 → Nat) a + S2048.size a ≤ S8192.size a}
    {prev : Vec Ideal S1x32x1024 .f32} (b : Fin 32) (o : Fin 1024) :
    k0_pay1 (F := Ideal) (iota .tc S1024x2048 32 [0] iota_S1024x2048_d0_w32)
        (View.readAt (Elt Ideal) arg2.view (Rect.unit (s := S32x8192) ![0, c0] S32x2048.size pf1).toLoadRect (harg2.unread x0))
        (View.readAt (Elt Ideal) arg3.view (Rect.unit (s := S8192) ![c0] S2048.size pf2).toLoadRect (harg3.unread x1))
        (View.readAt (Elt Ideal) arg4.view (Rect.unit (s := S8192) ![c0] S2048.size pf3).toLoadRect (harg4.unread x2))
        prev (ix3 (0 : Fin 1) b o)
      = prev (ix3 (0 : Fin 1) b o) + ∑ k : Fin 2048,
          (if (x1 (ix1 ⟨c0 + k.val, by have := k.isLt; omega⟩)).toNat = o.val
            then x0 (ix2 b ⟨c0 + k.val, by have := k.isLt; omega⟩) * x2 (ix1 ⟨c0 + k.val, by have := k.isLt; omega⟩) else 0) := by
  refine (pay1_apply _ (fun o k => iota_rows_apply _ o k) _ _ _ _ b o).trans ?_
  congr 1
  refine Finset.sum_congr rfl fun k _ => ?_
  rw [read2_apply arg2 harg2 x0 c0 2048 hC pf1 b k, read1_apply arg3 harg3 x1 c0 2048 hC pf2 k,
    read1_apply arg4 harg4 x2 c0 2048 hC pf3 k]

end PayloadValue

open PayloadValue

set_option maxHeartbeats 4000000 in
theorem outLater_apply (c : Dev nD) (i : grid0.Coords) (arg2 : Memref sig .tc .vmem S32x8192 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x32x1024 .f32) (harg5 : arg5.IsWhole) (hc : ¬isFirst i) (x0 : Vec Ideal S32x8192 .f32) (x1 : Vec Ideal S8192 .i32) (x2 : Vec Ideal S8192 .f32) (y : Vec Ideal S1x32x1024 .f32) (b : Fin 32) (o : Fin 1024) :
    outLater (F := Ideal) c i arg2 harg2 arg3 harg3 arg4 harg4 arg5 harg5 hc x0 x1 x2 y (ix3 (0 : Fin 1) b o)
      = y (ix3 (0 : Fin 1) b o) + ∑ k : Fin 8192, (if (x1 (ix1 k)).toNat = o.val then x0 (ix2 b k) * x2 (ix1 k) else 0) := by
  unfold outLater
  rw [View.read_writes_eq_canon _ _ _ (coverLater _ _ _ _ _ _ _ _ _ _ _ _ _ _ _)]
  unfold mainRunLater
  dsimp only
  sl_unfold_words
  rw [View.canon_cons_unit_zero (S := S1x32x1024) hz3]
  refine (chunk_step 6144 (by omega) b o).trans ?_
  rw [readCov_cons_whole _ hz3, pay6_eq]
  refine (congrArg (· + _) (chunk_step 4096 (by omega) b o)).trans ?_
  rw [readCov_cons_whole _ hz3, pay5_eq]
  refine (congrArg (· + _ + _) (chunk_step 2048 (by omega) b o)).trans ?_
  rw [readCov_cons_whole _ hz3, pay3_eq]
  refine (congrArg (· + _ + _ + _) (chunk_step 0 (by omega) b o)).trans ?_
  rw [read_whole arg5 harg5 y hz3, sum_fin_8192, add_assoc, add_assoc, add_assoc]

set_option maxHeartbeats 4000000 in
theorem outTail_apply (c : Dev nD) (i : grid1.Coords) (arg1 : Memref sig .tc .vmem S32x576 .f32) (harg1 : arg1.IsWhole) (arg2 : Memref sig .tc .vmem S576 .i32) (harg2 : arg2.IsWhole) (arg3 : Memref sig .tc .vmem S576 .f32) (harg3 : arg3.IsWhole) (arg4 : Memref sig .tc .vmem S32x1024 .f32) (harg4 : arg4.IsWhole) (x0 : Vec Ideal S32x576 .f32) (x1 : Vec Ideal S576 .i32) (x2 : Vec Ideal S576 .f32) (b : Fin 32) (o : Fin 1024) :
    outTail (F := Ideal) c i arg1 harg1 arg2 harg2 arg3 harg3 arg4 harg4 x0 x1 x2 (ix2 b o)
      = ∑ k : Fin 576, (if (x1 (ix1 k)).toNat = o.val then x0 (ix2 b k) * x2 (ix1 k) else 0) := by
  unfold outTail
  rw [View.read_writes_eq_canon _ _ _ (coverTail _ _ _ _ _ _ _ _ _ _ _ _ _)]
  unfold tailRun
  dsimp only
  sl_unfold_words
  rw [View.canon_cons_unit_zero (S := S32x1024) hz2]
  rw [read_whole arg1 harg1 x0 hz2, read_whole arg2 harg2 x1 hz1, read_whole arg3 harg3 x2 hz1]
  exact tail_pay_apply x0 x1 x2 b o

set_option maxHeartbeats 4000000 in
theorem outFirst_apply (c : Dev nD) (i : grid0.Coords) (arg2 : Memref sig .tc .vmem S32x8192 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x32x1024 .f32) (harg5 : arg5.IsWhole) (hc : isFirst i) (x0 : Vec Ideal S32x8192 .f32) (x1 : Vec Ideal S8192 .i32) (x2 : Vec Ideal S8192 .f32) (b : Fin 32) (o : Fin 1024) :
    outFirst (F := Ideal) c i arg2 harg2 arg3 harg3 arg4 harg4 arg5 harg5 hc x0 x1 x2 (ix3 (0 : Fin 1) b o)
      = ∑ k : Fin 8192, (if (x1 (ix1 k)).toNat = o.val then x0 (ix2 b k) * x2 (ix1 k) else 0) := by
  unfold outFirst
  rw [View.read_writes_eq_canon _ _ _ (coverFirst _ _ _ _ _ _ _ _ _ _ _ _ _ _)]
  unfold mainRunFirst
  dsimp only
  sl_unfold_words
  rw [View.canon_cons_unit_zero (S := S1x32x1024) hz3]
  refine (chunk_step 6144 (by omega) b o).trans ?_
  rw [readCov_cons_whole _ hz3, pay6_eq]
  refine (congrArg (· + _) (chunk_step 4096 (by omega) b o)).trans ?_
  rw [readCov_cons_whole _ hz3, pay5_eq]
  refine (congrArg (· + _ + _) (chunk_step 2048 (by omega) b o)).trans ?_
  rw [readCov_cons_whole _ hz3, pay3_eq]
  refine (congrArg (· + _ + _ + _) (chunk_step 0 (by omega) b o)).trans ?_
  rw [readCov_cons_whole _ hz3, pay2_apply, zero_add, sum_fin_8192, add_assoc, add_assoc]

end Cert.KernelIdeal.Hand

end
-- ==== Proof.LibScatter.lean ====
/-
  The host's accumulating scatter and its gather READ AT AN INDEX, at the ideal instance, for the two shapes a
  segment sum and a take along axis 0 have: a vector [N] (indices [M, 1], updates [M]) and rows [N, C] (indices
  [M, 1], updates [M, C]). Every lemma is over an arbitrary dimension-number record whose fields are fixed by
  hypotheses, each closed by rfl on a program's own record.

  scatterAdd_vec / scatterAdd_rows: the scatter at an element is the operand's element plus the sum, over the
  updates (rows), of those whose start index read SIGNED is the element's (row) index; scatterAdd_vec_toNat /
  scatterAdd_rows_toNat: the same with the index read unsigned, for 32-bit indices and N < 2³¹. gather_vec /
  gather_rows: the gather at a position whose start index is in range is the operand at that index.
  pad_vec_apply / pad_rows_apply: a padding after the end (of the rows) at an index; concatenate_vec_left /
  concatenate_vec_right: two vectors end to end at an index. sum_idx1, sum_fin_split, sum_fin_padded: a sum over a
  rank-1 index set, over a range cut in two, over a padded range.
-/
import Idealize.ShloMosaic.Lib.ValueIdx
import Idealize.ShloMosaic.Lib.StableHlo.Predicate
import Idealize.ShloMosaic.Lib.Pipeline.Value
import Mathlib.Algebra.BigOperators.Fin

noncomputable section

open scoped BigOperators

namespace Cert.LibScatter

open Idealize.ShloMosaic Idealize.ShloMosaic.ValueIdx

/-! ## Where an update lands: the vector shape -/

/-- For an operand [N], scatter indices [M, 1] and updates [M] (one inserted window axis, no update window axis):
    update j lands on element i exactly when its start index, read signed, is i. -/
theorem resultIdx?_vec {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (j : Fin M) (i : Fin N) :
    d.resultIdx? (ix1 j) idx = some (ix1 i) ↔ (idx (ix2 j (0 : Fin 1))).toInt = (i.val : ℤ) := by
  obtain ⟨uw, iw, sd, iv, wf⟩ := d
  simp only at h1 h2 h3 h4
  subst h1 h2 h3 h4
  have hstart : ∀ a, ScatterDims.start ⟨[], [0], [0], 1, wf⟩ (ix1 j) idx a = (idx (ix2 j (0 : Fin 1))).toInt := by
    intro a
    obtain rfl : a = 0 := Subsingleton.elim _ _
    unfold ScatterDims.start
    rw [dif_pos (List.mem_singleton.mpr rfl)]
    congr 2
    funext b
    match b with
    | ⟨0, _⟩ => rfl
    | ⟨1, _⟩ => rfl
  have hwin : ∀ a, ScatterDims.window ⟨[], [0], [0], 1, wf⟩ (ix1 j) a = 0 := by
    intro a
    obtain rfl : a = 0 := Subsingleton.elim _ _
    unfold ScatterDims.window
    rw [dif_neg (by simp [ScatterDims.sKept, Shape.kept])]
  unfold ScatterDims.resultIdx?
  simp only [hstart, hwin, Nat.cast_zero, add_zero]
  constructor
  · intro h
    split_ifs at h with hc
    have h0 := congrArg Fin.val (congrFun (Option.some.inj h) 0)
    have hc0 := hc 0
    simp only [Matrix.cons_val_zero] at hc0
    change (idx (ix2 j (0 : Fin 1))).toInt.toNat = i.val at h0
    omega
  · intro h
    have hc : ∀ a : Fin 1, 0 ≤ (idx (ix2 j (0 : Fin 1))).toInt ∧ (idx (ix2 j (0 : Fin 1))).toInt < ((![N] a : ℕ) : ℤ) := by
      intro a
      obtain rfl : a = 0 := Subsingleton.elim _ _
      simp only [Matrix.cons_val_zero]
      have := i.isLt
      omega
    rw [dif_pos hc]
    congr 1
    funext a
    obtain rfl : a = 0 := Subsingleton.elim _ _
    apply Fin.ext
    change (idx (ix2 j (0 : Fin 1))).toInt.toNat = i.val
    omega

/-! ## Where an update lands: rows -/

section Rows
variable {N C M w : Nat} (d : ScatterDims ⟨2, ![N, C]⟩ ⟨2, ![M, 1]⟩ ⟨2, ![M, C]⟩)
  (h1 : d.updateWindowDims = [1]) (h2 : d.insertedWindowDims = [0]) (h3 : d.scatterDimsToOperandDims = [0])
  (h4 : d.indexVectorDim = 1) (idx : IVec ⟨2, ![M, 1]⟩ w) (j : Fin M) (c' : Fin C)
include h1 h2 h3 h4

/-- On the row axis an update's window starts at its start index, read signed. -/
theorem start_rows_zero : d.start (ix2 j c') idx 0 = (idx (ix2 j (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- On the column axis, which the start index map does not name, the window starts at 0. -/
theorem start_rows_one : d.start (ix2 j c') idx 1 = 0 := by
  obtain ⟨uw, iw, sd, iv, wf⟩ := d
  simp only at h1 h2 h3 h4
  subst h1 h2 h3 h4
  unfold ScatterDims.start
  rw [dif_neg (by simp)]

/-- The row axis is an inserted window axis: the window coordinate there is 0. -/
theorem window_rows_zero : d.window (ix2 j c') 0 = 0 := by
  obtain ⟨uw, iw, sd, iv, wf⟩ := d
  simp only at h1 h2 h3 h4
  subst h1 h2 h3 h4
  unfold ScatterDims.window
  rw [dif_neg (by simp [ScatterDims.sKept, Shape.kept])]

/-- On the column axis the window coordinate is the update's column. -/
theorem window_rows_one : d.window (ix2 j c') 1 = c'.val := by
  obtain ⟨uw, iw, sd, iv, wf⟩ := d
  simp only at h1 h2 h3 h4
  subst h1 h2 h3 h4
  unfold ScatterDims.window
  rw [dif_pos (by simp [ScatterDims.sKept, Shape.kept])]
  rfl

/-- For an operand [N, C], scatter indices [M, 1] and updates [M, C] (the row axis inserted, the column axis the
    update window): update (j, c') lands on element (i, c) exactly when its start index, read signed, is i and
    c' = c. -/
theorem resultIdx?_rows (i : Fin N) (c : Fin C) :
    d.resultIdx? (ix2 j c') idx = some (ix2 i c) ↔ (idx (ix2 j (0 : Fin 1))).toInt = (i.val : ℤ) ∧ c' = c := by
  have s0 := start_rows_zero d h1 h2 h3 h4 idx j c'
  have s1 := start_rows_one d h1 h2 h3 h4 idx j c'
  have w0 := window_rows_zero d h1 h2 h3 h4 j c'
  have w1 := window_rows_one d h1 h2 h3 h4 j c'
  unfold ScatterDims.resultIdx?
  constructor
  · intro h
    split_ifs at h with hc
    have e := Option.some.inj h
    have e0 : (d.start (ix2 j c') idx 0 + (d.window (ix2 j c') 0 : ℕ)).toNat = i.val :=
      congrArg Fin.val (congrFun e 0)
    have e1 : (d.start (ix2 j c') idx 1 + (d.window (ix2 j c') 1 : ℕ)).toNat = c.val :=
      congrArg Fin.val (congrFun e 1)
    have hc0 := (hc 0).1
    rw [s0, w0] at e0 hc0
    rw [s1, w1] at e1
    refine ⟨by omega, Fin.ext (by omega)⟩
  · rintro ⟨ht, rfl⟩
    have hi := i.isLt
    have hc' := c'.isLt
    have hc : ∀ a : Fin 2, 0 ≤ d.start (ix2 j c') idx a + (d.window (ix2 j c') a : ℕ) ∧
        d.start (ix2 j c') idx a + (d.window (ix2 j c') a : ℕ) < ((![N, C] a : ℕ) : ℤ) := by
      refine Fin.forall_fin_two.mpr ⟨?_, ?_⟩
      · rw [s0, w0]; simp only [Matrix.cons_val_zero]; omega
      · rw [s1, w1]; simp only [Matrix.cons_val_one, Matrix.cons_val_zero]; omega
    rw [dif_pos hc]
    congr 1
    funext a
    apply Fin.ext
    revert a
    refine Fin.forall_fin_two.mpr ⟨?_, ?_⟩
    · show (d.start (ix2 j c') idx 0 + (d.window (ix2 j c') 0 : ℕ)).toNat = i.val
      rw [s0, w0]; omega
    · show (d.start (ix2 j c') idx 1 + (d.window (ix2 j c') 1 : ℕ)).toNat = c'.val
      rw [s1, w1]; omega

end Rows

/-! ## Sums over a rank-1 index set -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## The accumulating scatter read at an index -/

/-- (S1) The accumulating scatter into a VECTOR [N] at scatter indices [M, 1] with updates [M], read at element i:
    the operand's element plus the sum of the updates whose start index, read signed and not clamped, is i (an
    update whose index is outside the operand contributes nothing). -/
theorem scatterAdd_vec {φ : FTy} {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd (F := Ideal) d x idx upd (ix1 i) =
      x (ix1 i) + ∑ j : Fin M, if (idx (ix2 j (0 : Fin 1))).toInt = (i.val : ℤ) then upd (ix1 j) else 0 := by
  show x (ix1 i) + ∑ j ∈ Finset.univ.filter (fun j => d.resultIdx? j idx = some (ix1 i)), upd j = _
  congr 1
  rw [Finset.sum_filter, sum_idx1]
  exact Finset.sum_congr rfl fun j _ => if_congr (resultIdx?_vec d h1 h2 h3 h4 idx j i) rfl rfl

/-- (S2) The accumulating scatter of ROWS into [N, C] at scatter indices [M, 1] with updates [M, C], read at
    element (i, c): the operand's element plus the sum over the updates' rows whose start index, read signed and
    not clamped, is i, of their column c. -/
theorem scatterAdd_rows {φ : FTy} {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd (F := Ideal) d x idx upd (ix2 i c) =
      x (ix2 i c) + ∑ j : Fin M, if (idx (ix2 j (0 : Fin 1))).toInt = (i.val : ℤ) then upd (ix2 j c) else 0 := by
  show x (ix2 i c) + ∑ jj ∈ Finset.univ.filter (fun jj => d.resultIdx? jj idx = some (ix2 i c)), upd jj = _
  congr 1
  rw [Finset.sum_filter, sum_idx2]
  refine Finset.sum_congr rfl fun j _ => ?_
  rw [Finset.sum_congr rfl fun b _ => if_congr (resultIdx?_rows d h1 h2 h3 h4 idx j b i c) rfl rfl]
  by_cases ht : (idx (ix2 j (0 : Fin 1))).toInt = (i.val : ℤ)
  · simp only [ht, true_and, if_true]
    rw [Finset.sum_ite_eq' Finset.univ c (fun b => upd (ix2 j b)), if_pos (Finset.mem_univ c)]
  · simp only [ht, false_and, if_false, Finset.sum_const_zero]

/-! ## The same with the start index read unsigned -/

/-- A word reads i signed exactly when it reads i unsigned, for i below half the word range (a word at or above
    half the range reads negative signed). -/
theorem toInt_eq_natCast_iff {w : Nat} (a : BitVec w) (i : Nat) (hi : 2 * i < 2 ^ w) :
    a.toInt = (i : ℤ) ↔ a.toNat = i := by
  have ha := a.isLt
  rw [BitVec.toInt_eq_toNat_cond]
  split_ifs with h
  · exact Nat.cast_inj
  · constructor
    · intro e
      have : (2 ^ w : ℤ) = ((2 ^ w : ℕ) : ℤ) := by push_cast; rfl
      omega
    · intro e
      omega

/-- (S1') The accumulating scatter into a vector [N], N < 2³¹, at 32-bit indices, read at element i, with the
    start index read UNSIGNED: an index at or above 2³¹ is negative read signed and lands nowhere, and it is not
    i read unsigned either. -/
theorem scatterAdd_vec_toNat {φ : FTy} {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ 32)
    (upd : FVec Ideal ⟨1, ![M]⟩ φ) (hN : N < 2 ^ 31) (i : Fin N) :
    Host.scatterAdd (F := Ideal) d x idx upd (ix1 i) =
      x (ix1 i) + ∑ j : Fin M, if (idx (ix2 j (0 : Fin 1))).toNat = i.val then upd (ix1 j) else 0 := by
  rw [scatterAdd_vec d h1 h2 h3 h4]
  congr 1
  refine Finset.sum_congr rfl fun j _ => if_congr ?_ rfl rfl
  exact toInt_eq_natCast_iff _ _ (by have := i.isLt; omega)

/-- (S2') The accumulating scatter of rows into [N, C], N < 2³¹, at 32-bit indices, read at element (i, c), with
    the start index read UNSIGNED. -/
theorem scatterAdd_rows_toNat {φ : FTy} {N C M : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ 32)
    (upd : FVec Ideal ⟨2, ![M, C]⟩ φ) (hN : N < 2 ^ 31) (i : Fin N) (c : Fin C) :
    Host.scatterAdd (F := Ideal) d x idx upd (ix2 i c) =
      x (ix2 i c) + ∑ j : Fin M, if (idx (ix2 j (0 : Fin 1))).toNat = i.val then upd (ix2 j c) else 0 := by
  rw [scatterAdd_rows d h1 h2 h3 h4]
  congr 1
  refine Finset.sum_congr rfl fun j _ => if_congr ?_ rfl rfl
  exact toInt_eq_natCast_iff _ _ (by have := i.isLt; omega)

/-! ## The gather read at an index -/

/-- (G1) The gather from a VECTOR [N], N < 2³¹, at 32-bit start indices [M, 1] (the operand's one axis collapsed
    and start-indexed, the index vector on axis 1), read at result position j whose start index is in range: the
    operand at that index (in range nothing is clamped). -/
theorem gather_vec {α : Type} {N M : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ 32) (hN : N < 2 ^ 31) (j : Fin M)
    (hr : (idx (ix2 j (0 : Fin 1))).toNat < N) :
    Host.gather d x idx (ix1 j) = x (ix1 ⟨(idx (ix2 j (0 : Fin 1))).toNat, hr⟩) := by
  have e1 : (ix1 j : (⟨1, ![M]⟩ : Shape).Idx) = Shape.Idx.ofFin j := by
    funext a
    obtain rfl : a = 0 := Subsingleton.elim _ _
    rfl
  have e2 : StableHlo.Predicate.ixP j = ix2 j (0 : Fin 1) := by
    funext b
    match b with
    | ⟨0, _⟩ => rfl
    | ⟨1, _⟩ => rfl
  rw [e1, StableHlo.Predicate.gather_take d hcoll hob hsim hivd x idx j (by omega)]
  congr 1
  funext a
  obtain rfl : a = 0 := Subsingleton.elim _ _
  apply Fin.ext
  show min (idx (StableHlo.Predicate.ixP j)).toInt.toNat (N - 1) = (idx (ix2 j (0 : Fin 1))).toNat
  rw [e2, StableHlo.Predicate.toInt_eq_toNat_of_lt (by omega), Int.toNat_natCast]
  omega

section GatherRows
variable {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1) (j : Fin M) (c : Fin C)
include hoff hcoll hob hsim hivd

/-- Result position (j, c) reads its start index at (j, 0) of the start indices. -/
theorem siIdx_rows (k : Fin d.startIndexMap.length) : d.siIdx (ix2 j c) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the column axis the offset coordinate is the result's column. -/
theorem offCoord_rows_one : d.offCoord (ix2 j c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end GatherRows

/-- (G2) The gather of ROWS from [N, C], N < 2³¹, at 32-bit start indices [M, 1] (the row axis collapsed and
    start-indexed, the column axis the one offset axis, the index vector on axis 1), read at (j, c) when row j's
    start index is in range: the operand at that row, column c. -/
theorem gather_rows {α : Type} {N C M : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ 32) (hN : N < 2 ^ 31) (j : Fin M) (c : Fin C)
    (hr : (idx (ix2 j (0 : Fin 1))).toNat < N) :
    Host.gather d x idx (ix2 j c) = x (ix2 ⟨(idx (ix2 j (0 : Fin 1))).toNat, hr⟩ c) := by
  have hb : ∀ a, a ∉ d.operandBatchingDims := by
    intro a
    rw [hob]
    exact List.not_mem_nil
  have hsl : d.sliceSizes 0 = 1 := d.slice_collapsed 0 (by rw [hcoll]; exact List.mem_singleton.mpr rfl)
  unfold Host.gather
  congr 1
  funext a
  apply Fin.ext
  revert a
  refine Fin.forall_fin_two.mpr ⟨?_, ?_⟩
  · show d.start (ix2 j c) idx 0 + d.batchCoord (ix2 j c) 0 + d.offCoord (ix2 j c) 0
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix2 j (0 : Fin 1))).toNat (N - 1) + 0 + 0 = _
    omega
  · show d.start (ix2 j c) idx 1 + d.batchCoord (ix2 j c) 1 + d.offCoord (ix2 j c) 1 = c.val
    rw [d.batchCoord_eq_zero _ _ (hb _), offCoord_rows_one d hoff hcoll hob hsim hivd]
    unfold GatherDims.start
    rw [dif_neg (by rw [hsim]; simp)]
    omega

/-! ## A padding and a two-piece concatenation along axis 0, read at an index -/

/-- (P) A VECTOR [N] padded after its end only (low 0, interior 0) to [T], read at k: the vector below its extent,
    the padding scalar at or above it. -/
theorem pad_vec_apply {α : Type} {N T : Nat} (hi : Fin 1 → Nat) (x : (⟨1, ![N]⟩ : Shape).Idx → α)
    (v : (⟨0, ![]⟩ : Shape).Idx → α) (h : (⟨1, ![N]⟩ : Shape).Pads ![0] hi ![0] ⟨1, ![T]⟩)
    (hu : 0 < (⟨0, ![]⟩ : Shape).numel) (k : Fin T) :
    pad ⟨1, ![T]⟩ ![0] hi ![0] x v h hu (ix1 k) = if hk : k.val < N then x (ix1 ⟨k.val, hk⟩) else v ix0 := by
  unfold pad
  split_ifs with hin hk hk
  · congr 1
    funext a
    obtain rfl : a = 0 := Subsingleton.elim _ _
    apply Fin.ext
    show (k.val - 0) / (0 + 1) = k.val
    omega
  · exfalso
    have := (hin 0).2.2
    change (k.val - 0) / (0 + 1) < N at this
    omega
  · exfalso
    refine hin fun a => ?_
    obtain rfl : a = 0 := Subsingleton.elim _ _
    show 0 ≤ k.val ∧ (k.val - 0) % (0 + 1) = 0 ∧ (k.val - 0) / (0 + 1) < N
    omega
  · exact congrArg v (eq_ix0 _)

/-- (P) ROWS [N, C] padded after the last row only (low 0, interior 0; the column axis not padded) to [T, C], read
    at (k, c): the rows below their extent, the padding scalar at or above it. -/
theorem pad_rows_apply {α : Type} {N C T : Nat} (hi : Fin 2 → Nat) (x : (⟨2, ![N, C]⟩ : Shape).Idx → α)
    (v : (⟨0, ![]⟩ : Shape).Idx → α) (h : (⟨2, ![N, C]⟩ : Shape).Pads ![0, 0] hi ![0, 0] ⟨2, ![T, C]⟩)
    (hu : 0 < (⟨0, ![]⟩ : Shape).numel) (k : Fin T) (c : Fin C) :
    pad ⟨2, ![T, C]⟩ ![0, 0] hi ![0, 0] x v h hu (ix2 k c)
      = if hk : k.val < N then x (ix2 ⟨k.val, hk⟩ c) else v ix0 := by
  have hc := c.isLt
  unfold pad
  split_ifs with hin hk hk
  · congr 1
    funext a
    apply Fin.ext
    revert a
    refine Fin.forall_fin_two.mpr ⟨?_, ?_⟩
    · show (k.val - 0) / (0 + 1) = k.val
      omega
    · show (c.val - 0) / (0 + 1) = c.val
      omega
  · exfalso
    have := (hin 0).2.2
    change (k.val - 0) / (0 + 1) < N at this
    omega
  · exfalso
    refine hin (Fin.forall_fin_two.mpr ⟨?_, ?_⟩)
    · show 0 ≤ k.val ∧ (k.val - 0) % (0 + 1) = 0 ∧ (k.val - 0) / (0 + 1) < N
      omega
    · show 0 ≤ c.val ∧ (c.val - 0) % (0 + 1) = 0 ∧ (c.val - 0) / (0 + 1) < C
      omega
  · exact congrArg v (eq_ix0 _)

/-- (C) Two vectors [N₁], [N₂] concatenated to [T], read at a position below the first extent: the first. -/
theorem concatenate_vec_left {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : k.val < N₁) :
    concatenate ⟨1, ![T]⟩ 0 [⟨⟨1, ![N₁]⟩, a⟩, ⟨⟨1, ![N₂]⟩, b⟩] h (ix1 k) = a (ix1 ⟨k.val, hk⟩) := by
  refine concatenate_pair_apply_left 0 a b h (ix1 k) rfl (ix1 ⟨k.val, hk⟩) fun c => ?_
  obtain rfl : c = 0 := Subsingleton.elim _ _
  rfl

/-- (C) Two vectors [N₁], [N₂] concatenated to [T], read at a position at or above the first extent: the second,
    the first extent less. -/
theorem concatenate_vec_right {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : N₁ ≤ k.val)
    (hk2 : k.val - N₁ < N₂) :
    concatenate ⟨1, ![T]⟩ 0 [⟨⟨1, ![N₁]⟩, a⟩, ⟨⟨1, ![N₂]⟩, b⟩] h (ix1 k) = b (ix1 ⟨k.val - N₁, hk2⟩) := by
  refine concatenate_pair_apply_right 0 a b h (ix1 k) rfl rfl (ix1 ⟨k.val - N₁, hk2⟩) (fun c hc => ?_) ?_
  · obtain rfl : c = 0 := Subsingleton.elim _ _
    exact absurd rfl hc
  · show k.val - N₁ + N₁ = k.val
    omega

/-! ## Sums over a range cut in two, and over a padded range -/

/-- A sum over [0, T) with T = N₁ + N₂ is the sum over [0, N₁) plus the sum over [N₁, T), the latter re-indexed
    from 0. -/
theorem sum_fin_split {A : Type*} [AddCommMonoid A] {N₁ N₂ T : Nat} (hT : T = N₁ + N₂) (f : Fin T → A) :
    ∑ k : Fin T, f k
      = ∑ k : Fin N₁, f ⟨k.val, by have := k.isLt; omega⟩ + ∑ k : Fin N₂, f ⟨N₁ + k.val, by have := k.isLt; omega⟩ := by
  subst hT
  rw [Fin.sum_univ_add]
  rfl

/-- A sum over a padded range [0, T) of a family that is zero at and above N ≤ T is the sum over [0, N). -/
theorem sum_fin_padded {A : Type*} [AddCommMonoid A] {N T : Nat} (hNT : N ≤ T) (f : Fin N → A) :
    ∑ k : Fin T, (if hk : k.val < N then f ⟨k.val, hk⟩ else 0) = ∑ k : Fin N, f k := by
  obtain ⟨H, rfl⟩ := Nat.exists_eq_add_of_le hNT
  rw [Fin.sum_univ_add]
  have h2 : ∑ k : Fin H, (if hk : (Fin.natAdd N k).val < N then f ⟨(Fin.natAdd N k).val, hk⟩ else 0) = 0 :=
    Finset.sum_eq_zero fun k _ => dif_neg (by simp)
  rw [h2, add_zero]
  refine Finset.sum_congr rfl fun k _ => ?_
  rw [dif_pos (by simp)]
  rfl

end Cert.LibScatter
-- ==== Proof.LibScatterCols.lean ====
/-
  The host's accumulating scatter READ AT AN INDEX, at the ideal instance, for a scatter ALONG AXIS 1 ("columns"):
  an operand [R, N], scatter indices [M, 1] and updates [R, M], where the updates' axis 0 is the one window axis
  (it goes to the operand's axis 0) and the operand's axis 1 is the inserted axis the start index names. Update
  (r', j) lands on element (r, o) exactly when column j's start index, read signed, is o and r' = r; an update whose
  start index is outside [0, N) lands nowhere. Every lemma is over an arbitrary dimension-number record whose fields
  are fixed by hypotheses, each closed by rfl on a program's own record.

  resultIdx?_cols: where an update lands. scatterAdd_cols: the scatter at element (r, o) is the operand's element
  plus the sum, over the update columns j whose start index read SIGNED is o, of the update's (r, j).
  scatterAdd_cols_toNat: the same with the index read unsigned, for 32-bit indices and N < 2³¹.
-/
import Idealize.ShloMosaic.Lib.ValueIdx
import Idealize.ShloMosaic.Lib.Pipeline.Value
import Mathlib.Algebra.BigOperators.Fin
import proofs.«403119_j6691559047459_3_alg».proof.Proof.LibScatter

noncomputable section

open scoped BigOperators

namespace Cert.LibScatterCols

open Idealize.ShloMosaic Idealize.ShloMosaic.ValueIdx

/-! ## Where an update lands: columns -/

section Cols
variable {R N M w : Nat} (d : ScatterDims ⟨2, ![R, N]⟩ ⟨2, ![M, 1]⟩ ⟨2, ![R, M]⟩)
  (h1 : d.updateWindowDims = [0]) (h2 : d.insertedWindowDims = [1]) (h3 : d.scatterDimsToOperandDims = [1])
  (h4 : d.indexVectorDim = 1) (idx : IVec ⟨2, ![M, 1]⟩ w) (r' : Fin R) (j : Fin M)
include h1 h2 h3 h4

/-- On the row axis, which the start index map does not name, the window starts at 0. -/
theorem start_cols_zero : d.start (ix2 r' j) idx 0 = 0 := by
  obtain ⟨uw, iw, sd, iv, wf⟩ := d
  simp only at h1 h2 h3 h4
  subst h1 h2 h3 h4
  unfold ScatterDims.start
  rw [dif_neg (by simp)]

/-- On the column axis an update's window starts at its column's start index, read signed. -/
theorem start_cols_one : d.start (ix2 r' j) idx 1 = (idx (ix2 j (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- On the row axis the window coordinate is the update's row. -/
theorem window_cols_zero : d.window (ix2 r' j) 0 = r'.val := by
  obtain ⟨uw, iw, sd, iv, wf⟩ := d
  simp only at h1 h2 h3 h4
  subst h1 h2 h3 h4
  unfold ScatterDims.window
  rw [dif_pos (by simp [ScatterDims.sKept, Shape.kept])]
  rfl

/-- The column axis is an inserted window axis: the window coordinate there is 0. -/
theorem window_cols_one : d.window (ix2 r' j) 1 = 0 := by
  obtain ⟨uw, iw, sd, iv, wf⟩ := d
  simp only at h1 h2 h3 h4
  subst h1 h2 h3 h4
  unfold ScatterDims.window
  rw [dif_neg (by simp [ScatterDims.sKept, Shape.kept])]

/-- For an operand [R, N], scatter indices [M, 1] and updates [R, M] (the column axis inserted, the row axis the
    update window): update (r', j) lands on element (r, o) exactly when column j's start index, read signed, is o
    and r' = r. -/
theorem resultIdx?_cols (r : Fin R) (o : Fin N) :
    d.resultIdx? (ix2 r' j) idx = some (ix2 r o) ↔ (idx (ix2 j (0 : Fin 1))).toInt = (o.val : ℤ) ∧ r' = r := by
  have s0 := start_cols_zero d h1 h2 h3 h4 idx r' j
  have s1 := start_cols_one d h1 h2 h3 h4 idx r' j
  have w0 := window_cols_zero d h1 h2 h3 h4 r' j
  have w1 := window_cols_one d h1 h2 h3 h4 r' j
  unfold ScatterDims.resultIdx?
  constructor
  · intro h
    split_ifs at h with hc
    have e := Option.some.inj h
    have e0 : (d.start (ix2 r' j) idx 0 + (d.window (ix2 r' j) 0 : ℕ)).toNat = r.val :=
      congrArg Fin.val (congrFun e 0)
    have e1 : (d.start (ix2 r' j) idx 1 + (d.window (ix2 r' j) 1 : ℕ)).toNat = o.val :=
      congrArg Fin.val (congrFun e 1)
    have hc1 := (hc 1).1
    rw [s0, w0] at e0
    rw [s1, w1] at e1 hc1
    refine ⟨by omega, Fin.ext (by omega)⟩
  · rintro ⟨ht, rfl⟩
    have ho := o.isLt
    have hr' := r'.isLt
    have hc : ∀ a : Fin 2, 0 ≤ d.start (ix2 r' j) idx a + (d.window (ix2 r' j) a : ℕ) ∧
        d.start (ix2 r' j) idx a + (d.window (ix2 r' j) a : ℕ) < ((![R, N] a : ℕ) : ℤ) := by
      refine Fin.forall_fin_two.mpr ⟨?_, ?_⟩
      · rw [s0, w0]; simp only [Matrix.cons_val_zero]; omega
      · rw [s1, w1]; simp only [Matrix.cons_val_one, Matrix.cons_val_zero]; omega
    rw [dif_pos hc]
    congr 1
    funext a
    apply Fin.ext
    revert a
    refine Fin.forall_fin_two.mpr ⟨?_, ?_⟩
    · show (d.start (ix2 r' j) idx 0 + (d.window (ix2 r' j) 0 : ℕ)).toNat = r'.val
      rw [s0, w0]; omega
    · show (d.start (ix2 r' j) idx 1 + (d.window (ix2 r' j) 1 : ℕ)).toNat = o.val
      rw [s1, w1]; omega

end Cols

/-! ## The accumulating scatter read at an index -/

/-- The accumulating scatter of COLUMNS into [R, N] at scatter indices [M, 1] with updates [R, M], read at element
    (r, o): the operand's element plus the sum over the update columns whose start index, read signed and not
    clamped, is o, of their row r (a column whose index is outside the operand contributes nothing). -/
theorem scatterAdd_cols {φ : FTy} {R N M w : Nat} (d : ScatterDims ⟨2, ![R, N]⟩ ⟨2, ![M, 1]⟩ ⟨2, ![R, M]⟩)
    (h1 : d.updateWindowDims = [0]) (h2 : d.insertedWindowDims = [1]) (h3 : d.scatterDimsToOperandDims = [1])
    (h4 : d.indexVectorDim = 1) (x : FVec Ideal ⟨2, ![R, N]⟩ φ) (idx : IVec ⟨2, ![M, 1]⟩ w)
    (upd : FVec Ideal ⟨2, ![R, M]⟩ φ) (r : Fin R) (o : Fin N) :
    Host.scatterAdd (F := Ideal) d x idx upd (ix2 r o) =
      x (ix2 r o) + ∑ j : Fin M, if (idx (ix2 j (0 : Fin 1))).toInt = (o.val : ℤ) then upd (ix2 r j) else 0 := by
  show x (ix2 r o) + ∑ jj ∈ Finset.univ.filter (fun jj => d.resultIdx? jj idx = some (ix2 r o)), upd jj = _
  congr 1
  rw [Finset.sum_filter, sum_idx2, Finset.sum_comm]
  refine Finset.sum_congr rfl fun j _ => ?_
  rw [Finset.sum_congr rfl fun b _ => if_congr (resultIdx?_cols d h1 h2 h3 h4 idx b j r o) rfl rfl]
  by_cases ht : (idx (ix2 j (0 : Fin 1))).toInt = (o.val : ℤ)
  · simp only [ht, true_and, if_true]
    rw [Finset.sum_ite_eq' Finset.univ r (fun b => upd (ix2 b j)), if_pos (Finset.mem_univ r)]
  · simp only [ht, false_and, if_false, Finset.sum_const_zero]

/-- The accumulating scatter of columns into [R, N], N < 2³¹, at 32-bit indices, read at element (r, o), with the
    start index read UNSIGNED: an index at or above 2³¹ is negative read signed and lands nowhere, and it is not o
    read unsigned either. -/
theorem scatterAdd_cols_toNat {φ : FTy} {R N M : Nat} (d : ScatterDims ⟨2, ![R, N]⟩ ⟨2, ![M, 1]⟩ ⟨2, ![R, M]⟩)
    (h1 : d.updateWindowDims = [0]) (h2 : d.insertedWindowDims = [1]) (h3 : d.scatterDimsToOperandDims = [1])
    (h4 : d.indexVectorDim = 1) (x : FVec Ideal ⟨2, ![R, N]⟩ φ) (idx : IVec ⟨2, ![M, 1]⟩ 32)
    (upd : FVec Ideal ⟨2, ![R, M]⟩ φ) (hN : N < 2 ^ 31) (r : Fin R) (o : Fin N) :
    Host.scatterAdd (F := Ideal) d x idx upd (ix2 r o) =
      x (ix2 r o) + ∑ j : Fin M, if (idx (ix2 j (0 : Fin 1))).toNat = o.val then upd (ix2 r j) else 0 := by
  rw [scatterAdd_cols d h1 h2 h3 h4]
  congr 1
  refine Finset.sum_congr rfl fun j _ => if_congr ?_ rfl rfl
  exact Cert.LibScatter.toInt_eq_natCast_iff _ _ (by have := o.isLt; omega)

end Cert.LibScatterCols
-- ==== Proof.RefValue.lean ====
/-
  The reference's value: its scatter-add along the column axis, read at an output entry, is the specification's
  sum. The reference multiplies x by the broadcast sign, wraps a negative bucket word by 1024 (no word is negative
  under the precondition, so the wrap does nothing), and scatter-adds column i of the product into output column
  sel i, starting from zeros.
-/
import proofs.«403119_j6691559047459_3_alg».proof.Defs
import proofs.«403119_j6691559047459_3_alg».proof.Proof.Gen.ReferenceIdeal.Read
import proofs.«403119_j6691559047459_3_alg».proof.Proof.Spec
import proofs.«403119_j6691559047459_3_alg».proof.Proof.LibScatterCols
import Idealize.ShloMosaic.PureOps.Ideal.Laws
import Idealize.ShloMosaic.Lib.Affine

noncomputable section

open scoped BigOperators

namespace Cert.RefValue

open Idealize.ShloMosaic Idealize.ShloMosaic.ValueIdx Cert.ReferenceIdeal Cert.ReferenceIdeal.Read

variable [Cert.ReferenceIdeal.Facts]

/-- The scatter's operand is zero everywhere. -/
theorem v3_zero (i : Cert.ReferenceIdeal.S32x1024.Idx) : val_main_v3 (F := Ideal) i = 0 := by
  rw [val_main_v3_apply, val_main_cst_apply]
  exact Ideal.ofBits_zero_f32

/-- The scatter's update at (b, j) is x (b, j) · sign j. -/
theorem v2_at (x0 : FVec Ideal Cert.ReferenceIdeal.S32x1000000 .f32) (x2 : FVec Ideal Cert.ReferenceIdeal.S1000000 .f32)
    (b : Fin 32) (j : Fin 1000000) :
    val_main_v2 (F := Ideal) x0 x2 (ix2 b j) = x0 (ix2 b j) * x2 (ix1 j) := by
  rw [val_main_v2_apply, val_main_v1_apply, val_main_v0_apply]
  have e : idx_main_v0 (idx_main_v1 (ix2 b j)) = ix1 j := by
    funext a
    match a with
    | ⟨0, _⟩ => rfl
  rw [e]
  rfl

/-- The scatter's index for column j is the bucket word itself: a word that is not negative is not wrapped. -/
theorem v9_at (x1 : IVec Cert.ReferenceIdeal.S1000000 32) (hsel : ∀ i : Fin 1000000, 0 ≤ (x1 (ix1 i)).toInt)
    (j : Fin 1000000) :
    val_main_v9 (F := Ideal) x1 (ix2 j (0 : Fin 1)) = x1 (ix1 j) := by
  rw [val_main_v9_apply, val_main_v8_apply, val_main_v5_apply, val_main_v4_apply, val_main_c_apply]
  have e : idx_main_v9 (ix2 j (0 : Fin 1)) = ix1 j := by
    funext a
    match a with
    | ⟨0, _⟩ => rfl
  rw [e]
  unfold Scalar.select
  rw [if_neg]
  intro hc
  have hlt := IntOp.cmpi_slt.1 hc
  have h0 := hsel j
  rw [BitVec.toInt_zero] at hlt
  omega

/-- The reference's result at output entry (b, o): every column's contribution. -/
theorem ref_at (x0 : FVec Ideal Cert.ReferenceIdeal.S32x1000000 .f32) (x1 : IVec Cert.ReferenceIdeal.S1000000 32)
    (x2 : FVec Ideal Cert.ReferenceIdeal.S1000000 .f32) (hsel : ∀ i : Fin 1000000, 0 ≤ (x1 (ix1 i)).toInt)
    (b : Fin 32) (o : Fin 1024) :
    Cert.ReferenceIdeal.Read.val_main_v10 (F := Ideal) x0 x1 x2 (ix2 b o)
      = ∑ i : Fin 1000000, Cert.Spec.term x0 x1 x2 b o i := by
  unfold val_main_v10
  rw [Cert.LibScatterCols.scatterAdd_cols_toNat (R := 32) (N := 1024) (M := 1000000) (φ := .f32) _ rfl rfl rfl rfl _ _ _
    (by norm_num) b o, v3_zero, zero_add]
  refine Finset.sum_congr rfl fun j _ => ?_
  rw [v9_at x1 hsel j, v2_at x0 x2 b j]
  rfl

/-- The reference computes the specification's function. -/
theorem ref_eq_G (x0 : FVec Ideal Cert.ReferenceIdeal.S32x1000000 .f32) (x1 : IVec Cert.ReferenceIdeal.S1000000 32)
    (x2 : FVec Ideal Cert.ReferenceIdeal.S1000000 .f32) (hsel : ∀ i : Fin 1000000, 0 ≤ (x1 (ix1 i)).toInt) :
    Cert.ReferenceIdeal.Read.val_main_v10 (F := Ideal) x0 x1 x2 = Cert.Spec.G x0 x1 x2 := by
  funext j
  have hj : j = ix2 (n0 := 32) (n1 := 1024) (j 0) (j 1) := eq_ix2 (n0 := 32) (n1 := 1024) j
  rw [hj]
  exact ref_at x0 x1 x2 hsel (j 0) (j 1)

end Cert.RefValue
-- ==== Proof.PreSel.lean ====
/-
  What the precondition says of the bucket words: when the printed precondition holds (its one word is 1), every
  bucket word is non-negative read signed. The precondition is a conjunction of three "all" reductions; the last is
  the reduction by "and" of the elementwise signed comparison sel ≥ 0, so its being 1 gives the comparison at every
  index.
-/
import proofs.«403119_j6691559047459_3_alg».proof.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.PreSel

open Idealize.ShloMosaic Idealize.ShloMosaic.ValueIdx

/-- The rank-0 shape has one index. -/
instance : Subsingleton Cert.Pre_finite_inputs.S_.Idx := ⟨fun a b => funext fun d => d.elim0⟩

/-- Over any float instance: the precondition's word being 1 makes every bucket word non-negative read signed. -/
theorem sel_nonneg_of_pre_gen {F : FTy → Type} [FloatOps F] [Cert.Pre_finite_inputs.Facts]
    (a0 : FVec F Cert.Pre_finite_inputs.S32x1000000 .f32)
    (a1 : IVec Cert.Pre_finite_inputs.S1000000 32) (a2 : FVec F Cert.Pre_finite_inputs.S1000000 .f32)
    (h : Cert.Pre_finite_inputs.fn (F := F) a0 a1 a2 = fun _ => 1#1) :
    ∀ i : Fin 1000000, 0 ≤ (a1 (ix1 i)).toInt := by
  intro i
  have h0 := congrFun h ix0
  dsimp only [Cert.Pre_finite_inputs.fn] at h0
  -- the last conjunct: the reduction of the comparison sel ≥ 0
  obtain ⟨_, h1⟩ := IntOp.andi_eq_one.1 h0
  -- every entry of the comparison is 1
  have h2 := Host.reduce_andi_all _ _ _ _ _ h1 (ix1 i)
  -- the comparison read signed
  have h3 := IntOp.cmpi_sge.1 h2
  -- the right operand is the broadcast of the scalar 0
  rw [broadcastInDim_apply _ _ _ (ix1 i) ix0 (fun a => a.elim0)] at h3
  exact h3

/-- At the ideal instance. -/
theorem sel_nonneg_of_pre [Cert.Pre_finite_inputs.Facts] (a0 : FVec Ideal Cert.Pre_finite_inputs.S32x1000000 .f32)
    (a1 : IVec Cert.Pre_finite_inputs.S1000000 32) (a2 : FVec Ideal Cert.Pre_finite_inputs.S1000000 .f32)
    (h : Cert.Pre_finite_inputs.fn (F := Ideal) a0 a1 a2 = fun _ => 1#1) :
    ∀ i : Fin 1000000, 0 ≤ (a1 (ix1 i)).toInt :=
  sel_nonneg_of_pre_gen a0 a1 a2 h

end Cert.PreSel
-- ==== Proof.lean ====
import proofs.«403119_j6691559047459_3_alg».proof.Defs
import proofs.«403119_j6691559047459_3_alg».proof.Proof.Gen.Kernel
import proofs.«403119_j6691559047459_3_alg».proof.Proof.Gen.KernelIdeal
import proofs.«403119_j6691559047459_3_alg».proof.Proof.Gen.ReferenceIdeal
import proofs.«403119_j6691559047459_3_alg».proof.Proof.Gen.Pre_finite_inputs
import proofs.«403119_j6691559047459_3_alg».proof.Proof.Gen.ReferenceIdeal.Run
import proofs.«403119_j6691559047459_3_alg».proof.Proof.Gen.ReferenceIdeal.Read
import proofs.«403119_j6691559047459_3_alg».proof.Proof.HostFoldK
import proofs.«403119_j6691559047459_3_alg».proof.Proof.KernelValue
import proofs.«403119_j6691559047459_3_alg».proof.Proof.PayloadValue
import proofs.«403119_j6691559047459_3_alg».proof.Proof.RefValue
import proofs.«403119_j6691559047459_3_alg».proof.Proof.PreSel

/-!
A signed feature hash, out[b, o] = Σ over the columns i whose bucket sel[i] is o of sign[i] · x[b, i], computed two
ways: by a kernel that multiplies blocks of x · sign against 0/1 indicator masks (mask[o, i] = 1 when sel[i] = o)
and accumulates the products over a 2 × 61 grid of 8192-column blocks, four 2048-column chunks a block, plus one
more product for the last 576 columns; and by a scatter-add of the columns x · sign into their buckets.

Over the extended reals both are the same sum: a product with the indicator keeps a column's term where the mask
is one (a · 1 = a) and drops it where it is zero (a · 0 = 0), a matrix product is the sum over its contraction
index, and the kernel's accumulation adds adjacent ranges of columns, which only regroups one sum (addition of
extended reals is associative and commutative; nothing here distributes or cancels, so finiteness of the inputs is
never used). The two differ only on how a NEGATIVE bucket word is read — the scatter wraps it around once, the mask
never matches it — so the statement asks the bucket words to be non-negative; a word at or above 1024 lands nowhere
in either program.

The three frames: both kernel programs run region by region (each region's body by symbolic execution at a
generic grid point, the accumulator followed from point to point), and the reference is its generated run.
-/

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- Both idealized programs end with the specification's function of the three arguments. -/
theorem algebraic : Cert.algebraic_KernelIdeal_ReferenceIdeal := by
  intro m ρ m' ρ' hpre hagree
  refine ⟨fun c => Cert.Spec.G (Cert.KernelIdeal.Hand.argX m c) (Cert.KernelIdeal.Hand.argSel m c) (Cert.KernelIdeal.Hand.argSign m c), ?_, ?_⟩
  · refine (θ_run Cert.KernelIdeal.defs _ _).mono (fun r h c => ⟨?_, ?_, ?_, ?_⟩) (Cert.KernelIdeal.Hand.run_all (F := Ideal) m ρ)
    · exact (h c _ (Cert.KernelIdeal.Hand.mem_uc Cert.KernelIdeal.main_v10 (by decide))).trans
        (Cert.KernelIdeal.Hand.result_value m ρ Cert.KernelIdeal.Hand.outFirst_apply Cert.KernelIdeal.Hand.outLater_apply
          Cert.KernelIdeal.Hand.outTail_apply c)
    · exact (h c _ (Cert.KernelIdeal.Hand.mem_uc Cert.KernelIdeal.main_arg0 (by decide))).trans (Cert.KernelIdeal.Hand.W4_arg0 m ρ c)
    · exact (h c _ (Cert.KernelIdeal.Hand.mem_uc Cert.KernelIdeal.main_arg1 (by decide))).trans (Cert.KernelIdeal.Hand.W4_arg1 m ρ c)
    · exact (h c _ (Cert.KernelIdeal.Hand.mem_uc Cert.KernelIdeal.main_arg2 (by decide))).trans (Cert.KernelIdeal.Hand.W4_arg2 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, (hagree c).1, (hagree c).2.1, (hagree c).2.2]
    exact Cert.RefValue.ref_eq_G _ _ _ (Cert.PreSel.sel_nonneg_of_pre _ _ _ (hpre c))

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
